-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S32x3x3x32 : Shape := ⟨4, ![32, 3, 3, 32]⟩
abbrev S32 : Shape := ⟨1, ![32]⟩
abbrev S2x9x262144 : Shape := ⟨3, ![2, 9, 262144]⟩
abbrev S9 : Shape := ⟨1, ![9]⟩
abbrev S_ : Shape := ⟨0, ![]⟩
abbrev S1x9x262144 : Shape := ⟨3, ![1, 9, 262144]⟩
abbrev S9x262144 : Shape := ⟨2, ![9, 262144]⟩

class Facts : Prop where
  bcast_S_S262144x32 : S_.BroadcastsInDim S262144x32 (![] : Fin 0 → Fin S262144x32.rank)
  reducesTo_S262144x32_S_d0_1 : S262144x32.ReducesTo [0, 1] S_
  h_S_ : 0 < S_.numel
  bcast_S_S32x3x3x32 : S_.BroadcastsInDim S32x3x3x32 (![] : Fin 0 → Fin S32x3x3x32.rank)
  reducesTo_S32x3x3x32_S_d0_1_2_3 : S32x3x3x32.ReducesTo [0, 1, 2, 3] S_
  bcast_S_S32 : S_.BroadcastsInDim S32 (![] : Fin 0 → Fin S32.rank)
  reducesTo_S32_S_d0 : S32.ReducesTo [0] S_
  slices_S2x9x262144_S1x9x262144_0_0_0 : S2x9x262144.Slices ![0, 0, 0] S1x9x262144
  shapeCasts_S1x9x262144_S9x262144 : S1x9x262144.ShapeCasts S9x262144
  bcast_S_S9x262144 : S_.BroadcastsInDim S9x262144 (![] : Fin 0 → Fin S9x262144.rank)
  reducesTo_S9x262144_S_d0_1 : S9x262144.ReducesTo [0, 1] S_
  bcast_S_S9 : S_.BroadcastsInDim S9 (![] : Fin 0 → Fin S9.rank)
  reducesTo_S9_S_d0 : S9.ReducesTo [0] S_

variable [Facts]

def fn_part1 {F : FTy → Type} [FloatOps F] (main_arg3 : IVec S2x9x262144 32) (main_arg4 : IVec S9 32) (main_v13 : IVec S_ 1) (main_v15 : IVec S9x262144 32) (main_v16 : IVec S9x262144 32) : IVec S_ 1 :=
  let main_v17 : IVec S9x262144 1 := cmpi .sge main_v15 main_v16
  let main_c_5 : IVec S_ 1 := constantI S_ 1 1#1
  let main_v18 : IVec S_ 1 := (fun x v => Host.reduce IntOp.andi x v reducesTo_S9x262144_S_d0_1 h_S_) main_v17 main_c_5
  let main_v19 : IVec S_ 1 := andi main_v13 main_v18
  let main_v20 : IVec S1x9x262144 32 := (extractStridedSlice S1x9x262144 ![0, 0, 0] · slices_S2x9x262144_S1x9x262144_0_0_0) main_arg3
  let main_v21 : IVec S9x262144 32 := shapeCast S9x262144 main_v20 shapeCasts_S1x9x262144_S9x262144
  let main_c_6 : IVec S_ 32 := constantI S_ 32 262144#32
  let main_v22 : IVec S9x262144 32 := broadcastInDim S9x262144 ![] bcast_S_S9x262144 main_c_6
  let main_v23 : IVec S9x262144 1 := cmpi .slt main_v21 main_v22
  let main_c_7 : IVec S_ 1 := constantI S_ 1 1#1
  let main_v24 : IVec S_ 1 := (fun x v => Host.reduce IntOp.andi x v reducesTo_S9x262144_S_d0_1 h_S_) main_v23 main_c_7
  let main_v25 : IVec S_ 1 := andi main_v19 main_v24
  let main_c_8 : IVec S_ 32 := constantI S_ 32 262144#32
  let main_v26 : IVec S9 32 := broadcastInDim S9 ![] bcast_S_S9 main_c_8
  let main_v27 : IVec S9 1 := cmpi .sle main_arg4 main_v26
  let main_c_9 : IVec S_ 1 := constantI S_ 1 1#1
  let main_v28 : IVec S_ 1 := (fun x v => Host.reduce IntOp.andi x v reducesTo_S9_S_d0 h_S_) main_v27 main_c_9
  let main_v29 : IVec S_ 1 := andi main_v25 main_v28
  main_v29

def fn {F : FTy → Type} [FloatOps F] (main_arg0 : FVec F S262144x32 .f32) (main_arg1 : FVec F S32x3x3x32 .f32) (main_arg2 : FVec F S32 .f32) (main_arg3 : IVec S2x9x262144 32) (main_arg4 : IVec S9 32) : IVec S_ 1 :=
  let main_v0 : FVec F S262144x32 .f32 := Host.absf main_arg0
  let main_cst : FVec F S_ .f32 := constant S_ .f32 0x7F800000#32
  let main_v1 : FVec F S262144x32 .f32 := broadcastInDim S262144x32 ![] bcast_S_S262144x32 main_cst
  let main_v2 : IVec S262144x32 1 := cmpf .olt main_v0 main_v1
  let main_c : IVec S_ 1 := constantI S_ 1 1#1
  let main_v3 : IVec S_ 1 := (fun x v => Host.reduce IntOp.andi x v reducesTo_S262144x32_S_d0_1 h_S_) main_v2 main_c
  let main_v4 : FVec F S32x3x3x32 .f32 := Host.absf main_arg1
  let main_cst_0 : FVec F S_ .f32 := constant S_ .f32 0x7F800000#32
  let main_v5 : FVec F S32x3x3x32 .f32 := broadcastInDim S32x3x3x32 ![] bcast_S_S32x3x3x32 main_cst_0
  let main_v6 : IVec S32x3x3x32 1 := cmpf .olt main_v4 main_v5
  let main_c_1 : IVec S_ 1 := constantI S_ 1 1#1
  let main_v7 : IVec S_ 1 := (fun x v => Host.reduce IntOp.andi x v reducesTo_S32x3x3x32_S_d0_1_2_3 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : IVec S1x9x262144 32 := (extractStridedSlice S1x9x262144 ![0, 0, 0] · slices_S2x9x262144_S1x9x262144_0_0_0) main_arg3
  let main_v15 : IVec S9x262144 32 := shapeCast S9x262144 main_v14 shapeCasts_S1x9x262144_S9x262144
  let main_c_4 : IVec S_ 32 := constantI S_ 32 0#32
  let main_v16 : IVec S9x262144 32 := broadcastInDim S9x262144 ![] bcast_S_S9x262144 main_c_4
  fn_part1 (F := F) main_arg3 main_arg4 main_v13 main_v15 main_v16
-- ==== Kernel.lean ====
abbrev S262144x32 : Shape := ⟨2, ![262144, 32]⟩
abbrev S32x3x3x32 : Shape := ⟨4, ![32, 3, 3, 32]⟩
abbrev S32 : Shape := ⟨1, ![32]⟩
abbrev S2x9x262144 : Shape := ⟨3, ![2, 9, 262144]⟩
abbrev S9 : Shape := ⟨1, ![9]⟩
abbrev S32x9x32 : Shape := ⟨3, ![32, 9, 32]⟩
abbrev S9x32x32 : Shape := ⟨3, ![9, 32, 32]⟩
abbrev S_ : Shape := ⟨0, ![]⟩
abbrev S9x32x128 : Shape := ⟨3, ![9, 32, 128]⟩
abbrev S9x128x128 : Shape := ⟨3, ![9, 128, 128]⟩
abbrev S1x9x262144 : Shape := ⟨3, ![1, 9, 262144]⟩
abbrev S9x262144 : Shape := ⟨2, ![9, 262144]⟩
abbrev S262144 : Shape := ⟨1, ![262144]⟩
abbrev S1x262144 : Shape := ⟨2, ![1, 262144]⟩
abbrev S9x1 : Shape := ⟨2, ![9, 1]⟩
abbrev S1x32 : Shape := ⟨2, ![1, 32]⟩
abbrev S262145x32 : Shape := ⟨2, ![262145, 32]⟩
abbrev S9x262144x1 : Shape := ⟨3, ![9, 262144, 1]⟩
abbrev S9x262144x32 : Shape := ⟨3, ![9, 262144, 32]⟩
abbrev S9x65536x128 : Shape := ⟨3, ![9, 65536, 128]⟩
abbrev S1x8192x128 : Shape := ⟨3, ![1, 8192, 128]⟩
abbrev S1 : Shape := ⟨1, ![1]⟩
abbrev S1x128x128 : Shape := ⟨3, ![1, 128, 128]⟩
abbrev S8192x128 : Shape := ⟨2, ![8192, 128]⟩
abbrev S128x128 : Shape := ⟨2, ![128, 128]⟩
abbrev S2359296 : Shape := ⟨1, ![2359296]⟩
abbrev S2359296x32 : Shape := ⟨2, ![2359296, 32]⟩
abbrev S2359296x1 : Shape := ⟨2, ![2359296, 1]⟩

abbrev nBuf : Space → Nat
  | .hbm => 57
  | .vmem => 6
  | .smem => 1
  | _ => 0

abbrev bufTy : (tb : Table) → Fin (tcTables nBuf tb) → BufTy
  | .hbm, ⟨0, _⟩ => ⟨S262144x32, .f32⟩
  | .hbm, ⟨1, _⟩ => ⟨S32x3x3x32, .f32⟩
  | .hbm, ⟨2, _⟩ => ⟨S32, .f32⟩
  | .hbm, ⟨3, _⟩ => ⟨S2x9x262144, .i32⟩
  | .hbm, ⟨4, _⟩ => ⟨S32x9x32, .f32⟩
  | .hbm, ⟨5, _⟩ => ⟨S9x32x32, .f32⟩
  | .hbm, ⟨6, _⟩ => ⟨S9x32x32, .bf16⟩
  | .hbm, ⟨7, _⟩ => ⟨S_, .bf16⟩
  | .hbm, ⟨8, _⟩ => ⟨S9x32x32, .bf16⟩
  | .hbm, ⟨9, _⟩ => ⟨S9x32x128, .bf16⟩
  | .hbm, ⟨10, _⟩ => ⟨S9x32x128, .bf16⟩
  | .hbm, ⟨11, _⟩ => ⟨S9x32x128, .bf16⟩
  | .hbm, ⟨12, _⟩ => ⟨S9x32x128, .bf16⟩
  | .hbm, ⟨13, _⟩ => ⟨S9x128x128, .bf16⟩
  | .hbm, ⟨14, _⟩ => ⟨S1x9x262144, .i32⟩
  | .hbm, ⟨15, _⟩ => ⟨S9x262144, .i32⟩
  | .hbm, ⟨16, _⟩ => ⟨S1x9x262144, .i32⟩
  | .hbm, ⟨17, _⟩ => ⟨S9x262144, .i32⟩
  | .hbm, ⟨18, _⟩ => ⟨S262144, .i32⟩
  | .hbm, ⟨19, _⟩ => ⟨S1x262144, .i32⟩
  | .hbm, ⟨20, _⟩ => ⟨S9x1, .i32⟩
  | .hbm, ⟨21, _⟩ => ⟨S9x262144, .i32⟩
  | .hbm, ⟨22, _⟩ => ⟨S9x262144, .i32⟩
  | .hbm, ⟨23, _⟩ => ⟨S9x262144, .i1⟩
  | .hbm, ⟨24, _⟩ => ⟨S_, .i32⟩
  | .hbm, ⟨25, _⟩ => ⟨S_, .i32⟩
  | .hbm, ⟨26, _⟩ => ⟨S9x262144, .i32⟩
  | .hbm, ⟨27, _⟩ => ⟨S9x262144, .i32⟩
  | .hbm, ⟨28, _⟩ => ⟨S262144x32, .bf16⟩
  | .hbm, ⟨29, _⟩ => ⟨S_, .bf16⟩
  | .hbm, ⟨30, _⟩ => ⟨S1x32, .bf16⟩
  | .hbm, ⟨31, _⟩ => ⟨S262145x32, .bf16⟩
  | .hbm, ⟨32, _⟩ => ⟨S_, .i32⟩
  | .hbm, ⟨33, _⟩ => ⟨S9x262144, .i32⟩
  | .hbm, ⟨34, _⟩ => ⟨S9x262144, .i1⟩
  | .hbm, ⟨35, _⟩ => ⟨S_, .i32⟩
  | .hbm, ⟨36, _⟩ => ⟨S9x262144, .i32⟩
  | .hbm, ⟨37, _⟩ => ⟨S9x262144, .i32⟩
  | .hbm, ⟨38, _⟩ => ⟨S9x262144, .i32⟩
  | .hbm, ⟨39, _⟩ => ⟨S9x262144x1, .i32⟩
  | .hbm, ⟨40, _⟩ => ⟨S9x262144x32, .bf16⟩
  | .hbm, ⟨41, _⟩ => ⟨S9x65536x128, .bf16⟩
  | .hbm, ⟨42, _⟩ => ⟨S9x65536x128, .bf16⟩
  | .hbm, ⟨43, _⟩ => ⟨S9x262144x32, .bf16⟩
  | .hbm, ⟨44, _⟩ => ⟨S262144x32, .f32⟩
  | .hbm, ⟨45, _⟩ => ⟨S2359296, .i32⟩
  | .hbm, ⟨46, _⟩ => ⟨S2359296x32, .bf16⟩
  | .hbm, ⟨47, _⟩ => ⟨S2359296x32, .f32⟩
  | .hbm, ⟨48, _⟩ => ⟨S_, .i32⟩
  | .hbm, ⟨49, _⟩ => ⟨S2359296, .i32⟩
  | .hbm, ⟨50, _⟩ => ⟨S2359296, .i1⟩
  | .hbm, ⟨51, _⟩ => ⟨S_, .i32⟩
  | .hbm, ⟨52, _⟩ => ⟨S2359296, .i32⟩
  | .hbm, ⟨53, _⟩ => ⟨S2359296, .i32⟩
  | .hbm, ⟨54, _⟩ => ⟨S2359296, .i32⟩
  | .hbm, ⟨55, _⟩ => ⟨S2359296x1, .i32⟩
  | .hbm, ⟨56, _⟩ => ⟨S262144x32, .f32⟩
  | .local _ .vmem, ⟨0, _⟩ => ⟨S1x8192x128, .bf16⟩
  | .local _ .vmem, ⟨1, _⟩ => ⟨S1x8192x128, .bf16⟩
  | .local _ .vmem, ⟨2, _⟩ => ⟨S1x128x128, .bf16⟩
  | .local _ .vmem, ⟨3, _⟩ => ⟨S1x128x128, .bf16⟩
  | .local _ .vmem, ⟨4, _⟩ => ⟨S1x8192x128, .bf16⟩
  | .local _ .vmem, ⟨5, _⟩ => ⟨S1x8192x128, .bf16⟩
  | .local _ .smem, ⟨0, _⟩ => ⟨S9, .i32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_3 : Ref sig .tc := ⟨.hbm, 48, rfl⟩
abbrev main_v37 : Ref sig .tc := ⟨.hbm, 49, rfl⟩
abbrev main_v38 : Ref sig .tc := ⟨.hbm, 50, rfl⟩
abbrev main_c_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 8], ![false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v2 : BitVec 32) : BitVec 1 :=
  let arg1 : BitVec 32 := BitVec.ofNat 32 (i 1).val
  let c32768_i32 : BitVec 32 := 32768#32
  let v0 : BitVec 32 := Scalar.muli arg1 c32768_i32
  let v3 : BitVec 1 := Scalar.cmpi .sge v0 v2
  let v_true : BitVec 1 := 1#1
  let v4 : BitVec 1 := Scalar.xori v3 v_true
  let v5 : BitVec 32 := Scalar.extui v4
  let c0_i32 : BitVec 32 := 0#32
  let v6 : BitVec 1 := Scalar.cmpi .ne v5 c0_i32
  v6

def k0_cond2 (i : grid0.Coords) (v2 : BitVec 32) : BitVec 1 :=
  let arg1 : BitVec 32 := BitVec.ofNat 32 (i 1).val
  let c32768_i32 : BitVec 32 := 32768#32
  let v0 : BitVec 32 := Scalar.muli arg1 c32768_i32
  let v3 : BitVec 1 := Scalar.cmpi .sge v0 v2
  let v7 : BitVec 32 := Scalar.extui v3
  let c0_i32_0 : BitVec 32 := 0#32
  let v8 : BitVec 1 := Scalar.cmpi .ne v7 c0_i32_0
  v8

def cc0_transform_0 (k0_off1_inb : ∀ i : grid0.Coords, ∀ a, (k0_off1 i) a + S1.size a ≤ S9.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S9) ![v0.toNat] S1.size (k0_off1_inb i)) numel1_S1
  let c32768_i32 : BitVec 32 := 32768#32
  let v2 : BitVec 32 := Scalar.addi v1 c32768_i32
  let c1_i32 : BitVec 32 := 1#32
  let v3 : BitVec 32 := Scalar.subi v2 c1_i32
  let c32768_i32_0 : BitVec 32 := 32768#32
  let v4 : BitVec 32 := Scalar.divsi v3 c32768_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c32768_i32_0 c0_i32_2
  let v11 : BitVec 32 := Scalar.extui v10
  let c0_i32_3 : BitVec 32 := 0#32
  let v12 : BitVec 1 := Scalar.cmpi .slt c32768_i32_0 c0_i32_3
  let v13 : BitVec 32 := Scalar.extui v12
  let v14 : BitVec 32 := Scalar.subi v11 v13
  let v15 : BitVec 1 := Scalar.cmpi .ne v9 v14
  let v16 : BitVec 32 := Scalar.remsi v3 c32768_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, v23.toNat, c0_i32_8.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S32x3x3x32_S32x9x32 : S32x3x3x32.ShapeCasts S32x9x32
  transposes_S32x9x32_S9x32x32_1_2_0 : S32x9x32.Transposes [1, 2, 0] S9x32x32
  bitsLt_bf16_f32 : FTy.bits .bf16 < FTy.bits .f32
  bcast_S_S9x32x32 : S_.BroadcastsInDim S9x32x32 (![] : Fin 0 → Fin S9x32x32.rank)
  concatenates_S9x32x32_S9x32x32_S9x32x32_S9x32x32_S9x32x128_d2 : Shape.Concatenates [S9x32x32, S9x32x32, S9x32x32, S9x32x32] S9x32x128 2
  concatenates_S9x32x128_S9x32x128_S9x32x128_S9x32x128_S9x128x128_d1 : Shape.Concatenates [S9x32x128, S9x32x128, S9x32x128, S9x32x128] S9x128x128 1
  slices_S2x9x262144_S1x9x262144_0_0_0 : S2x9x262144.Slices ![0, 0, 0] S1x9x262144
  shapeCasts_S1x9x262144_S9x262144 : S1x9x262144.ShapeCasts S9x262144
  slices_S2x9x262144_S1x9x262144_1_0_0 : S2x9x262144.Slices ![1, 0, 0] S1x9x262144
  bcast_S262144_S1x262144_1 : S262144.BroadcastsInDim S1x262144 (![1] : Fin 1 → Fin S1x262144.rank)
  bcast_S9_S9x1_0 : S9.BroadcastsInDim S9x1 (![0] : Fin 1 → Fin S9x1.rank)
  bcast_S1x262144_S9x262144_0_1 : S1x262144.BroadcastsInDim S9x262144 (![0, 1] : Fin 2 → Fin S9x262144.rank)
  bcast_S9x1_S9x262144_0_1 : S9x1.BroadcastsInDim S9x262144 (![0, 1] : Fin 2 → Fin S9x262144.rank)
  bcast_S_S9x262144 : S_.BroadcastsInDim S9x262144 (![] : Fin 0 → Fin S9x262144.rank)
  bcast_S_S1x32 : S_.BroadcastsInDim S1x32 (![] : Fin 0 → Fin S1x32.rank)
  concatenates_S262144x32_S1x32_S262145x32_d0 : Shape.Concatenates [S262144x32, S1x32] S262145x32 0
  bcast_S9x262144_S9x262144x1_0_1 : S9x262144.BroadcastsInDim S9x262144x1 (![0, 1] : Fin 2 → Fin S9x262144x1.rank)
  shapeCasts_S9x262144x32_S9x65536x128 : S9x262144x32.ShapeCasts S9x65536x128
  numel1_S1 : S1.numel = 1
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S8192x128_S1x8192x128 : S8192x128.ShapeCasts S1x8192x128
  packedbf16_S1x8192x128_S1x8192x128_0_0_0 : (Rect.unit (s := S1x8192x128) ![0, 0, 0] S1x8192x128.size inb_S1x8192x128_S1x8192x128_0_0_0).PackedRows (EltTy.packing .bf16)
  shapeCasts_S9x65536x128_S9x262144x32 : S9x65536x128.ShapeCasts S9x262144x32
  bcast_S32_S262144x32_1 : S32.BroadcastsInDim S262144x32 (![1] : Fin 1 → Fin S262144x32.rank)
  shapeCasts_S9x262144_S2359296 : S9x262144.ShapeCasts S2359296
  shapeCasts_S9x262144x32_S2359296x32 : S9x262144x32.ShapeCasts S2359296x32
  bcast_S_S2359296 : S_.BroadcastsInDim S2359296 (![] : Fin 0 → Fin S2359296.rank)
  bcast_S2359296_S2359296x1_0 : S2359296.BroadcastsInDim S2359296x1 (![0] : Fin 1 → Fin S2359296x1.rank)
  gather_S262145x32_S9x262144x1_S9x262144x32_2_0_n_n_0_2_132_wf : GatherDims.WF S262145x32 S9x262144x1 S9x262144x32 [2] [0] [] [0] [] 2 ![1, 32]
  dot_S8192x128_S128x128_S8192x128_1_0_0_1_n_n_wf : DotDims.WF S8192x128 S128x128 S8192x128 [1] [0] [0] [1] [] []
  scatter_S262144x32_S2359296x1_S2359296x32_1_0_0_1_wf : ScatterDims.WF S262144x32 S2359296x1 S2359296x32 [1] [0] [0] 1
  hrank0 : 0 < grid0.rank
  k0_off1_inb : ∀ i : grid0.Coords, ∀ a, (k0_off1 i) a + S1.size a ≤ S9.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S9x128x128.size a
  hwx0_1 : ∀ i : grid0.Coords, EltTy.bits .bf16 = 32 ∨ (Rect.block (s := S9x128x128) S1x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x128.size a ≤ S9x65536x128.size a
  hwx0_2 : ∀ i : grid0.Coords, EltTy.bits .bf16 = 32 ∨ (Rect.block (s := S9x65536x128) S1x8192x128.size (cc0_transform_2 i) (hinb0_2 i)).WholeWords (EltTy.packing .bf16)

variable [Facts₀]

def gather_S262145x32_S9x262144x1_S9x262144x32_2_0_n_n_0_2_132 : GatherDims S262145x32 S9x262144x1 S9x262144x32 where
  offsetDims := [2]
  collapsedSliceDims := [0]
  operandBatchingDims := []
  startIndicesBatchingDims := []
  startIndexMap := [0]
  indexVectorDim := 2
  sliceSizes := ![1, 32]
  wf := gather_S262145x32_S9x262144x1_S9x262144x32_2_0_n_n_0_2_132_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S262144x32_S2359296x1_S2359296x32_1_0_0_1 : ScatterDims S262144x32 S2359296x1 S2359296x32 where
  updateWindowDims := [1]
  insertedWindowDims := [0]
  scatterDimsToOperandDims := [0]
  indexVectorDim := 1
  wf := scatter_S262144x32_S2359296x1_S2359296x32_1_0_0_1_wf

abbrev spec0_0 : Pipeline.WinSpec sig grid0.rank :=
  Pipeline.WinSpec.ofSpec (Memref.whole main_v30) S1x8192x128.size reads0_0 false false 2 stage0_0 sem0_0 nbuf0_0 hstage0_0

abbrev spec0_1 : Pipeline.WinSpec sig grid0.rank :=
  Pipeline.WinSpec.ofSpec (Memref.whole main_v8) S1x128x128.size reads0_1 false false 2 stage0_1 sem0_1 nbuf0_1 hstage0_1

abbrev spec0_2 : Pipeline.WinSpec sig grid0.rank :=
  Pipeline.WinSpec.ofSpec (Memref.whole main_v31) S1x8192x128.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x8192x128.size a ≤ S9x65536x128.size a), EltTy.bits .bf16 = 32 ∨ (Rect.block (s := S9x65536x128) S1x8192x128.size (cc0_transform_0 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | ⟨_ + 3, h⟩ => absurd h (Nat.not_lt.2 (Nat.le_add_left _ _))
abbrev idle0 (pf : pre0.Contents (Elt F)) : Fin 3 → grid0.Coords → Bool := fun | 0 => fun _ => false | 1 => fun _ => false | 2 => fun i => !(k0_cond1 i (pf.atD 0 (k0_off1 i)) == 1#1) && !(k0_cond2 i (pf.atD 0 (k0_off1 i)) == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S262144x32 : Shape := ⟨2, ![262144, 32]⟩
abbrev S32x3x3x32 : Shape := ⟨4, ![32, 3, 3, 32]⟩
abbrev S32 : Shape := ⟨1, ![32]⟩
abbrev S2x9x262144 : Shape := ⟨3, ![2, 9, 262144]⟩
abbrev S9 : Shape := ⟨1, ![9]⟩
abbrev S32x9x32 : Shape := ⟨3, ![32, 9, 32]⟩
abbrev S9x32x32 : Shape := ⟨3, ![9, 32, 32]⟩
abbrev S1x9x262144 : Shape := ⟨3, ![1, 9, 262144]⟩
abbrev S9x262144 : Shape := ⟨2, ![9, 262144]⟩
abbrev S262144 : Shape := ⟨1, ![262144]⟩
abbrev S1x262144 : Shape := ⟨2, ![1, 262144]⟩
abbrev S9x1 : Shape := ⟨2, ![9, 1]⟩
abbrev S_ : Shape := ⟨0, ![]⟩
abbrev S9x262144x1 : Shape := ⟨3, ![9, 262144, 1]⟩
abbrev S9x262144x32 : Shape := ⟨3, ![9, 262144, 32]⟩
abbrev S2359296 : Shape := ⟨1, ![2359296]⟩
abbrev S2359296x32 : Shape := ⟨2, ![2359296, 32]⟩
abbrev S2359296x1 : Shape := ⟨2, ![2359296, 1]⟩
abbrev S1x32 : Shape := ⟨2, ![1, 32]⟩

abbrev nBuf : Space → Nat
  | .hbm => 49
  | .vmem => 0
  | .smem => 0
  | _ => 0

abbrev bufTy : (tb : Table) → Fin (tcTables nBuf tb) → BufTy
  | .hbm, ⟨0, _⟩ => ⟨S262144x32, .f32⟩
  | .hbm, ⟨1, _⟩ => ⟨S32x3x3x32, .f32⟩
  | .hbm, ⟨2, _⟩ => ⟨S32, .f32⟩
  | .hbm, ⟨3, _⟩ => ⟨S2x9x262144, .i32⟩
  | .hbm, ⟨4, _⟩ => ⟨S9, .i32⟩
  | .hbm, ⟨5, _⟩ => ⟨S32x9x32, .f32⟩
  | .hbm, ⟨6, _⟩ => ⟨S9x32x32, .f32⟩
  | .hbm, ⟨7, _⟩ => ⟨S1x9x262144, .i32⟩
  | .hbm, ⟨8, _⟩ => ⟨S9x262144, .i32⟩
  | .hbm, ⟨9, _⟩ => ⟨S1x9x262144, .i32⟩
  | .hbm, ⟨10, _⟩ => ⟨S9x262144, .i32⟩
  | .hbm, ⟨11, _⟩ => ⟨S262144, .i32⟩
  | .hbm, ⟨12, _⟩ => ⟨S1x262144, .i32⟩
  | .hbm, ⟨13, _⟩ => ⟨S9x1, .i32⟩
  | .hbm, ⟨14, _⟩ => ⟨S9x262144, .i32⟩
  | .hbm, ⟨15, _⟩ => ⟨S9x262144, .i32⟩
  | .hbm, ⟨16, _⟩ => ⟨S9x262144, .i1⟩
  | .hbm, ⟨17, _⟩ => ⟨S_, .i32⟩
  | .hbm, ⟨18, _⟩ => ⟨S9x262144, .i32⟩
  | .hbm, ⟨19, _⟩ => ⟨S9x262144, .i1⟩
  | .hbm, ⟨20, _⟩ => ⟨S_, .i32⟩
  | .hbm, ⟨21, _⟩ => ⟨S9x262144, .i32⟩
  | .hbm, ⟨22, _⟩ => ⟨S9x262144, .i32⟩
  | .hbm, ⟨23, _⟩ => ⟨S9x262144, .i32⟩
  | .hbm, ⟨24, _⟩ => ⟨S9x262144x1, .i32⟩
  | .hbm, ⟨25, _⟩ => ⟨S9x262144x32, .f32⟩
  | .hbm, ⟨26, _⟩ => ⟨S9x262144x1, .i1⟩
  | .hbm, ⟨27, _⟩ => ⟨S_, .f32⟩
  | .hbm, ⟨28, _⟩ => ⟨S_, .f32⟩
  | .hbm, ⟨29, _⟩ => ⟨S9x262144x32, .i1⟩
  | .hbm, ⟨30, _⟩ => ⟨S9x262144x32, .f32⟩
  | .hbm, ⟨31, _⟩ => ⟨S9x262144x32, .f32⟩
  | .hbm, ⟨32, _⟩ => ⟨S9x262144x32, .f32⟩
  | .hbm, ⟨33, _⟩ => ⟨S_, .f32⟩
  | .hbm, ⟨34, _⟩ => ⟨S262144x32, .f32⟩
  | .hbm, ⟨35, _⟩ => ⟨S2359296, .i32⟩
  | .hbm, ⟨36, _⟩ => ⟨S2359296x32, .f32⟩
  | .hbm, ⟨37, _⟩ => ⟨S_, .i32⟩
  | .hbm, ⟨38, _⟩ => ⟨S2359296, .i32⟩
  | .hbm, ⟨39, _⟩ => ⟨S2359296, .i1⟩
  | .hbm, ⟨40, _⟩ => ⟨S_, .i32⟩
  | .hbm, ⟨41, _⟩ => ⟨S2359296, .i32⟩
  | .hbm, ⟨42, _⟩ => ⟨S2359296, .i32⟩
  | .hbm, ⟨43, _⟩ => ⟨S2359296, .i32⟩
  | .hbm, ⟨44, _⟩ => ⟨S2359296x1, .i32⟩
  | .hbm, ⟨45, _⟩ => ⟨S262144x32, .f32⟩
  | .hbm, ⟨46, _⟩ => ⟨S1x32, .f32⟩
  | .hbm, ⟨47, _⟩ => ⟨S262144x32, .f32⟩
  | .hbm, ⟨48, _⟩ => ⟨S262144x32, .f32⟩
  | _, _ => ⟨S262144x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  shapeCasts_S32x3x3x32_S32x9x32 : S32x3x3x32.ShapeCasts S32x9x32
  transposes_S32x9x32_S9x32x32_1_2_0 : S32x9x32.Transposes [1, 2, 0] S9x32x32
  slices_S2x9x262144_S1x9x262144_0_0_0 : S2x9x262144.Slices ![0, 0, 0] S1x9x262144
  shapeCasts_S1x9x262144_S9x262144 : S1x9x262144.ShapeCasts S9x262144
  slices_S2x9x262144_S1x9x262144_1_0_0 : S2x9x262144.Slices ![1, 0, 0] S1x9x262144
  bcast_S262144_S1x262144_1 : S262144.BroadcastsInDim S1x262144 (![1] : Fin 1 → Fin S1x262144.rank)
  bcast_S9_S9x1_0 : S9.BroadcastsInDim S9x1 (![0] : Fin 1 → Fin S9x1.rank)
  bcast_S1x262144_S9x262144_0_1 : S1x262144.BroadcastsInDim S9x262144 (![0, 1] : Fin 2 → Fin S9x262144.rank)
  bcast_S9x1_S9x262144_0_1 : S9x1.BroadcastsInDim S9x262144 (![0, 1] : Fin 2 → Fin S9x262144.rank)
  bcast_S_S9x262144 : S_.BroadcastsInDim S9x262144 (![] : Fin 0 → Fin S9x262144.rank)
  bcast_S9x262144_S9x262144x1_0_1 : S9x262144.BroadcastsInDim S9x262144x1 (![0, 1] : Fin 2 → Fin S9x262144x1.rank)
  bcast_S9x262144x1_S9x262144x32_0_1_2 : S9x262144x1.BroadcastsInDim S9x262144x32 (![0, 1, 2] : Fin 3 → Fin S9x262144x32.rank)
  bcast_S_S9x262144x32 : S_.BroadcastsInDim S9x262144x32 (![] : Fin 0 → Fin S9x262144x32.rank)
  bcast_S_S262144x32 : S_.BroadcastsInDim S262144x32 (![] : Fin 0 → Fin S262144x32.rank)
  shapeCasts_S9x262144_S2359296 : S9x262144.ShapeCasts S2359296
  shapeCasts_S9x262144x32_S2359296x32 : S9x262144x32.ShapeCasts S2359296x32
  bcast_S_S2359296 : S_.BroadcastsInDim S2359296 (![] : Fin 0 → Fin S2359296.rank)
  bcast_S2359296_S2359296x1_0 : S2359296.BroadcastsInDim S2359296x1 (![0] : Fin 1 → Fin S2359296x1.rank)
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  gather_S262144x32_S9x262144x1_S9x262144x32_2_0_n_n_0_2_132_wf : GatherDims.WF S262144x32 S9x262144x1 S9x262144x32 [2] [0] [] [0] [] 2 ![1, 32]
  dot_S9x262144x32_S9x32x32_S9x262144x32_2_1_1_2_0_0_wf : DotDims.WF S9x262144x32 S9x32x32 S9x262144x32 [2] [1] [1] [2] [0] [0]
  scatter_S262144x32_S2359296x1_S2359296x32_1_0_0_1_wf : ScatterDims.WF S262144x32 S2359296x1 S2359296x32 [1] [0] [0] 1

variable [Facts₀]

def gather_S262144x32_S9x262144x1_S9x262144x32_2_0_n_n_0_2_132 : GatherDims S262144x32 S9x262144x1 S9x262144x32 where
  offsetDims := [2]
  collapsedSliceDims := [0]
  operandBatchingDims := []
  startIndicesBatchingDims := []
  startIndexMap := [0]
  indexVectorDim := 2
  sliceSizes := ![1, 32]
  wf := gather_S262144x32_S9x262144x1_S9x262144x32_2_0_n_n_0_2_132_wf
def dot_S9x262144x32_S9x32x32_S9x262144x32_2_1_1_2_0_0 : DotDims S9x262144x32 S9x32x32 S9x262144x32 where
  lhsContracting := [2]
  rhsContracting := [1]
  lhsNonContracting := [1]
  rhsNonContracting := [2]
  lhsBatch := [0]
  rhsBatch := [0]
  wf := dot_S9x262144x32_S9x32x32_S9x262144x32_2_1_1_2_0_0_wf
def scatter_S262144x32_S2359296x1_S2359296x32_1_0_0_1 : ScatterDims S262144x32 S2359296x1 S2359296x32 where
  updateWindowDims := [1]
  insertedWindowDims := [0]
  scatterDimsToOperandDims := [0]
  indexVectorDim := 1
  wf := scatter_S262144x32_S2359296x1_S2359296x32_1_0_0_1_wf

class Facts : Prop extends Facts₀ where

variable [Facts]
-- ==== Proof.K.Runs.lean ====
import proofs.«404092_j12403865551324_3_alg».proof.Proof.Gen.Kernel.Launch
import proofs.«404092_j12403865551324_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

/-!
# The launch's surroundings

The program is three stretches of host operations (the block-diagonal weight and the index chain; the select that
clamps dead slots; the padded table, the gather and its packing), the launch over the grid `9 × 8` of (offset, block
of 32768 slots), and a last stretch (unpacking and the scatter-add). This module fixes what the launch is entered with,
what its index maps and its body are handed at a point, and the two facts about the schedule the proof data needs:
the packed operand's block index stays inside its array whatever the pair counts are, and the result's block is
written back at every point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- The buffers' contents when the launch is entered: after the three stretches of host operations before it. -/
abbrev V0 (c : Dev nD) : Valuation τ sig (Elt F) := StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program reduces to its launch continued by the last stretch, entered at `V`. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The pair counts as the launch's table -/

/-- The table's contents when the launch is entered. -/
def tbl : pre0.Contents (Elt F) := fun j => V m (0 : Dev nD) (pre0.ref j)
/-- On every device (there is one). -/
theorem V_pre (c : Dev nD) (j : Fin 1) : V m c (pre0.ref j) = tbl m j := by
  obtain rfl : c = 0 := Subsingleton.elim _ _; rfl

/-- The smaller of a grid coordinate below 8 and any word made non-negative is at most 7: the packed operand's block
    index is `min(block, max(·, 0))`, so it names one of the 8 blocks whatever the count word is. -/
theorem min_max_le (q : Nat) (hq : q < 8) (x : BitVec 32) :
    (Scalar.minsi (BitVec.ofNat 32 q) (Scalar.maxsi x 0#32)).toNat ≤ 7 := by
  unfold Scalar.minsi Scalar.maxsi IntOp.minsi IntOp.maxsi
  have hq' : (BitVec.ofNat 32 q).toNat = q := by simp [BitVec.toNat_ofNat]; omega
  have hqi : (BitVec.ofNat 32 q).toInt = q := by
    rw [BitVec.toInt_eq_toNat_cond, hq']; split <;> omega
  by_cases h0 : (0#32 : BitVec 32).slt x
  · rw [if_pos h0]
    by_cases h1 : (BitVec.ofNat 32 q).slt x
    · rw [if_pos h1, hq']; omega
    · rw [if_neg h1]
      have h0' : (0 : Int) < x.toInt := by simpa [BitVec.slt] using h0
      have h1' : ¬ ((q : Int) < x.toInt) := by simpa [BitVec.slt, hqi] using h1
      have := BitVec.toInt_eq_toNat_cond x
      split at this <;> omega
  · rw [if_neg h0]
    by_cases h1 : (BitVec.ofNat 32 q).slt 0#32
    · rw [if_pos h1, hq']; omega
    · rw [if_neg h1]; simp

/-- The side condition of the table: at every point the packed operand's block lies inside its array, with word-exact
    ends. It holds of every contents. -/
theorem ok (pf : pre0.Contents (Elt F)) : ok0 (F := F) pf := fun i => by
  have hb : (i 0).val < 9 := (i 0).isLt
  have h1 : (i 1).val < 8 := (i 1).isLt
  have h0 : (BitVec.ofNat 32 (i 0).val).toNat = (i 0).val := by
    simp [BitVec.toNat_ofNat]; omega
  refine ⟨fun a => ?_, .inr (Affine.block_words_dvd (of_decide_eq_true rfl) (by decide))⟩
  unfold cc0_transform_0
  match a with
  | ⟨0, _⟩ => show ((BitVec.ofNat 32 (i 0).val).toNat + 1) * 1 ≤ 9; rw [h0]; omega
  | ⟨1, _⟩ =>
    show ((Scalar.minsi (BitVec.ofNat 32 (i 1).val) (Scalar.maxsi _ 0#32)).toNat + 1) * 8192 ≤ 65536
    exact le_trans (Nat.mul_le_mul_right 8192 (Nat.succ_le_succ (min_max_le (i 1).val h1 _))) (by decide)
  | ⟨2, _⟩ => show ((0#32 : BitVec 32).toNat + 1) * 128 ≤ 128; simp

/-- The table's contents as admissible contents, and the pipeline at them. -/
abbrev adm : (pcfg0 (F := F)).Adm := ⟨tbl m, ok (tbl m)⟩
abbrev cfgM : Pipeline.Cfg sig Λ₀ := cfg0 (adm m)

/-- The table as the body is handed it: its whole buffer as a memref. -/
abbrev tbM : Memref sig .tc .smem S9 .i32 := Memref.whole main_arg4
abbrev htbM : tbM.IsWhole := Memref.isWhole_whole _
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- What the launch hands the body of the table: half of it, to read. -/
theorem PhiT_eq (c : Dev nD) : (Pipeline.ΦT pre0 (tbl m) c : sProp 𝕄) = tbPt c tbM (tbl m 0) := by
  unfold Pipeline.ΦT Pipeline.prefHeld
  rw [show (Finset.univ : Finset (Fin 1)) = {(0 : Fin 1)} from by decide, bigSep_singleton]
  rfl

/-! ## The windows' blocks and memrefs at a point -/

/-- Window `w`'s block at point `t`, read off its array as the launch finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's current staging buffer holds its block at every point, fetched there or not. -/
theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The result's block is written back at every point: its index map is the point itself. -/
theorem flush2 : ∀ t : Fin (cfgM m).N, ((cfgM m).win 2).flush t = true :=
  (by decide +kernel : ∀ t : Fin grid0.N, Pipeline.Window.flushOf grid0 true cc0_transform_2 t = true)

/-- Each window's current staging memref at point `t`, as the pipeline passes it, and its wholeness. -/
abbrev ms0 (t : Fin (cfgM m).N) : Memref sig .tc .vmem S1x8192x128 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x128x128 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x8192x128 .bf16 := spec0_2.stage ((cfgM m).slots t 2)
abbrev hs2 (t : Fin (cfgM m).N) : (ms2 m t).IsWhole := hstage0_2 (((cfgM m).slots t 2).cast nbuf0_2)

/-- The body at point `t`, on what the pipeline calls it with. -/
abbrev bodyAt (t : Fin (cfgM m).N) : Prog (TpuEff nD τ sig (Elt F) Λ₀ .tc) PUnit :=
  cc0__masked_matmul_kernel (grid0.coords t) (Memref.whole main_arg4) (Memref.isWhole_whole _) (ms0 m t) (hs0 m t) (ms1 m t) (hs1 m t) (ms2 m t) (hs2 m t)

/-- One staging buffer of the result window, through which its contents are stated. -/
abbrev VO2 : View sig .tc .vmem S1x8192x128 .bf16 := (Memref.whole cc0_stg2_0 : Memref sig .tc .vmem S1x8192x128 .bf16).view

/-- The count word of offset `i 0` as the body reads it off the table held at `xt`. -/
abbrev cntWord (c : Dev nD) (i : grid0.Coords) (xt : TbBuf (F := F) c tbM) : BitVec 32 :=
  tbM.view.readAt (Elt F) (Rect.unit (s := S9) (k0_off1 i) S1.size (k0_off1_inb i)).toLoadRect xt (Shape.Idx.first (numel1_S1.symm ▸ Nat.one_pos))

end Cert.Kernel.Hand

end
-- ==== Proof.K.Body.lean ====
import proofs.«404092_j12403865551324_3_alg».proof.Proof.K.Runs

/-!
# The kernel body at a point

The body reads offset `k`'s pair count off the table and compares it with the block's first slot `pb · 32768`. If the
block holds a live slot (first slot before the count) it loads the packed rows and the offset's `128 × 128` matrix,
multiplies, and stores the product over the whole result block; otherwise it stores zeros over the whole result
block. The two conditions are each other's negation, so exactly one whole-block store happens at every point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each is its whole buffer -/

abbrev rBig : Rect S1x8192x128 := Rect.unit (s := S1x8192x128) ![0, 0, 0] S1x8192x128.size inb_S1x8192x128_S1x8192x128_0_0_0
abbrev rMat : Rect S1x128x128 := Rect.unit (s := S1x128x128) ![0, 0, 0] S1x128x128.size inb_S1x128x128_S1x128x128_0_0_0

/-- The result block after a point whose block holds a live slot: the product of the two loaded blocks. -/
def outLive (x0 : Vec F S1x8192x128 .bf16) (x1 : Vec F S1x128x128 .bf16) : Vec F S1x8192x128 .bf16 :=
  View.canon [⟨rBig, k0_pay1 (View.ld x0 rBig) (View.ld x1 rMat)⟩]

/-- The result block after a point whose block holds no live slot: zeros. -/
def outDead : Vec F S1x8192x128 .bf16 :=
  View.canon [⟨rBig, k0_pay2 (F := F)⟩]

/-- One store over the whole block covers it. -/
theorem coverBig (p0 : Vec F S1x8192x128 .bf16) (y : S1x8192x128.Idx) :
    ∃ pc ∈ ([⟨rBig, p0⟩] : List (View.Piece (Elt F) S1x8192x128 .bf16)), y ∈ pc.1.set :=
  View.cover_of_tiled [⟨rBig, p0⟩] S1x8192x128.size (by rfl) y

/-! ## The body's triple, case by case -/

set_option maxHeartbeats 1000000 in
/-- A block with a live slot: on whole staging memrefs, the two inputs' at `x0`, `x1`, the result's at anything and the
    table's half at `xt`, the body runs to the continuation holding the inputs and the table as they were and the
    result's buffer at the product. -/
theorem sound_live (c : Dev nD) (E : Set ℕ) (i : grid0.Coords)
    (arg3 : Memref sig .tc .vmem S1x8192x128 .bf16) (harg3 : arg3.IsWhole) (arg4 : Memref sig .tc .vmem S1x128x128 .bf16) (harg4 : arg4.IsWhole)
    (arg5 : Memref sig .tc .vmem S1x8192x128 .bf16) (harg5 : arg5.IsWhole)
    (x0 : Vec F S1x8192x128 .bf16) (x1 : Vec F S1x128x128 .bf16) (xt : TbBuf (F := F) c tbM)
    (hc1 : k0_cond1 i (cntWord c i xt) = 1#1) (hc2 : ¬ k0_cond2 i (cntWord c i xt) = 1#1) (K : PUnit → sProp 𝕄) :
    iprop(owns (c : Thread nD τ) arg3 fullShare x0 ∗ owns (c : Thread nD τ) arg4 fullShare x1 ∗ (∃ d, owns (c : Thread nD τ) arg5 fullShare d) ∗ tbPt c tbM xt
        ∗ (iprop(owns (c : Thread nD τ) arg3 fullShare x0 ∗ owns (c : Thread nD τ) arg4 fullShare x1 ∗ owns (c : Thread nD τ) arg5 fullShare (outLive x0 x1) ∗ tbPt c tbM xt) -∗ K ⟨⟩))
      ⊢ wp frame (wpE (defs₀ (F := F)) Variants.none c none) E (cc0__masked_matmul_kernel i tbM htbM arg3 harg3 arg4 harg4 arg5 harg5) K := by
  simp only [cc0__masked_matmul_kernel_eq_skeleton]; unfold cc0__masked_matmul_kernel_skel
  unfold owns
  iintro ⟨⟨%f0, %hf0, H0⟩, ⟨%f1, %hf1, H1⟩, ⟨%d2, %f2, -, H2⟩, HT, Hk⟩
  subst hf0; subst hf1
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBig _)
  iexact HT

set_option maxHeartbeats 1000000 in
/-- A block with no live slot: the same, the result's buffer left at zeros. -/
theorem sound_dead (c : Dev nD) (E : Set ℕ) (i : grid0.Coords)
    (arg3 : Memref sig .tc .vmem S1x8192x128 .bf16) (harg3 : arg3.IsWhole) (arg4 : Memref sig .tc .vmem S1x128x128 .bf16) (harg4 : arg4.IsWhole)
    (arg5 : Memref sig .tc .vmem S1x8192x128 .bf16) (harg5 : arg5.IsWhole)
    (x0 : Vec F S1x8192x128 .bf16) (x1 : Vec F S1x128x128 .bf16) (xt : TbBuf (F := F) c tbM)
    (hc1 : ¬ k0_cond1 i (cntWord c i xt) = 1#1) (hc2 : k0_cond2 i (cntWord c i xt) = 1#1) (K : PUnit → sProp 𝕄) :
    iprop(owns (c : Thread nD τ) arg3 fullShare x0 ∗ owns (c : Thread nD τ) arg4 fullShare x1 ∗ (∃ d, owns (c : Thread nD τ) arg5 fullShare d) ∗ tbPt c tbM xt
        ∗ (iprop(owns (c : Thread nD τ) arg3 fullShare x0 ∗ owns (c : Thread nD τ) arg4 fullShare x1 ∗ owns (c : Thread nD τ) arg5 fullShare (outDead (F := F)) ∗ tbPt c tbM xt) -∗ K ⟨⟩))
      ⊢ wp frame (wpE (defs₀ (F := F)) Variants.none c none) E (cc0__masked_matmul_kernel i tbM htbM arg3 harg3 arg4 harg4 arg5 harg5) K := by
  simp only [cc0__masked_matmul_kernel_eq_skeleton]; unfold cc0__masked_matmul_kernel_skel
  unfold owns
  iintro ⟨⟨%f0, %hf0, H0⟩, ⟨%f1, %hf1, H1⟩, ⟨%d2, %f2, -, H2⟩, HT, Hk⟩
  subst hf0; subst hf1
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBig _)
  iexact HT

end Cert.Kernel.Hand

end
-- ==== Proof.K.Frame.lean ====
import proofs.«404092_j12403865551324_3_alg».proof.Proof.K.Body

/-!
# The launch's proof data, the body obligation, the run and the frame

After the body at a point the two input windows' buffers still hold their blocks and the result's buffer holds the
point's product when its block has a live slot, zeros when it has none. With that as proof data the body obligation is
the body's triple of the point's case; the launch theorem for a pipeline with a table, entered after host lines and
continued by host lines, gives the run, whose post names every array after the launch and every other buffer after the
last lines; read at the five arguments it is the frame.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

/-- The count word of the point's offset, as the body reads it off the table at its launch contents. -/
abbrev wordAt (c : Dev nD) (t : Fin (cfgM m).N) : BitVec 32 := cntWord c (grid0.coords t) (tbl m 0)

/-- The two branch conditions are each other's negation: one is `x ≥ n` read as a bit, the other that bit flipped. -/
theorem cond_compl (i : grid0.Coords) (v : BitVec 32) : k0_cond2 i v = 1#1 ↔ ¬ k0_cond1 i v = 1#1 := by
  unfold k0_cond1 k0_cond2
  dsimp only
  generalize Scalar.cmpi .sge (Scalar.muli (BitVec.ofNat 32 (i 1).val) 32768#32) v = b
  revert b; decide

/-! ## What the result's buffer holds after each point -/

/-- After the body at point `t`: the product of the point's blocks if its block has a live slot, zeros if not. -/
def outsAt (c : Dev nD) (t : Fin (cfgM m).N) : Vec F S1x8192x128 .bf16 :=
  if k0_cond1 (grid0.coords t) (wordAt m c t) = 1#1 then outLive (iblk m c 0 t) (iblk m c 1 t) else outDead

theorem outsAt_live (c : Dev nD) (t : Fin (cfgM m).N) (h : k0_cond1 (grid0.coords t) (wordAt m c t) = 1#1) :
    outsAt m c t = outLive (iblk m c 0 t) (iblk m c 1 t) := if_pos h
theorem outsAt_dead (c : Dev nD) (t : Fin (cfgM m).N) (h : ¬ k0_cond1 (grid0.coords t) (wordAt m c t) = 1#1) :
    outsAt m c t = outDead := if_neg h

/-! ## The proof data -/

/-- The proof data of the pipeline on core `c`: the arrays as the launch finds them; after the body at point `t` each
    input's buffer at its block and the result's at `outsAt`; the invariant the scoped rest, the generator register and
    the table's half; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => outsAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = outsAt m c t := by dsimp only [dats]; try rfl

theorem before0 (c : Dev nD) (t : Fin (cfgM m).N) (d) : (dats m 0 c).before 0 t d = iblk m c 0 t :=
  before0_of m (dats m 0 c) (A_eq m c 0) (after0 m c) t d
theorem before1 (c : Dev nD) (t : Fin (cfgM m).N) (d) : (dats m 0 c).before 1 t d = iblk m c 1 t :=
  before1_of m (dats m 0 c) (A_eq m c 1) (after1 m c) t d

/-! ## The body obligation, at a generic point -/

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

/-- and what it returns: every buffer at what the proof data says the body leaves. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t))

set_option maxHeartbeats 1600000 in
/-- The body at any point: the inputs' memrefs hold their blocks; the count word says which case the point is in; that
    case's triple applies; the invariant lends the table's half and takes it back; the core owes nothing throughout. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = iprop(Pipeline.ΦA spec0 c ∗ Pipeline.ΦT pre0 (tbl m) c) from rfl, PhiT_eq]
  by_cases h1 : k0_cond1 (grid0.coords t) (wordAt m c t) = 1#1
  · rw [outsAt_live m c t h1]
    iintro ⟨⟨HΦ, HT⟩, Ho, ⟨%d0, H0⟩, ⟨%d1, H1⟩, ⟨%d2, H2⟩⟩
    iapply (sound_live c Set.univ (grid0.coords t) _ _ _ _ _ _ (iblk m c 0 t) (iblk m c 1 t) (tbl m 0) h1
      (fun h => ((cond_compl _ _).mp h) h1) _)
    isplitl [H0]; · iexact H0
    isplitl [H1]; · iexact H1
    isplitl [H2]; · iexists _; iexact H2
    isplitl [HT]; · iexact HT
    iintro ⟨H0, H1, H2, HT⟩
    isplitl [HΦ HT]
    · isplitl [HΦ]
      · iexact HΦ
      iexact HT
    isplitl [Ho]; · iexact Ho
    isplitl [H0]; · iexact H0
    isplitl [H1]; · iexact H1
    iexact H2
  · rw [outsAt_dead m c t h1]
    iintro ⟨⟨HΦ, HT⟩, Ho, ⟨%d0, H0⟩, ⟨%d1, H1⟩, ⟨%d2, H2⟩⟩
    iapply (sound_dead c Set.univ (grid0.coords t) _ _ _ _ _ _ (iblk m c 0 t) (iblk m c 1 t) (tbl m 0) h1
      ((cond_compl _ _).mpr h1) _)
    isplitl [H0]; · iexact H0
    isplitl [H1]; · iexact H1
    isplitl [H2]; · iexists _; iexact H2
    isplitl [HT]; · iexact HT
    iintro ⟨H0, H1, H2, HT⟩
    isplitl [HΦ HT]
    · isplitl [HΦ]
      · iexact HΦ
      iexact HT
    isplitl [Ho]; · iexact Ho
    isplitl [H0]; · iexact H0
    isplitl [H1]; · iexact H1
    iexact H2

/-- The library's body obligation, at every point. The result's window is written back at every point, so whether or
    not the configuration calls the point idle for it, what the obligation asks of its buffer is the stated contents. -/
theorem body_obligation (c : Dev nD) : BodyObligation (dats (F := F) m 0 c) (defs₀ (F := F)) Variants.none () Set.univ := fun t => by
  rw [bigSep_W0, bigSep_W0]
  refine (sound_body m c t).trans (wp_mono _ _ _ fun _ => ?_)
  unfold bodyPost
  iintro ⟨HΦ, Ho, H0, H1, H2⟩
  isplitl [HΦ]; · iexact HΦ
  isplitl [Ho]; · iexact Ho
  isplitl [H0]; · iexact H0
  isplitl [H1]; · iexact H1
  iapply (show owns (c : Thread nD τ) (ms2 m t) fullShare ((dats m 0 c).after 2 t) ⊢ _ from by
    have hf := flush2 m t
    split
    · rename_i h; exact absurd h Bool.false_ne_true
    · split
      · split
        · rename_i h; cases (hf.symm.trans h)
        · exact BIBase.Entails.rfl
      · exact BIBase.Entails.rfl) $$ H2

/-! ## The lines after the launch -/

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) (fun k => ?_)
  obtain rfl : k = 0 := Subsingleton.elim _ _
  simp only [hostOps1, List.mem_cons, List.mem_nil_iff, or_false] at hop
  rcases hop with rfl | rfl | rfl | rfl | rfl | rfl | rfl | rfl | rfl | rfl | rfl | rfl | rfl | rfl
  all_goals
    simp only [StableHlo.nullary_bufs, StableHlo.unary_bufs, StableHlo.binary_bufs, StableHlo.ternary_bufs, StableHlo.reshape_bufs,
      Finset.mem_insert, Finset.mem_singleton, not_or]
    repeat' apply And.intro
    all_goals exact StableHlo.devRef_ne_of_ne (by decide)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-! ## The run -/

set_option backward.isDefEq.respectTransparency.types false in
/-- From any memory with zero counters every weakly fair execution of the program terminates, with every array of the
    pipeline at what the proof data gives after the last point and every other buffer at what the last lines leave. -/
theorem run_main : θ_run defs (onTc (τ := τ) (main (F := F))) (s₀ m ρ)
    (Pipeline.FramePost (Pipeline.pin pcfgs fun _ => adm m) (dats m) 0 (Pipeline.afterTail pcfgs (fun _ => adm m) (dats m) 0 (V0 m) [hostOps1])) :=
  Pipeline.θ_run_frameP_around pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hΦ := fun _ _ => rfl)

/-! ## The frame -/

/-- No host line writes argument 0 and no window stages it: it ends as launched. -/
theorem kept_arg0 (c : Dev nD) :
    Pipeline.afterTail pcfgs (fun _ => adm m) (dats m) 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line writes argument 1 and no window stages it: it ends as launched. -/
theorem kept_arg1 (c : Dev nD) :
    Pipeline.afterTail pcfgs (fun _ => adm m) (dats m) 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line writes argument 2 and no window stages it: it ends as launched. -/
theorem kept_arg2 (c : Dev nD) :
    Pipeline.afterTail pcfgs (fun _ => adm m) (dats m) 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line writes argument 3 and no window stages it: it ends as launched. -/
theorem kept_arg3 (c : Dev nD) :
    Pipeline.afterTail pcfgs (fun _ => adm m) (dats m) 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line writes argument 4 and no window stages it: it ends as launched. -/
theorem kept_arg4 (c : Dev nD) :
    Pipeline.afterTail pcfgs (fun _ => adm m) (dats m) 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- THE FRAME: every weakly fair execution terminates, nothing faults, and the five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (show ∀ w : Fin 3, (spec0 w).arr.view.ref ≠ main_arg0 from by decide))).trans (kept_arg0 m c),
     ((h c).2 main_arg1 (Pipeline.mem_restRefs_of main_arg1 (by decide) (show ∀ w : Fin 3, (spec0 w).arr.view.ref ≠ main_arg1 from by decide))).trans (kept_arg1 m c),
     ((h c).2 main_arg2 (Pipeline.mem_restRefs_of main_arg2 (by decide) (show ∀ w : Fin 3, (spec0 w).arr.view.ref ≠ main_arg2 from by decide))).trans (kept_arg2 m c),
     ((h c).2 main_arg3 (Pipeline.mem_restRefs_of main_arg3 (by decide) (show ∀ w : Fin 3, (spec0 w).arr.view.ref ≠ main_arg3 from by decide))).trans (kept_arg3 m c),
     ((h c).2 main_arg4 (Pipeline.mem_restRefs_of main_arg4 (by decide) (show ∀ w : Fin 3, (spec0 w).arr.view.ref ≠ main_arg4 from by decide))).trans (kept_arg4 m c)⟩)
    (run_main m ρ)

end Cert.Kernel.Hand

end
-- ==== Proof.KI.Runs.lean ====
import proofs.«404092_j12403865551324_3_alg».proof.Proof.Gen.KernelIdeal.Launch
import proofs.«404092_j12403865551324_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

/-!
# The launch's surroundings

The program is three stretches of host operations (the block-diagonal weight and the index chain; the select that
clamps dead slots; the padded table, the gather and its packing), the launch over the grid `9 × 8` of (offset, block
of 32768 slots), and a last stretch (unpacking and the scatter-add). This module fixes what the launch is entered with,
what its index maps and its body are handed at a point, and the two facts about the schedule the proof data needs:
the packed operand's block index stays inside its array whatever the pair counts are, and the result's block is
written back at every point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- The buffers' contents when the launch is entered: after the three stretches of host operations before it. -/
abbrev V0 (c : Dev nD) : Valuation τ sig (Elt F) := StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program reduces to its launch continued by the last stretch, entered at `V`. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The pair counts as the launch's table -/

/-- The table's contents when the launch is entered. -/
def tbl : pre0.Contents (Elt F) := fun j => V m (0 : Dev nD) (pre0.ref j)
/-- On every device (there is one). -/
theorem V_pre (c : Dev nD) (j : Fin 1) : V m c (pre0.ref j) = tbl m j := by
  obtain rfl : c = 0 := Subsingleton.elim _ _; rfl

/-- The smaller of a grid coordinate below 8 and any word made non-negative is at most 7: the packed operand's block
    index is `min(block, max(·, 0))`, so it names one of the 8 blocks whatever the count word is. -/
theorem min_max_le (q : Nat) (hq : q < 8) (x : BitVec 32) :
    (Scalar.minsi (BitVec.ofNat 32 q) (Scalar.maxsi x 0#32)).toNat ≤ 7 := by
  unfold Scalar.minsi Scalar.maxsi IntOp.minsi IntOp.maxsi
  have hq' : (BitVec.ofNat 32 q).toNat = q := by simp [BitVec.toNat_ofNat]; omega
  have hqi : (BitVec.ofNat 32 q).toInt = q := by
    rw [BitVec.toInt_eq_toNat_cond, hq']; split <;> omega
  by_cases h0 : (0#32 : BitVec 32).slt x
  · rw [if_pos h0]
    by_cases h1 : (BitVec.ofNat 32 q).slt x
    · rw [if_pos h1, hq']; omega
    · rw [if_neg h1]
      have h0' : (0 : Int) < x.toInt := by simpa [BitVec.slt] using h0
      have h1' : ¬ ((q : Int) < x.toInt) := by simpa [BitVec.slt, hqi] using h1
      have := BitVec.toInt_eq_toNat_cond x
      split at this <;> omega
  · rw [if_neg h0]
    by_cases h1 : (BitVec.ofNat 32 q).slt 0#32
    · rw [if_pos h1, hq']; omega
    · rw [if_neg h1]; simp

/-- The side condition of the table: at every point the packed operand's block lies inside its array, with word-exact
    ends. It holds of every contents. -/
theorem ok (pf : pre0.Contents (Elt F)) : ok0 (F := F) pf := fun i => by
  have hb : (i 0).val < 9 := (i 0).isLt
  have h1 : (i 1).val < 8 := (i 1).isLt
  have h0 : (BitVec.ofNat 32 (i 0).val).toNat = (i 0).val := by
    simp [BitVec.toNat_ofNat]; omega
  refine ⟨fun a => ?_, .inr (Affine.block_words_dvd (of_decide_eq_true rfl) (by decide))⟩
  unfold cc0_transform_0
  match a with
  | ⟨0, _⟩ => show ((BitVec.ofNat 32 (i 0).val).toNat + 1) * 1 ≤ 9; rw [h0]; omega
  | ⟨1, _⟩ =>
    show ((Scalar.minsi (BitVec.ofNat 32 (i 1).val) (Scalar.maxsi _ 0#32)).toNat + 1) * 8192 ≤ 65536
    exact le_trans (Nat.mul_le_mul_right 8192 (Nat.succ_le_succ (min_max_le (i 1).val h1 _))) (by decide)
  | ⟨2, _⟩ => show ((0#32 : BitVec 32).toNat + 1) * 128 ≤ 128; simp

/-- The table's contents as admissible contents, and the pipeline at them. -/
abbrev adm : (pcfg0 (F := F)).Adm := ⟨tbl m, ok (tbl m)⟩
abbrev cfgM : Pipeline.Cfg sig Λ₀ := cfg0 (adm m)

/-- The table as the body is handed it: its whole buffer as a memref. -/
abbrev tbM : Memref sig .tc .smem S9 .i32 := Memref.whole main_arg4
abbrev htbM : tbM.IsWhole := Memref.isWhole_whole _
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- What the launch hands the body of the table: half of it, to read. -/
theorem PhiT_eq (c : Dev nD) : (Pipeline.ΦT pre0 (tbl m) c : sProp 𝕄) = tbPt c tbM (tbl m 0) := by
  unfold Pipeline.ΦT Pipeline.prefHeld
  rw [show (Finset.univ : Finset (Fin 1)) = {(0 : Fin 1)} from by decide, bigSep_singleton]
  rfl

/-! ## The windows' blocks and memrefs at a point -/

/-- Window `w`'s block at point `t`, read off its array as the launch finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's current staging buffer holds its block at every point, fetched there or not. -/
theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The result's block is written back at every point: its index map is the point itself. -/
theorem flush2 : ∀ t : Fin (cfgM m).N, ((cfgM m).win 2).flush t = true :=
  (by decide +kernel : ∀ t : Fin grid0.N, Pipeline.Window.flushOf grid0 true cc0_transform_2 t = true)

/-- Each window's current staging memref at point `t`, as the pipeline passes it, and its wholeness. -/
abbrev ms0 (t : Fin (cfgM m).N) : Memref sig .tc .vmem S1x8192x128 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x128x128 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x8192x128 .bf16 := spec0_2.stage ((cfgM m).slots t 2)
abbrev hs2 (t : Fin (cfgM m).N) : (ms2 m t).IsWhole := hstage0_2 (((cfgM m).slots t 2).cast nbuf0_2)

/-- The body at point `t`, on what the pipeline calls it with. -/
abbrev bodyAt (t : Fin (cfgM m).N) : Prog (TpuEff nD τ sig (Elt F) Λ₀ .tc) PUnit :=
  cc0__masked_matmul_kernel (grid0.coords t) (Memref.whole main_arg4) (Memref.isWhole_whole _) (ms0 m t) (hs0 m t) (ms1 m t) (hs1 m t) (ms2 m t) (hs2 m t)

/-- One staging buffer of the result window, through which its contents are stated. -/
abbrev VO2 : View sig .tc .vmem S1x8192x128 .bf16 := (Memref.whole cc0_stg2_0 : Memref sig .tc .vmem S1x8192x128 .bf16).view

/-- The count word of offset `i 0` as the body reads it off the table held at `xt`. -/
abbrev cntWord (c : Dev nD) (i : grid0.Coords) (xt : TbBuf (F := F) c tbM) : BitVec 32 :=
  tbM.view.readAt (Elt F) (Rect.unit (s := S9) (k0_off1 i) S1.size (k0_off1_inb i)).toLoadRect xt (Shape.Idx.first (numel1_S1.symm ▸ Nat.one_pos))

end Cert.KernelIdeal.Hand

end
-- ==== Proof.KI.Body.lean ====
import proofs.«404092_j12403865551324_3_alg».proof.Proof.KI.Runs

/-!
# The kernel body at a point

The body reads offset `k`'s pair count off the table and compares it with the block's first slot `pb · 32768`. If the
block holds a live slot (first slot before the count) it loads the packed rows and the offset's `128 × 128` matrix,
multiplies, and stores the product over the whole result block; otherwise it stores zeros over the whole result
block. The two conditions are each other's negation, so exactly one whole-block store happens at every point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each is its whole buffer -/

abbrev rBig : Rect S1x8192x128 := Rect.unit (s := S1x8192x128) ![0, 0, 0] S1x8192x128.size inb_S1x8192x128_S1x8192x128_0_0_0
abbrev rMat : Rect S1x128x128 := Rect.unit (s := S1x128x128) ![0, 0, 0] S1x128x128.size inb_S1x128x128_S1x128x128_0_0_0

/-- The result block after a point whose block holds a live slot: the product of the two loaded blocks. -/
def outLive (x0 : Vec F S1x8192x128 .bf16) (x1 : Vec F S1x128x128 .bf16) : Vec F S1x8192x128 .bf16 :=
  View.canon [⟨rBig, k0_pay1 (View.ld x0 rBig) (View.ld x1 rMat)⟩]

/-- The result block after a point whose block holds no live slot: zeros. -/
def outDead : Vec F S1x8192x128 .bf16 :=
  View.canon [⟨rBig, k0_pay2 (F := F)⟩]

/-- One store over the whole block covers it. -/
theorem coverBig (p0 : Vec F S1x8192x128 .bf16) (y : S1x8192x128.Idx) :
    ∃ pc ∈ ([⟨rBig, p0⟩] : List (View.Piece (Elt F) S1x8192x128 .bf16)), y ∈ pc.1.set :=
  View.cover_of_tiled [⟨rBig, p0⟩] S1x8192x128.size (by rfl) y

/-! ## The body's triple, case by case -/

set_option maxHeartbeats 1000000 in
/-- A block with a live slot: on whole staging memrefs, the two inputs' at `x0`, `x1`, the result's at anything and the
    table's half at `xt`, the body runs to the continuation holding the inputs and the table as they were and the
    result's buffer at the product. -/
theorem sound_live (c : Dev nD) (E : Set ℕ) (i : grid0.Coords)
    (arg3 : Memref sig .tc .vmem S1x8192x128 .bf16) (harg3 : arg3.IsWhole) (arg4 : Memref sig .tc .vmem S1x128x128 .bf16) (harg4 : arg4.IsWhole)
    (arg5 : Memref sig .tc .vmem S1x8192x128 .bf16) (harg5 : arg5.IsWhole)
    (x0 : Vec F S1x8192x128 .bf16) (x1 : Vec F S1x128x128 .bf16) (xt : TbBuf (F := F) c tbM)
    (hc1 : k0_cond1 i (cntWord c i xt) = 1#1) (hc2 : ¬ k0_cond2 i (cntWord c i xt) = 1#1) (K : PUnit → sProp 𝕄) :
    iprop(owns (c : Thread nD τ) arg3 fullShare x0 ∗ owns (c : Thread nD τ) arg4 fullShare x1 ∗ (∃ d, owns (c : Thread nD τ) arg5 fullShare d) ∗ tbPt c tbM xt
        ∗ (iprop(owns (c : Thread nD τ) arg3 fullShare x0 ∗ owns (c : Thread nD τ) arg4 fullShare x1 ∗ owns (c : Thread nD τ) arg5 fullShare (outLive x0 x1) ∗ tbPt c tbM xt) -∗ K ⟨⟩))
      ⊢ wp frame (wpE (defs₀ (F := F)) Variants.none c none) E (cc0__masked_matmul_kernel i tbM htbM arg3 harg3 arg4 harg4 arg5 harg5) K := by
  simp only [cc0__masked_matmul_kernel_eq_skeleton]; unfold cc0__masked_matmul_kernel_skel
  unfold owns
  iintro ⟨⟨%f0, %hf0, H0⟩, ⟨%f1, %hf1, H1⟩, ⟨%d2, %f2, -, H2⟩, HT, Hk⟩
  subst hf0; subst hf1
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBig _)
  iexact HT

set_option maxHeartbeats 1000000 in
/-- A block with no live slot: the same, the result's buffer left at zeros. -/
theorem sound_dead (c : Dev nD) (E : Set ℕ) (i : grid0.Coords)
    (arg3 : Memref sig .tc .vmem S1x8192x128 .bf16) (harg3 : arg3.IsWhole) (arg4 : Memref sig .tc .vmem S1x128x128 .bf16) (harg4 : arg4.IsWhole)
    (arg5 : Memref sig .tc .vmem S1x8192x128 .bf16) (harg5 : arg5.IsWhole)
    (x0 : Vec F S1x8192x128 .bf16) (x1 : Vec F S1x128x128 .bf16) (xt : TbBuf (F := F) c tbM)
    (hc1 : ¬ k0_cond1 i (cntWord c i xt) = 1#1) (hc2 : k0_cond2 i (cntWord c i xt) = 1#1) (K : PUnit → sProp 𝕄) :
    iprop(owns (c : Thread nD τ) arg3 fullShare x0 ∗ owns (c : Thread nD τ) arg4 fullShare x1 ∗ (∃ d, owns (c : Thread nD τ) arg5 fullShare d) ∗ tbPt c tbM xt
        ∗ (iprop(owns (c : Thread nD τ) arg3 fullShare x0 ∗ owns (c : Thread nD τ) arg4 fullShare x1 ∗ owns (c : Thread nD τ) arg5 fullShare (outDead (F := F)) ∗ tbPt c tbM xt) -∗ K ⟨⟩))
      ⊢ wp frame (wpE (defs₀ (F := F)) Variants.none c none) E (cc0__masked_matmul_kernel i tbM htbM arg3 harg3 arg4 harg4 arg5 harg5) K := by
  simp only [cc0__masked_matmul_kernel_eq_skeleton]; unfold cc0__masked_matmul_kernel_skel
  unfold owns
  iintro ⟨⟨%f0, %hf0, H0⟩, ⟨%f1, %hf1, H1⟩, ⟨%d2, %f2, -, H2⟩, HT, Hk⟩
  subst hf0; subst hf1
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverBig _)
  iexact HT

end Cert.KernelIdeal.Hand

end
-- ==== Proof.KI.Frame.lean ====
import proofs.«404092_j12403865551324_3_alg».proof.Proof.KI.Body

/-!
# The launch's proof data, the body obligation, the run and the frame

After the body at a point the two input windows' buffers still hold their blocks and the result's buffer holds the
point's product when its block has a live slot, zeros when it has none. With that as proof data the body obligation is
the body's triple of the point's case; the launch theorem for a pipeline with a table, entered after host lines and
continued by host lines, gives the run, whose post names every array after the launch and every other buffer after the
last lines; read at the five arguments it is the frame.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

/-- The count word of the point's offset, as the body reads it off the table at its launch contents. -/
abbrev wordAt (c : Dev nD) (t : Fin (cfgM m).N) : BitVec 32 := cntWord c (grid0.coords t) (tbl m 0)

/-- The two branch conditions are each other's negation: one is `x ≥ n` read as a bit, the other that bit flipped. -/
theorem cond_compl (i : grid0.Coords) (v : BitVec 32) : k0_cond2 i v = 1#1 ↔ ¬ k0_cond1 i v = 1#1 := by
  unfold k0_cond1 k0_cond2
  dsimp only
  generalize Scalar.cmpi .sge (Scalar.muli (BitVec.ofNat 32 (i 1).val) 32768#32) v = b
  revert b; decide

/-! ## What the result's buffer holds after each point -/

/-- After the body at point `t`: the product of the point's blocks if its block has a live slot, zeros if not. -/
def outsAt (c : Dev nD) (t : Fin (cfgM m).N) : Vec F S1x8192x128 .bf16 :=
  if k0_cond1 (grid0.coords t) (wordAt m c t) = 1#1 then outLive (iblk m c 0 t) (iblk m c 1 t) else outDead

theorem outsAt_live (c : Dev nD) (t : Fin (cfgM m).N) (h : k0_cond1 (grid0.coords t) (wordAt m c t) = 1#1) :
    outsAt m c t = outLive (iblk m c 0 t) (iblk m c 1 t) := if_pos h
theorem outsAt_dead (c : Dev nD) (t : Fin (cfgM m).N) (h : ¬ k0_cond1 (grid0.coords t) (wordAt m c t) = 1#1) :
    outsAt m c t = outDead := if_neg h

/-! ## The proof data -/

/-- The proof data of the pipeline on core `c`: the arrays as the launch finds them; after the body at point `t` each
    input's buffer at its block and the result's at `outsAt`; the invariant the scoped rest, the generator register and
    the table's half; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => outsAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = outsAt m c t := by dsimp only [dats]; try rfl

theorem before0 (c : Dev nD) (t : Fin (cfgM m).N) (d) : (dats m 0 c).before 0 t d = iblk m c 0 t :=
  before0_of m (dats m 0 c) (A_eq m c 0) (after0 m c) t d
theorem before1 (c : Dev nD) (t : Fin (cfgM m).N) (d) : (dats m 0 c).before 1 t d = iblk m c 1 t :=
  before1_of m (dats m 0 c) (A_eq m c 1) (after1 m c) t d

/-! ## The body obligation, at a generic point -/

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

/-- and what it returns: every buffer at what the proof data says the body leaves. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t))

set_option maxHeartbeats 1600000 in
/-- The body at any point: the inputs' memrefs hold their blocks; the count word says which case the point is in; that
    case's triple applies; the invariant lends the table's half and takes it back; the core owes nothing throughout. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1]
  rw [show (dats m 0 c).Φ t.succ = (dats m 0 c).Φ t.castSucc from rfl,
    show (dats m 0 c).owesAt () t.succ = (dats m 0 c).owesAt () t.castSucc from rfl,
    after0, after1, after2]
  rw [show (dats m 0 c).Φ t.castSucc = iprop(Pipeline.ΦA spec0 c ∗ Pipeline.ΦT pre0 (tbl m) c) from rfl, PhiT_eq]
  by_cases h1 : k0_cond1 (grid0.coords t) (wordAt m c t) = 1#1
  · rw [outsAt_live m c t h1]
    iintro ⟨⟨HΦ, HT⟩, Ho, ⟨%d0, H0⟩, ⟨%d1, H1⟩, ⟨%d2, H2⟩⟩
    iapply (sound_live c Set.univ (grid0.coords t) _ _ _ _ _ _ (iblk m c 0 t) (iblk m c 1 t) (tbl m 0) h1
      (fun h => ((cond_compl _ _).mp h) h1) _)
    isplitl [H0]; · iexact H0
    isplitl [H1]; · iexact H1
    isplitl [H2]; · iexists _; iexact H2
    isplitl [HT]; · iexact HT
    iintro ⟨H0, H1, H2, HT⟩
    isplitl [HΦ HT]
    · isplitl [HΦ]
      · iexact HΦ
      iexact HT
    isplitl [Ho]; · iexact Ho
    isplitl [H0]; · iexact H0
    isplitl [H1]; · iexact H1
    iexact H2
  · rw [outsAt_dead m c t h1]
    iintro ⟨⟨HΦ, HT⟩, Ho, ⟨%d0, H0⟩, ⟨%d1, H1⟩, ⟨%d2, H2⟩⟩
    iapply (sound_dead c Set.univ (grid0.coords t) _ _ _ _ _ _ (iblk m c 0 t) (iblk m c 1 t) (tbl m 0) h1
      ((cond_compl _ _).mpr h1) _)
    isplitl [H0]; · iexact H0
    isplitl [H1]; · iexact H1
    isplitl [H2]; · iexists _; iexact H2
    isplitl [HT]; · iexact HT
    iintro ⟨H0, H1, H2, HT⟩
    isplitl [HΦ HT]
    · isplitl [HΦ]
      · iexact HΦ
      iexact HT
    isplitl [Ho]; · iexact Ho
    isplitl [H0]; · iexact H0
    isplitl [H1]; · iexact H1
    iexact H2

/-- The library's body obligation, at every point. The result's window is written back at every point, so whether or
    not the configuration calls the point idle for it, what the obligation asks of its buffer is the stated contents. -/
theorem body_obligation (c : Dev nD) : BodyObligation (dats (F := F) m 0 c) (defs₀ (F := F)) Variants.none () Set.univ := fun t => by
  rw [bigSep_W0, bigSep_W0]
  refine (sound_body m c t).trans (wp_mono _ _ _ fun _ => ?_)
  unfold bodyPost
  iintro ⟨HΦ, Ho, H0, H1, H2⟩
  isplitl [HΦ]; · iexact HΦ
  isplitl [Ho]; · iexact Ho
  isplitl [H0]; · iexact H0
  isplitl [H1]; · iexact H1
  iapply (show owns (c : Thread nD τ) (ms2 m t) fullShare ((dats m 0 c).after 2 t) ⊢ _ from by
    have hf := flush2 m t
    split
    · rename_i h; exact absurd h Bool.false_ne_true
    · split
      · split
        · rename_i h; cases (hf.symm.trans h)
        · exact BIBase.Entails.rfl
      · exact BIBase.Entails.rfl) $$ H2

/-! ## The lines after the launch -/

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) (fun k => ?_)
  obtain rfl : k = 0 := Subsingleton.elim _ _
  simp only [hostOps1, List.mem_cons, List.mem_nil_iff, or_false] at hop
  rcases hop with rfl | rfl | rfl | rfl | rfl | rfl | rfl | rfl | rfl | rfl | rfl | rfl | rfl | rfl
  all_goals
    simp only [StableHlo.nullary_bufs, StableHlo.unary_bufs, StableHlo.binary_bufs, StableHlo.ternary_bufs, StableHlo.reshape_bufs,
      Finset.mem_insert, Finset.mem_singleton, not_or]
    repeat' apply And.intro
    all_goals exact StableHlo.devRef_ne_of_ne (by decide)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-! ## The run -/

set_option backward.isDefEq.respectTransparency.types false in
/-- From any memory with zero counters every weakly fair execution of the program terminates, with every array of the
    pipeline at what the proof data gives after the last point and every other buffer at what the last lines leave. -/
theorem run_main : θ_run defs (onTc (τ := τ) (main (F := F))) (s₀ m ρ)
    (Pipeline.FramePost (Pipeline.pin pcfgs fun _ => adm m) (dats m) 0 (Pipeline.afterTail pcfgs (fun _ => adm m) (dats m) 0 (V0 m) [hostOps1])) :=
  Pipeline.θ_run_frameP_around pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hΦ := fun _ _ => rfl)

/-! ## The frame -/

/-- No host line writes argument 0 and no window stages it: it ends as launched. -/
theorem kept_arg0 (c : Dev nD) :
    Pipeline.afterTail pcfgs (fun _ => adm m) (dats m) 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line writes argument 1 and no window stages it: it ends as launched. -/
theorem kept_arg1 (c : Dev nD) :
    Pipeline.afterTail pcfgs (fun _ => adm m) (dats m) 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line writes argument 2 and no window stages it: it ends as launched. -/
theorem kept_arg2 (c : Dev nD) :
    Pipeline.afterTail pcfgs (fun _ => adm m) (dats m) 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line writes argument 3 and no window stages it: it ends as launched. -/
theorem kept_arg3 (c : Dev nD) :
    Pipeline.afterTail pcfgs (fun _ => adm m) (dats m) 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No host line writes argument 4 and no window stages it: it ends as launched. -/
theorem kept_arg4 (c : Dev nD) :
    Pipeline.afterTail pcfgs (fun _ => adm m) (dats m) 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- THE FRAME: every weakly fair execution terminates, nothing faults, and the five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (show ∀ w : Fin 3, (spec0 w).arr.view.ref ≠ main_arg0 from by decide))).trans (kept_arg0 m c),
     ((h c).2 main_arg1 (Pipeline.mem_restRefs_of main_arg1 (by decide) (show ∀ w : Fin 3, (spec0 w).arr.view.ref ≠ main_arg1 from by decide))).trans (kept_arg1 m c),
     ((h c).2 main_arg2 (Pipeline.mem_restRefs_of main_arg2 (by decide) (show ∀ w : Fin 3, (spec0 w).arr.view.ref ≠ main_arg2 from by decide))).trans (kept_arg2 m c),
     ((h c).2 main_arg3 (Pipeline.mem_restRefs_of main_arg3 (by decide) (show ∀ w : Fin 3, (spec0 w).arr.view.ref ≠ main_arg3 from by decide))).trans (kept_arg3 m c),
     ((h c).2 main_arg4 (Pipeline.mem_restRefs_of main_arg4 (by decide) (show ∀ w : Fin 3, (spec0 w).arr.view.ref ≠ main_arg4 from by decide))).trans (kept_arg4 m c)⟩)
    (run_main m ρ)

end Cert.KernelIdeal.Hand

end
-- ==== Proof.BlockIdx.lean ====
import proofs.«404092_j12403865551324_3_alg».proof.Proof.Gen.KernelIdeal

/-!
# The packed operand's block index, and the branch condition, as arithmetic

The index map of the packed operand reads offset `k`'s pair count `n` and returns block
`min(pb, max(⌈n / 32768⌉ − 1, 0))`, computed in 32-bit words: `n + 32768 − 1`, a floor division spelled with a truncating
division and a sign correction, a subtraction, a signed maximum and a signed minimum. When the count is at most
`262144` nothing wraps, and when the point's block holds a live slot (`pb · 32768 < n`) the ceiling is at least
`pb + 1`, so the map returns the point's own block `pb`. The body's first branch condition is that same comparison.
-/

noncomputable section

namespace Cert.SpConv

open Idealize.ShloMosaic
open Cert.KernelIdeal Cert.KernelIdeal.Gen

/-- Coordinate 1 of the packed operand's index map, as a function of the block coordinate's word and the count word:
    the printed chain of the index map, verbatim. -/
def blockChain (arg1 v1 : BitVec 32) : BitVec 32 :=
  let c32768_i32 : BitVec 32 := 32768#32
  let v2 : BitVec 32 := Scalar.addi v1 c32768_i32
  let c1_i32 : BitVec 32 := 1#32
  let v3 : BitVec 32 := Scalar.subi v2 c1_i32
  let c32768_i32_0 : BitVec 32 := 32768#32
  let v4 : BitVec 32 := Scalar.divsi v3 c32768_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c32768_i32_0 c0_i32_2
  let v11 : BitVec 32 := Scalar.extui v10
  let c0_i32_3 : BitVec 32 := 0#32
  let v12 : BitVec 1 := Scalar.cmpi .slt c32768_i32_0 c0_i32_3
  let v13 : BitVec 32 := Scalar.extui v12
  let v14 : BitVec 32 := Scalar.subi v11 v13
  let v15 : BitVec 1 := Scalar.cmpi .ne v9 v14
  let v16 : BitVec 32 := Scalar.remsi v3 c32768_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  v23

/-- The index map is that chain at the point's block coordinate and the table's word for the point's offset. -/
theorem transform0_eq {F : FTy → Type} [FloatOps F] (pf : pre0.Contents (Elt F)) (i : grid0.Coords) :
    cc0_transform_0 k0_off1_inb numel1_S1 pf i
      = ![(BitVec.ofNat 32 (i 0).val).toNat,
          (blockChain (BitVec.ofNat 32 (i 1).val)
            (pf.at 0 (Rect.unit (s := S9) ![(Scalar.indexCast (BitVec.ofNat 32 (i 0).val)).toNat] S1.size (k0_off1_inb i)) numel1_S1)).toNat,
          (0#32 : BitVec 32).toNat] := rfl

/-- A word known to read, signed, as the integer e reads as e. -/
theorem toInt_of_isInt {x : BitVec 32} {e : Int} (h : Affine.IsInt x e) : x.toInt = e := by
  unfold Affine.IsInt at h
  exact h

/-- Exclusive-or with the true bit is negation. -/
theorem xori_true_iff (c : BitVec 1) : Scalar.xori c 1#1 = 1#1 ↔ ¬ c = 1#1 := by
  revert c
  decide

/-- With the count at most `262144` and the block's first slot before the count, the chain returns the block. -/
theorem blockChain_live (q : Nat) (hq : q < 8) (v1 : BitVec 32) (hle : v1.toInt ≤ 262144) (hlive : (q : Int) * 32768 < v1.toInt) :
    (blockChain (BitVec.ofNat 32 q) v1).toNat = q := by
  obtain ⟨n, hn⟩ : ∃ n : Int, v1.toInt = n := ⟨_, rfl⟩
  rw [hn] at hle hlive
  -- the count word, and the literals of the chain, read signed
  have h1 : Affine.IsInt v1 n := hn ▸ Affine.word v1
  have hA : Affine.IsInt (BitVec.ofNat 32 q) (q : Int) := Affine.ofNat q ⟨rfl, by omega⟩
  have hC : Affine.IsInt (32768#32) 32768 := Affine.ofNat 32768 ⟨by omega, by omega⟩
  have hI : Affine.IsInt (1#32) 1 := Affine.ofNat 1 ⟨by omega, by omega⟩
  have hO : Affine.IsInt (0#32) 0 := Affine.ofNat 0 ⟨by omega, by omega⟩
  -- n + 32768 - 1 does not wrap: it lies in [32768, 294911]
  have h2 := Affine.addi (e := n + 32768) h1 hC ⟨rfl, by omega, by omega⟩
  have h3 := Affine.subi (e := n + 32767) h2 hI ⟨by omega, by omega, by omega⟩
  -- both operands positive: the truncating quotient is the floor
  have h4 := Affine.divsi (e := (n + 32767) / 32768) h3 hC ⟨rfl, by omega, by omega⟩
  -- the two signs are both 1, so the sign correction is not taken
  have c5 := Affine.sgt_holds h3 hO (by omega)
  have h6 := Affine.extui_holds (e := 1) c5 rfl
  have c7 := Affine.slt_fails h3 hO (by omega)
  have h8 := Affine.extui_fails (e := 0) c7 rfl
  have h9 := Affine.subi (e := 1) h6 h8 ⟨by omega, by omega, by omega⟩
  have c10 := Affine.sgt_holds hC hO (by omega)
  have h11 := Affine.extui_holds (e := 1) c10 rfl
  have c12 := Affine.slt_fails hC hO (by omega)
  have h13 := Affine.extui_fails (e := 0) c12 rfl
  have h14 := Affine.subi (e := 1) h11 h13 ⟨by omega, by omega, by omega⟩
  have c15 := Affine.ne_fails h9 h14 rfl
  have c18 := Affine.andi_fails_left (d := Scalar.cmpi .ne (Scalar.remsi (Scalar.subi (Scalar.addi v1 (32768#32)) (1#32)) (32768#32)) (0#32)) c15 trivial
  have h19 := Affine.subi (e := (n + 32767) / 32768 - 1) h4 hI ⟨rfl, by omega, by omega⟩
  have h20 := Affine.select_fails (e := (n + 32767) / 32768) c18 h19 h4 rfl
  -- the ceiling of n / 32768 is at least q + 1: one less is non-negative and at least q
  have h21 := Affine.subi (e := (n + 32767) / 32768 - 1) h20 hI ⟨rfl, by omega, by omega⟩
  have h22 := Affine.maxsi (e := (n + 32767) / 32768 - 1) h21 hO (by omega)
  have h23 := Affine.minsi (e := (q : Int)) hA h22 (by omega)
  have hfin : Affine.IsInt (blockChain (BitVec.ofNat 32 q) v1) (q : Int) := h23
  have := Affine.toNat_of hfin (by omega)
  omega

/-- The body's first branch condition: the block's first slot comes before the count. -/
theorem cond1_iff (i : grid0.Coords) (v : BitVec 32) : k0_cond1 i v = 1#1 ↔ ((i 1).val : Int) * 32768 < v.toInt := by
  have hlt : (i 1).val < 8 := (i 1).isLt
  -- the block's first slot pb * 32768 < 2^31: the product does not wrap
  have h0 : Affine.IsInt (Scalar.muli (BitVec.ofNat 32 (i 1).val) (32768#32)) (((i 1).val : Int) * 32768) :=
    Affine.muli (Affine.ofNat _ ⟨rfl, by omega⟩) (Affine.ofNat (e := 32768) 32768 ⟨by omega, by omega⟩) ⟨rfl, by omega, by omega⟩
  have e0 := toInt_of_isInt h0
  show Scalar.cmpi .ne (Scalar.extui (Scalar.xori (Scalar.cmpi .sge (Scalar.muli (BitVec.ofNat 32 (i 1).val) (32768#32)) v) (1#1))) (0#32) = 1#1 ↔ _
  rw [Scalar.guard_iff, xori_true_iff, Scalar.cmpi, IntOp.cmpi_sge, e0]
  omega

end Cert.SpConv

end
-- ==== Proof.KI.Cover.lean ====
import proofs.«404092_j12403865551324_3_alg».proof.Proof.KI.Frame
import proofs.«404092_j12403865551324_3_alg».proof.Proof.BlockIdx
import Idealize.ShloMosaic.Lib.Pipeline.Value
import Idealize.ShloMosaic.Lib.ValueIdx

/-!
# Where the windows' blocks lie

At the grid point of offset `k` and block `pb` the result window's block is rows `pb · 8192 … pb · 8192 + 8191` of plane
`k` of the `[9, 65536, 128]` result, the matrix window's block is plane `k` of the `[9, 128, 128]` weight, and the packed
operand's block is rows `q · 8192 …` of plane `k`, `q` the index its map reads off the pair counts. The 72 result blocks
tile the result array.
-/
set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- The offset and the block of a grid point. -/
abbrev kOf (t : Fin (cfgM m).N) : Fin 9 := (grid0.coords t) 0
abbrev pbOf (t : Fin (cfgM m).N) : Fin 8 := (grid0.coords t) 1

/-- The packed operand's block index at a point, as its index map reads it off the table. -/
abbrev qOf (t : Fin (cfgM m).N) : Nat := cc0_transform_0 k0_off1_inb numel1_S1 (tbl m) (grid0.coords t) 1

/-! ## The index maps at a point -/

/-- A grid coordinate below 9 written as a 32-bit word reads back as itself. -/
theorem word_toNat (n : Nat) (h : n < 9) : (BitVec.ofNat 32 n).toNat = n := by
  rw [BitVec.toNat_ofNat]; exact Nat.mod_eq_of_lt (by omega)

/-- The two closed index maps over the grid: the result's block index at a point is (offset, block, 0), the matrix's is
    (offset, 0, 0). -/
theorem idx_closed : ∀ t : Fin grid0.N,
    cc0_transform_2 (grid0.coords t) 0 = ((grid0.coords t) 0).val
    ∧ cc0_transform_2 (grid0.coords t) 1 = ((grid0.coords t) 1).val
    ∧ cc0_transform_2 (grid0.coords t) 2 = 0
    ∧ cc0_transform_1 (grid0.coords t) 0 = ((grid0.coords t) 0).val
    ∧ cc0_transform_1 (grid0.coords t) 1 = 0
    ∧ cc0_transform_1 (grid0.coords t) 2 = 0 :=
  (by decide +kernel : ∀ t : Fin grid0.N, _)

/-- Every (offset, block) pair is some grid point's. -/
theorem point_of_block : ∀ (k : Fin 9) (pb : Fin 8), ∃ t : Fin grid0.N,
    ((grid0.coords t) 0).val = k.val ∧ ((grid0.coords t) 1).val = pb.val :=
  (by decide +kernel : ∀ (k : Fin 9) (pb : Fin 8), ∃ t : Fin grid0.N, ((grid0.coords t) 0).val = k.val ∧ ((grid0.coords t) 1).val = pb.val)

/-- The packed operand's index map, whatever the table holds: its plane is the point's offset, -/
theorem packed_idx_plane (pf : pre0.Contents (Elt F)) (i : grid0.Coords) :
    cc0_transform_0 k0_off1_inb numel1_S1 pf i 0 = (i 0).val := by
  have hb : (i 0).val < 9 := (i 0).isLt
  show (BitVec.ofNat 32 (i 0).val).toNat = (i 0).val
  exact word_toNat _ hb

/-- and its lane block is 0. -/
theorem packed_idx_lane (pf : pre0.Contents (Elt F)) (i : grid0.Coords) :
    cc0_transform_0 k0_off1_inb numel1_S1 pf i 2 = 0 := by
  show (0#32 : BitVec 32).toNat = 0
  rfl

/-- An index of the result array is in point `t`'s block iff each coordinate is in the block's range on its axis. -/
theorem mem_blk2 (t : Fin (cfgM m).N) (i : S9x65536x128.Idx) :
    i ∈ (((cfgM m).win 2).blk t).view.set ↔ ∀ a : Fin 3, cc0_transform_2 (grid0.coords t) a * S1x8192x128.size a ≤ (i a).val
      ∧ (i a).val < cc0_transform_2 (grid0.coords t) a * S1x8192x128.size a + S1x8192x128.size a := by
  -- the block is a rectangle of the whole array: its elements are the rectangle's, and a unit-stride rectangle's are
  -- the indices inside its range on every axis
  have hset : ((((cfgM m).win 2).blk t).view.set : Finset S9x65536x128.Idx) = (((cfgM m).win 2).rect t).set :=
    View.set_slice_whole main_v31 (((cfgM m).win 2).rect t)
  exact (Iff.of_eq (congrArg (fun s : Finset S9x65536x128.Idx => i ∈ s) hset)).trans Rect.mem_set_unit

/-! ## The five facts -/

theorem qOf_lt (t : Fin (cfgM m).N) : qOf m t < 8 := by
  have h1 : ((grid0.coords t) 1).val < 8 := ((grid0.coords t) 1).isLt
  show (Scalar.minsi (BitVec.ofNat 32 ((grid0.coords t) 1).val) (Scalar.maxsi _ 0#32)).toNat < 8
  exact Nat.lt_succ_of_le (min_max_le _ h1 _)

/-- Element `(0, r, l)` of the result window's block at point `t` is element `(k, pb · 8192 + r, l)` of the result array. -/
theorem emb2 (t : Fin (cfgM m).N) (r : Fin 8192) (l : Fin 128) :
    (((cfgM m).win 2).blk t).view.emb (ix3 (0 : Fin 1) r l)
      = ix3 (kOf m t) (⟨(pbOf m t).val * 8192 + r.val, by have := (pbOf m t).isLt; omega⟩ : Fin 65536) l := by
  obtain ⟨e0, e1, e2, -, -, -⟩ := idx_closed t
  funext a; apply Fin.ext
  match a with
  | ⟨0, _⟩ => show cc0_transform_2 (grid0.coords t) 0 * 1 + 1 * 0 = ((grid0.coords t) 0).val; omega
  | ⟨1, _⟩ => show cc0_transform_2 (grid0.coords t) 1 * 8192 + 1 * r.val = ((grid0.coords t) 1).val * 8192 + r.val; omega
  | ⟨2, _⟩ => show cc0_transform_2 (grid0.coords t) 2 * 128 + 1 * l.val = l.val; omega

/-- Element `(0, j, l)` of the matrix window's block at point `t` is element `(k, j, l)` of the weight array. -/
theorem emb1 (t : Fin (cfgM m).N) (j l : Fin 128) :
    (((cfgM m).win 1).blk t).view.emb (ix3 (0 : Fin 1) j l) = ix3 (kOf m t) j l := by
  obtain ⟨-, -, -, e0, e1, e2⟩ := idx_closed t
  funext a; apply Fin.ext
  match a with
  | ⟨0, _⟩ => show cc0_transform_1 (grid0.coords t) 0 * 1 + 1 * 0 = ((grid0.coords t) 0).val; omega
  | ⟨1, _⟩ => show cc0_transform_1 (grid0.coords t) 1 * 128 + 1 * j.val = j.val; omega
  | ⟨2, _⟩ => show cc0_transform_1 (grid0.coords t) 2 * 128 + 1 * l.val = l.val; omega

/-- Element `(0, r, j)` of the packed operand's block at point `t` is element `(k, q · 8192 + r, j)` of the packed array. -/
theorem emb0 (t : Fin (cfgM m).N) (r : Fin 8192) (j : Fin 128) :
    (((cfgM m).win 0).blk t).view.emb (ix3 (0 : Fin 1) r j)
      = ix3 (kOf m t) (⟨qOf m t * 8192 + r.val, by have := qOf_lt m t; omega⟩ : Fin 65536) j := by
  have e0 := packed_idx_plane (tbl m) (grid0.coords t)
  have e2 := packed_idx_lane (tbl m) (grid0.coords t)
  funext a; apply Fin.ext
  match a with
  | ⟨0, _⟩ => show cc0_transform_0 k0_off1_inb numel1_S1 (tbl m) (grid0.coords t) 0 * 1 + 1 * 0 = ((grid0.coords t) 0).val; omega
  | ⟨1, _⟩ => show qOf m t * 8192 + 1 * r.val = qOf m t * 8192 + r.val; omega
  | ⟨2, _⟩ => show cc0_transform_0 k0_off1_inb numel1_S1 (tbl m) (grid0.coords t) 2 * 128 + 1 * j.val = j.val; omega

/-- Every element of the result array lies in the block of the point of its plane and of its row's block. -/
theorem cover2 (i : S9x65536x128.Idx) :
    ∃ t : Fin (cfgM m).N, ((cfgM m).win 2).flush t = true ∧ i ∈ (((cfgM m).win 2).blk t).view.set := by
  have hi0 : (i 0).val < 9 := (i 0).isLt
  have hi1 : (i 1).val < 65536 := (i 1).isLt
  have hi2 : (i 2).val < 128 := (i 2).isLt
  obtain ⟨t, hk, hpb⟩ := point_of_block ⟨(i 0).val, hi0⟩ ⟨(i 1).val / 8192, by omega⟩
  have hk' : ((grid0.coords t) 0).val = (i 0).val := hk
  have hpb' : ((grid0.coords t) 1).val = (i 1).val / 8192 := hpb
  obtain ⟨e0, e1, e2, -, -, -⟩ := idx_closed t
  refine ⟨t, flush2 m t, ?_⟩
  rw [mem_blk2]
  intro a
  match a with
  | ⟨0, _⟩ =>
    show cc0_transform_2 (grid0.coords t) 0 * 1 ≤ (i 0).val ∧ (i 0).val < cc0_transform_2 (grid0.coords t) 0 * 1 + 1
    omega
  | ⟨1, _⟩ =>
    show cc0_transform_2 (grid0.coords t) 1 * 8192 ≤ (i 1).val ∧ (i 1).val < cc0_transform_2 (grid0.coords t) 1 * 8192 + 8192
    omega
  | ⟨2, _⟩ =>
    show cc0_transform_2 (grid0.coords t) 2 * 128 ≤ (i 2).val ∧ (i 2).val < cc0_transform_2 (grid0.coords t) 2 * 128 + 128
    omega

end Cert.KernelIdeal.Hand

end
-- ==== Proof.Pay.lean ====
import proofs.«404092_j12403865551324_3_alg».proof.Proof.Gen.KernelIdeal.Skeleton
import Idealize.ShloMosaic.PureOps.Ideal.Laws
import Idealize.ShloMosaic.Lib.Pipeline.Value
import Idealize.ShloMosaic.Lib.ValueLayout
import Idealize.ShloMosaic.Lib.ValueIdx
import Idealize.ShloMosaic.Lib.IdealHost

/-!
# The body's two stored values, read at an index (at the ideal instance)

A block with a live slot stores the product of the packed rows `[8192, 128]` with the offset's matrix `[128, 128]`,
accumulated from zero: entry `(r, l)` is `∑_j rows(r, j) · matrix(j, l)`; the unit leading axis of the two loaded blocks
and of the stored block is cast away and back, and the change of float format is the identity. A block with no live
slot stores a broadcast of the zero word.
-/

noncomputable section

namespace Cert.SpConv

open Idealize.ShloMosaic Idealize.ShloMosaic.ValueIdx
open Cert.KernelIdeal Cert.KernelIdeal.Gen

/-! ## The product's operand indices, axis by axis

The product contracts the rows' axis 1 with the matrix's axis 0: at result entry `i = (r, l)` and contraction position
`q` the rows are read at `(r, q)` and the matrix at `(q, l)`. -/

/-- The rows' index keeps the result's row. -/
theorem lhs_pay_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl

/-- The rows' index runs over the contraction position on its second axis. -/
theorem lhs_pay_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q

/-- The matrix's index runs over the contraction position on its first axis. -/
theorem rhs_pay_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q

/-- The matrix's index keeps the result's column. -/
theorem rhs_pay_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- The product accumulated from zero, read at `(r, l)`: the plain sum over the 128 contracted positions. -/
theorem matmul_pay_apply (y0 : FVec Ideal S8192x128 .bf16) (y1 : FVec Ideal S128x128 .bf16) (r : Fin 8192) (l : Fin 128) :
    matmul (F := Ideal) dot_S8192x128_S128x128_S8192x128_1_0_0_1_n_n none y0 y1 (constant (F := Ideal) S8192x128 .f32 0x00000000#32) (ix2 r l)
      = ∑ j : Fin 128, y0 (ix2 r j) * y1 (ix2 j l) := by
  simp only [matmul]
  rw [Ideal.matmul_constant_zero_apply,
    ← Equiv.sum_comp (contrEquiv1 dot_S8192x128_S128x128_S8192x128_1_0_0_1_n_n 128 rfl rfl).symm]
  refine Finset.sum_congr rfl fun j _ => ?_
  have hk := contrEquiv1_symm_val dot_S8192x128_S128x128_S8192x128_1_0_0_1_n_n 128 rfl rfl j
  have el : dot_S8192x128_S128x128_S8192x128_1_0_0_1_n_n.lhsIdx (ix2 r l) ((contrEquiv1 dot_S8192x128_S128x128_S8192x128_1_0_0_1_n_n 128 rfl rfl).symm j) = ix2 r j :=
    funext fun a => Fin.ext (by
      match a with
      | ⟨0, _⟩ => exact lhs_pay_0 _ _
      | ⟨1, _⟩ => exact (lhs_pay_1 _ _).trans hk)
  have er : dot_S8192x128_S128x128_S8192x128_1_0_0_1_n_n.rhsIdx (ix2 r l) ((contrEquiv1 dot_S8192x128_S128x128_S8192x128_1_0_0_1_n_n 128 rfl rfl).symm j) = ix2 j l :=
    funext fun a => Fin.ext (by
      match a with
      | ⟨0, _⟩ => exact (rhs_pay_0 _ _).trans hk
      | ⟨1, _⟩ => exact rhs_pay_1 _ _)
  rw [el, er]

/-- The product block at an index. -/
theorem payLive_apply (x0 : Vec Ideal S1x8192x128 .bf16) (x1 : Vec Ideal S1x128x128 .bf16) (r : Fin 8192) (l : Fin 128) :
    k0_pay1 (F := Ideal) x0 x1 (ix3 (0 : Fin 1) r l) = ∑ j : Fin 128, x0 (ix3 (0 : Fin 1) r j) * x1 (ix3 (0 : Fin 1) j l) := by
  unfold k0_pay1
  rw [shapeCast_ab_1ab_apply, truncf_apply, matmul_pay_apply]
  refine Finset.sum_congr rfl fun j _ => ?_
  rw [shapeCast_1ab_ab_apply, shapeCast_1ab_ab_apply]

/-- The zero block at an index. -/
theorem payDead_apply (r : Fin 8192) (l : Fin 128) : k0_pay2 (F := Ideal) (ix3 (0 : Fin 1) r l) = 0 := by
  unfold k0_pay2
  rw [shapeCast_ab_1ab_apply, broadcast_apply]
  exact Ideal.ofBits_zero_bf16

end Cert.SpConv

end
-- ==== Proof.Spec.lean ====
import proofs.«404092_j12403865551324_3_alg».proof.Proof.Gen.KernelIdeal
import proofs.«404092_j12403865551324_3_alg».proof.Proof.Gen.ReferenceIdeal
import Idealize.ShloMosaic.PureOps.Ideal
import Idealize.ShloMosaic.Lib.ValueIdx

/-!
# Sparse convolution by index pairs: the two programs' host chains as pure terms, and the mathematics

For each of the 9 kernel offsets `k` the operator lists `P = 262144` pair slots `(k, p)`; slot `(k, p)` is LIVE when
`p < n_k` (`n_k` the offset's pair count), names an input row `in(k, p)` and an output row `out(k, p)`, and contributes
`∑_c feat[in(k, p), c] · weight[d, k, c]` to output element `(out(k, p), d)`; a slot that is not live contributes zero.

Both programs form the `[9, 262144, 32]` array of contributions and scatter-add it over the same output rows; they differ
in how the contributions are computed. The reference masks the gathered rows and contracts 32 channels. The kernel
clamps a dead slot's index to an appended zero row, packs four slots into one 128-lane row, multiplies by the
block-diagonal `128 × 128` weight (four copies of the offset's `32 × 32` weight on the diagonal, zeros elsewhere) and
writes zeros for a block of 32768 slots that holds no live slot.

This module states both computations as functions of the argument arrays (at the ideal instance: floats are extended
reals, format changes the identity) and names the mathematical quantities the bridge is proved through.
-/

noncomputable section

namespace Cert.SpConv

open Idealize.ShloMosaic Idealize.ShloMosaic.ValueIdx

/-! ## The arguments -/

abbrev Feat := FVec Ideal Cert.KernelIdeal.S262144x32 .f32
abbrev Wgt := FVec Ideal Cert.KernelIdeal.S32x3x3x32 .f32
abbrev Bias := FVec Ideal Cert.KernelIdeal.S32 .f32
abbrev Pairs := IVec Cert.KernelIdeal.S2x9x262144 32
abbrev Num := IVec Cert.KernelIdeal.S9 32

/-! ## The mathematics -/

/-- The pair count of offset `k`, as a signed integer. -/
def cnt (A4 : Num) (k : Fin 9) : Int := (A4 (ix1 k)).toInt

/-- The input-row word of slot `(k, p)`, as a signed integer. -/
def inRow (A3 : Pairs) (k : Fin 9) (p : Fin 262144) : Int := (A3 (ix3 (0 : Fin 2) k p)).toInt

/-- The domain both added precondition conjuncts state: every input-row index names a row of `feat`, and no pair
    count exceeds the number of slots. -/
def InRange (A3 : Pairs) (A4 : Num) : Prop :=
  (∀ (k : Fin 9) (p : Fin 262144), 0 ≤ inRow A3 k p ∧ inRow A3 k p < 262144) ∧ (∀ k : Fin 9, cnt A4 k ≤ 262144)

/-- Slot `(k, p)` is live: it comes before the offset's pair count. -/
def Live (A4 : Num) (k : Fin 9) (p : Fin 262144) : Prop := (p.val : Int) < cnt A4 k

instance (A4 : Num) (k : Fin 9) (p : Fin 262144) : Decidable (Live A4 k p) := by unfold Live; infer_instance

/-- The feature row of slot `(k, p)`: the index word read signed and clamped into the table (in range it is the word). -/
def rowOf (A3 : Pairs) (k : Fin 9) (p : Fin 262144) : Fin 262144 := ⟨min (inRow A3 k p).toNat 262143, by omega⟩

/-- Channel `c` of what slot `(k, p)` gathers: its feature row when live, zero when not. -/
def gath (A0 : Feat) (A3 : Pairs) (A4 : Num) (k : Fin 9) (p : Fin 262144) (c : Fin 32) : EReal :=
  if Live A4 k p then A0 (ix2 (rowOf A3 k p) c) else 0

/-- Offset `k`'s weight from input channel `c` to output channel `d`: `weight[d, k / 3, k % 3, c]`. -/
def wk (A1 : Wgt) (k : Fin 9) (c d : Fin 32) : EReal :=
  A1 (ix4 d (⟨k.val / 3, by omega⟩ : Fin 3) (⟨k.val % 3, by omega⟩ : Fin 3) c)

/-- Slot `(k, p)`'s contribution to output channel `d`. -/
def contrib (A0 : Feat) (A1 : Wgt) (A3 : Pairs) (A4 : Num) (k : Fin 9) (p : Fin 262144) (d : Fin 32) : EReal :=
  ∑ c : Fin 32, gath A0 A3 A4 k p c * wk A1 k c d

/-- Block `pb` (32768 slots) of offset `k` holds no live slot: its first slot is at or past the pair count. -/
def Dead (A4 : Num) (k : Fin 9) (pb : Fin 8) : Prop := cnt A4 k ≤ (pb.val * 32768 : Int)

instance (A4 : Num) (k : Fin 9) (pb : Fin 8) : Decidable (Dead A4 k pb) := by unfold Dead; infer_instance

/-- What the kernel's launch leaves in its `[9, 65536, 128]` result, as a function of its two operand arrays and the
    pair counts: zeros over a dead block, elsewhere the packed row times the offset's `128 × 128` matrix. -/
def kOutAt (G : FVec Ideal Cert.KernelIdeal.S9x65536x128 .bf16) (WB : FVec Ideal Cert.KernelIdeal.S9x128x128 .bf16) (A4 : Num)
    (k : Fin 9) (r : Fin 65536) (l : Fin 128) : EReal :=
  if Dead A4 k (⟨r.val / 8192, by omega⟩ : Fin 8) then 0 else ∑ j : Fin 128, G (ix3 k r j) * WB (ix3 k j l)

/-- `kOutAt` as an array. -/
def kOut (G : FVec Ideal Cert.KernelIdeal.S9x65536x128 .bf16) (WB : FVec Ideal Cert.KernelIdeal.S9x128x128 .bf16) (A4 : Num) :
    FVec Ideal Cert.KernelIdeal.S9x65536x128 .bf16 :=
  fun j => kOutAt G WB A4 (j 0) (j 1) (j 2)

/-! ## The kernel program's host chain before its launch, as pure terms -/

section Kernel
open Cert.KernelIdeal Cert.KernelIdeal.Gen

/-- Row 0 of the pairs array as `[9, 262144]`: the input-row indices (the reference and the precondition slice it the same way). -/
def inIdx (A3 : Pairs) : IVec S9x262144 32 :=
  shapeCast S9x262144 (extractStridedSlice S1x9x262144 ![0, 0, 0] A3 slices_S2x9x262144_S1x9x262144_0_0_0) shapeCasts_S1x9x262144_S9x262144

/-- The liveness mask `p < n_k` as `[9, 262144]`. -/
def validMask (A4 : Num) : IVec S9x262144 1 :=
  cmpi .slt (broadcastInDim S9x262144 ![0, 1] bcast_S1x262144_S9x262144_0_1 (broadcastInDim S1x262144 ![1] bcast_S262144_S1x262144_1 (iotaInDim S262144 32 0)))
    (broadcastInDim S9x262144 ![0, 1] bcast_S9x1_S9x262144_0_1 (broadcastInDim S9x1 ![0] bcast_S9_S9x1_0 A4))

/-- The kernel's gather index: the input row where live, the appended zero row's index `262144` where not. -/
def kClamped (A3 : Pairs) (A4 : Num) : IVec S9x262144 32 :=
  select (validMask A4) (inIdx A3) (broadcastInDim S9x262144 ![] bcast_S_S9x262144 (id (constantI S_ 32 262144#32)))

/-- That index with a negative word counted from the end of the `262145`-row table. -/
def kNorm (A3 : Pairs) (A4 : Num) : IVec S9x262144 32 :=
  select (cmpi .slt (kClamped A3 A4) (broadcastInDim S9x262144 ![] bcast_S_S9x262144 (constantI S_ 32 0#32)))
    (addi (kClamped A3 A4) (broadcastInDim S9x262144 ![] bcast_S_S9x262144 (constantI S_ 32 262145#32)))
    (kClamped A3 A4)

/-- The feature table with one zero row appended. -/
def kPadded (A0 : Feat) : FVec Ideal S262145x32 .bf16 :=
  concatenate S262145x32 0 [⟨S262144x32, truncf .bf16 A0 bitsLt_bf16_f32⟩, ⟨S1x32, broadcastInDim S1x32 ![] bcast_S_S1x32 (constant S_ .bf16 0x0000#16)⟩]
    concatenates_S262144x32_S1x32_S262145x32_d0

/-- The gathered rows, four slots packed per 128-lane row: the launch's first staged operand. -/
def kGatheredR (A0 : Feat) (A3 : Pairs) (A4 : Num) : FVec Ideal S9x65536x128 .bf16 :=
  shapeCast S9x65536x128 (Host.gather gather_S262145x32_S9x262144x1_S9x262144x32_2_0_n_n_0_2_132 (kPadded A0)
    (broadcastInDim S9x262144x1 ![0, 1] bcast_S9x262144_S9x262144x1_0_1 (kNorm A3 A4))) shapeCasts_S9x262144x32_S9x65536x128

/-- The weight as `[9, 32, 32]`: offset, input channel, output channel. -/
def kW (A1 : Wgt) : FVec Ideal S9x32x32 .bf16 :=
  truncf .bf16 (transpose S9x32x32 [1, 2, 0] (shapeCast S32x9x32 A1 shapeCasts_S32x3x3x32_S32x9x32) transposes_S32x9x32_S9x32x32_1_2_0) bitsLt_bf16_f32

/-- A `[9, 32, 32]` block of zeros. -/
def kZ : FVec Ideal S9x32x32 .bf16 := broadcastInDim S9x32x32 ![] bcast_S_S9x32x32 (constant S_ .bf16 0x0000#16)

/-- Row-block `i` of the block-diagonal weight: the weight in column-block `i`, zeros in the other three. -/
def kWRow (A1 : Wgt) (b0 b1 b2 b3 : FVec Ideal S9x32x32 .bf16) : FVec Ideal S9x32x128 .bf16 :=
  concatenate S9x32x128 2 [⟨S9x32x32, b0⟩, ⟨S9x32x32, b1⟩, ⟨S9x32x32, b2⟩, ⟨S9x32x32, b3⟩] concatenates_S9x32x32_S9x32x32_S9x32x32_S9x32x32_S9x32x128_d2

/-- The block-diagonal `[9, 128, 128]` weight: the launch's second staged operand. -/
def kWBig (A1 : Wgt) : FVec Ideal S9x128x128 .bf16 :=
  concatenate S9x128x128 1
    [⟨S9x32x128, kWRow A1 (kW A1) kZ kZ kZ⟩, ⟨S9x32x128, kWRow A1 kZ (kW A1) kZ kZ⟩,
     ⟨S9x32x128, kWRow A1 kZ kZ (kW A1) kZ⟩, ⟨S9x32x128, kWRow A1 kZ kZ kZ (kW A1)⟩]
    concatenates_S9x32x128_S9x32x128_S9x32x128_S9x32x128_S9x128x128_d1

/-- The launch's result unpacked to one row per slot: `[9, 262144, 32]`. -/
def kContrib (A0 : Feat) (A1 : Wgt) (A3 : Pairs) (A4 : Num) : FVec Ideal S9x262144x32 .bf16 :=
  shapeCast S9x262144x32 (kOut (kGatheredR A0 A3 A4) (kWBig A1) A4) shapeCasts_S9x65536x128_S9x262144x32

end Kernel

/-! ## The reference program's contributions, as a pure term -/

section Reference
open Cert.ReferenceIdeal Cert.ReferenceIdeal.Gen

/-- The reference's gather index: the input row, a negative word counted from the end of the `262144`-row table. -/
def rNorm (A3 : Pairs) : IVec S9x262144 32 :=
  select (cmpi .slt (shapeCast S9x262144 (extractStridedSlice S1x9x262144 ![0, 0, 0] A3 slices_S2x9x262144_S1x9x262144_0_0_0) shapeCasts_S1x9x262144_S9x262144) (broadcastInDim S9x262144 ![] bcast_S_S9x262144 (constantI S_ 32 0#32)))
    (addi (shapeCast S9x262144 (extractStridedSlice S1x9x262144 ![0, 0, 0] A3 slices_S2x9x262144_S1x9x262144_0_0_0) shapeCasts_S1x9x262144_S9x262144) (broadcastInDim S9x262144 ![] bcast_S_S9x262144 (constantI S_ 32 262144#32)))
    (shapeCast S9x262144 (extractStridedSlice S1x9x262144 ![0, 0, 0] A3 slices_S2x9x262144_S1x9x262144_0_0_0) shapeCasts_S1x9x262144_S9x262144)

/-- The reference's masked gathered rows `[9, 262144, 32]`. -/
def rMasked (A0 : Feat) (A3 : Pairs) (A4 : Num) : FVec Ideal S9x262144x32 .f32 :=
  select (broadcastInDim S9x262144x32 ![0, 1, 2] bcast_S9x262144x1_S9x262144x32_0_1_2 (broadcastInDim S9x262144x1 ![0, 1] bcast_S9x262144_S9x262144x1_0_1
      (cmpi .slt (broadcastInDim S9x262144 ![0, 1] bcast_S1x262144_S9x262144_0_1 (broadcastInDim S1x262144 ![1] bcast_S262144_S1x262144_1 (iotaInDim S262144 32 0)))
        (broadcastInDim S9x262144 ![0, 1] bcast_S9x1_S9x262144_0_1 (broadcastInDim S9x1 ![0] bcast_S9_S9x1_0 A4)))))
    (Host.gather gather_S262144x32_S9x262144x1_S9x262144x32_2_0_n_n_0_2_132 A0 (broadcastInDim S9x262144x1 ![0, 1] bcast_S9x262144_S9x262144x1_0_1 (rNorm A3)))
    (broadcastInDim S9x262144x32 ![] bcast_S_S9x262144x32 (id (constant S_ .f32 0x00000000#32)))

/-- The reference's contributions `[9, 262144, 32]`: the masked rows contracted with the offset's weight. -/
def rDot (A0 : Feat) (A1 : Wgt) (A3 : Pairs) (A4 : Num) : FVec Ideal S9x262144x32 .f32 :=
  Host.dotGeneral dot_S9x262144x32_S9x32x32_S9x262144x32_2_1_1_2_0_0 none (rMasked A0 A3 A4)
    (transpose S9x32x32 [1, 2, 0] (shapeCast S32x9x32 A1 shapeCasts_S32x3x3x32_S32x9x32) transposes_S32x9x32_S9x32x32_1_2_0)

end Reference

end Cert.SpConv

end
-- ==== Proof.KI.Flushed.lean ====
import proofs.«404092_j12403865551324_3_alg».proof.Proof.KI.Cover
import proofs.«404092_j12403865551324_3_alg».proof.Proof.Pay
import proofs.«404092_j12403865551324_3_alg».proof.Proof.Spec

/-!
# What the launch leaves in its result array (at the ideal instance)

Write `G` for the array that is zero over every block with no live slot and, elsewhere, the packed row times the
offset's `128 × 128` matrix (`SpConv.kOut` of the two operand arrays as the launch finds them and the pair counts). What
point `(k, pb)` writes back is block `(k, pb)` of `G`: if the block has no live slot the body stored zeros and `G` is zero
there; if it has one, the body stored the product of the packed operand's block `q` and the matrix's plane `k`, and with
the pair count at most `262144` the index map's `q` is `pb` itself, so that product is `G` on the block. The blocks tile
the array, so after the launch the array is `G`.
-/
set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem hz3 : (![0, 0, 0] : Fin 3 → Nat) = fun _ => 0 := funext fun a => by fin_cases a <;> rfl

/-! ## Facts about values, over variables -/

/-- The product block at an index: row `r` of the packed block times column `l` of the matrix block. -/
theorem outLive_apply (x0 : Vec Ideal S1x8192x128 .bf16) (x1 : Vec Ideal S1x128x128 .bf16) (r : Fin 8192) (l : Fin 128) :
    outLive (F := Ideal) x0 x1 (ix3 (0 : Fin 1) r l) = ∑ j : Fin 128, x0 (ix3 (0 : Fin 1) r j) * x1 (ix3 (0 : Fin 1) j l) := by
  unfold outLive
  rw [View.canon_unit_zero hz3]
  simp only [View.ld_unit_zero (S := S1x8192x128) hz3, View.ld_unit_zero (S := S1x128x128) hz3]
  exact SpConv.payLive_apply x0 x1 r l

/-- The zero block at an index. -/
theorem outDead_apply (r : Fin 8192) (l : Fin 128) : outDead (F := Ideal) (ix3 (0 : Fin 1) r l) = 0 := by
  unfold outDead
  rw [View.canon_unit_zero hz3]
  exact SpConv.payDead_apply r l

/-- The closed form at an element of block `pb` of plane `k`, when the block has a live slot. -/
theorem kOut_live (X : FVec Ideal S9x65536x128 .bf16) (WB : FVec Ideal S9x128x128 .bf16) (A4 : SpConv.Num) (k : Fin 9) (pb : Fin 8)
    (r : Fin 8192) (l : Fin 128) (h : ¬ SpConv.Dead A4 k pb) :
    SpConv.kOut X WB A4 (ix3 k (⟨pb.val * 8192 + r.val, by omega⟩ : Fin 65536) l)
      = ∑ j : Fin 128, X (ix3 k (⟨pb.val * 8192 + r.val, by omega⟩ : Fin 65536) j) * WB (ix3 k j l) := by
  have hpb : (⟨(pb.val * 8192 + r.val) / 8192, by omega⟩ : Fin 8) = pb := Fin.ext (by show (pb.val * 8192 + r.val) / 8192 = pb.val; omega)
  show SpConv.kOutAt X WB A4 k (⟨pb.val * 8192 + r.val, by omega⟩ : Fin 65536) l = _
  unfold SpConv.kOutAt
  rw [hpb, if_neg h]

/-- and when it has none. -/
theorem kOut_dead (X : FVec Ideal S9x65536x128 .bf16) (WB : FVec Ideal S9x128x128 .bf16) (A4 : SpConv.Num) (k : Fin 9) (pb : Fin 8)
    (r : Fin 8192) (l : Fin 128) (h : SpConv.Dead A4 k pb) :
    SpConv.kOut X WB A4 (ix3 k (⟨pb.val * 8192 + r.val, by omega⟩ : Fin 65536) l) = 0 := by
  have hpb : (⟨(pb.val * 8192 + r.val) / 8192, by omega⟩ : Fin 8) = pb := Fin.ext (by show (pb.val * 8192 + r.val) / 8192 = pb.val; omega)
  show SpConv.kOutAt X WB A4 k (⟨pb.val * 8192 + r.val, by omega⟩ : Fin 65536) l = _
  unfold SpConv.kOutAt
  rw [hpb, if_pos h]

/-- The count word the body reads off the table held at `xt` is the table's entry for the point's offset. -/
theorem cntWord_eq {F : FTy → Type} [FloatOps F] (c : Dev nD) (i : grid0.Coords) (xt : TbBuf (F := F) c tbM) :
    cntWord c i xt = xt (ix1 (i 0)) := by
  have h : cntWord c i xt = xt ((Rect.unit (s := S9) (k0_off1 i) S1.size (k0_off1_inb i)).toLoadRect.idx (Shape.Idx.first (numel1_S1.symm ▸ Nat.one_pos))) := rfl
  rw [h]
  congr 1
  funext a
  apply Fin.ext
  match a with
  | ⟨0, _⟩ =>
    show k0_off1 i 0 + 1 * 0 = (i 0).val
    rw [k0_off1_eq]; rfl

/-- The count word the index map reads off the table contents `pf` is the same entry. -/
theorem pfWord_eq {F : FTy → Type} [FloatOps F] (pf : pre0.Contents (Elt F)) (i : grid0.Coords) :
    pf.at 0 (Rect.unit (s := S9) ![(Scalar.indexCast (BitVec.ofNat 32 (i 0).val)).toNat] S1.size (k0_off1_inb i)) numel1_S1
      = pf 0 (ix1 (i 0)) := by
  have h : pf.at 0 (Rect.unit (s := S9) ![(Scalar.indexCast (BitVec.ofNat 32 (i 0).val)).toNat] S1.size (k0_off1_inb i)) numel1_S1
      = pf 0 ((Rect.unit (s := S9) ![(Scalar.indexCast (BitVec.ofNat 32 (i 0).val)).toNat] S1.size (k0_off1_inb i)).emb (Shape.Idx.first (numel1_S1.symm ▸ Nat.one_pos))) := rfl
  rw [h]
  congr 1
  funext a
  apply Fin.ext
  match a with
  | ⟨0, _⟩ =>
    show k0_off1 i 0 + 1 * 0 = (i 0).val
    rw [k0_off1_eq]; rfl

/-- The point's block has a live slot exactly when the body's first branch is taken, for any table contents. -/
theorem live_iff_word (i : grid0.Coords) (A4 : SpConv.Num) :
    k0_cond1 i (A4 (ix1 (i 0))) = 1#1 ↔ ¬ SpConv.Dead A4 (i 0) (i 1) := by
  rw [SpConv.cond1_iff]
  unfold SpConv.Dead SpConv.cnt
  exact not_le.symm

/-! ## At the launch -/

variable (m : (ℓ : Loc nD τ sig) → Buf (Elt Ideal) ℓ)

/-- The launch's result array in closed form. -/
def G (c : Dev nD) : FVec Ideal S9x65536x128 .bf16 := SpConv.kOut (V m c main_v30) (V m c main_v8) (tbl m 0)

theorem wordAt_eq (c : Dev nD) (t : Fin (cfgM m).N) : wordAt m c t = (tbl m 0) (ix1 (kOf m t)) :=
  cntWord_eq c (grid0.coords t) (tbl m 0)

theorem live_iff (c : Dev nD) (t : Fin (cfgM m).N) :
    k0_cond1 (grid0.coords t) (wordAt m c t) = 1#1 ↔ ¬ SpConv.Dead (tbl m 0) (kOf m t) (pbOf m t) := by
  rw [wordAt_eq]
  exact live_iff_word (grid0.coords t) (tbl m 0)

/-- With the pair count at most `262144`, at a point whose block has a live slot the packed operand's block index is
    the point's own block. -/
theorem qOf_live (hle : ∀ k : Fin 9, SpConv.cnt (tbl m 0) k ≤ 262144) (c : Dev nD) (t : Fin (cfgM m).N)
    (h1 : k0_cond1 (grid0.coords t) (wordAt m c t) = 1#1) : qOf m t = (pbOf m t).val := by
  have hq : (pbOf m t).val < 8 := (pbOf m t).isLt
  have hlive := (SpConv.cond1_iff _ _).mp h1
  rw [wordAt_eq] at hlive
  have h := congrFun (SpConv.transform0_eq (tbl m) (grid0.coords t)) 1
  show cc0_transform_0 k0_off1_inb numel1_S1 (tbl m) (grid0.coords t) 1 = _
  rw [h]
  show (SpConv.blockChain (BitVec.ofNat 32 ((grid0.coords t) 1).val)
      ((tbl m).at 0 (Rect.unit (s := S9) ![(Scalar.indexCast (BitVec.ofNat 32 ((grid0.coords t) 0).val)).toNat] S1.size (k0_off1_inb (grid0.coords t))) numel1_S1)).toNat = _
  rw [pfWord_eq (tbl m) (grid0.coords t)]
  exact SpConv.blockChain_live (pbOf m t).val hq _ (hle (kOf m t)) hlive

/-- An element of the packed operand's block at a point is the packed array's at plane `k`, row `q · 8192 + r`. -/
theorem iblk0_apply (c : Dev nD) (t : Fin (cfgM m).N) (r : Fin 8192) (j : Fin 128) :
    iblk m c 0 t (ix3 (0 : Fin 1) r j)
      = V m c main_v30 (ix3 (kOf m t) (⟨qOf m t * 8192 + r.val, by have := qOf_lt m t; omega⟩ : Fin 65536) j) := by
  show V m c main_v30 ((((cfgM m).win 0).blk t).view.emb (ix3 (0 : Fin 1) r j)) = _
  rw [emb0]

/-- An element of the matrix block at a point is the weight array's at plane `k`. -/
theorem iblk1_apply (c : Dev nD) (t : Fin (cfgM m).N) (j l : Fin 128) :
    iblk m c 1 t (ix3 (0 : Fin 1) j l) = V m c main_v8 (ix3 (kOf m t) j l) := by
  show V m c main_v8 ((((cfgM m).win 1).blk t).view.emb (ix3 (0 : Fin 1) j l)) = _
  rw [emb1]

set_option maxHeartbeats 2000000 in
/-- WHAT POINT `t` WRITES BACK is block `t` of `G`. -/
theorem flushed_eq (hle : ∀ k : Fin 9, SpConv.cnt (tbl m 0) k ≤ 262144) (c : Dev nD) (t : Fin (cfgM m).N) :
    (dats m 0 c).flushed 2 t = (((cfgM m).win 2).blk t).view.read (Elt Ideal) (G m c) := by
  show ((cfgM m).win 2).cut (grid0.coords t) ((dats m 0 c).after 2 t) = _
  rw [after2]
  refine funext fun (j : S1x8192x128.Idx) => ?_
  obtain ⟨z, r, l, rfl⟩ : ∃ (z : Fin 1) (r : Fin 8192) (l : Fin 128), j = ix3 z r l := ⟨j 0, j 1, j 2, eq_ix3 j⟩
  obtain rfl : z = 0 := Subsingleton.elim _ _
  show outsAt m c t (ix3 (0 : Fin 1) r l) = G m c ((((cfgM m).win 2).blk t).view.emb (ix3 (0 : Fin 1) r l))
  rw [emb2]
  by_cases h1 : k0_cond1 (grid0.coords t) (wordAt m c t) = 1#1
  · have hnd := (live_iff m c t).mp h1
    have hq := qOf_live m hle c t h1
    rw [outsAt_live m c t h1]
    refine (outLive_apply (iblk m c 0 t) (iblk m c 1 t) r l).trans ?_
    refine Eq.trans ?_ (kOut_live (V m c main_v30) (V m c main_v8) (tbl m 0) (kOf m t) (pbOf m t) r l hnd).symm
    refine Finset.sum_congr rfl fun j _ => ?_
    refine congrArg₂ (· * ·) ?_ (iblk1_apply m c t j l)
    exact (iblk0_apply m c t r j).trans
      (congrArg (fun x : Fin 65536 => V m c main_v30 (ix3 (kOf m t) x j))
        (Fin.ext (by show qOf m t * 8192 + r.val = (pbOf m t).val * 8192 + r.val; rw [hq])))
  · have hd : SpConv.Dead (tbl m 0) (kOf m t) (pbOf m t) := by
      by_contra hnd; exact h1 ((live_iff m c t).mpr hnd)
    rw [outsAt_dead m c t h1]
    refine (outDead_apply r l).trans ?_
    exact (kOut_dead (V m c main_v30) (V m c main_v8) (tbl m 0) (kOf m t) (pbOf m t) r l hd).symm

/-- THE ARRAY after the launch is `G`. -/
theorem final (hle : ∀ k : Fin 9, SpConv.cnt (tbl m 0) k ≤ 262144) (c : Dev nD) :
    (dats m 0 c).arrAt 2 (cfgM m).N = G m c :=
  (dats m 0 c).arrAt_eq_of_cover 2 (G m c) (fun t _ => flushed_eq m hle c t) (cover2 m)

end Cert.KernelIdeal.Hand

end
-- ==== Proof.WBig.lean ====
import proofs.«404092_j12403865551324_3_alg».proof.Proof.Spec
import Idealize.ShloMosaic.Lib.Pipeline.Value
import Idealize.ShloMosaic.Lib.ValueLayout
import Idealize.ShloMosaic.Lib.IdealHost

noncomputable section

namespace Cert.SpConv

open Idealize.ShloMosaic Idealize.ShloMosaic.ValueIdx

section Blocks
open Cert.KernelIdeal

/-! ## The two blocks the block-diagonal weight is built from -/

/-- The offset's weight block at an index: the reshape splits the offset `k` row-major into `(k / 3, k % 3)`, the
    transpose brings the output channel from the first axis to the last, and the format change is the identity on the
    extended reals. -/
theorem kW_apply (A1 : Wgt) (k : Fin 9) (c d : Fin 32) : kW A1 (ix3 k c d) = wk A1 k c d := by
  unfold kW wk
  rw [truncf_apply]
  rw [transpose_apply _ _ _ (ix3 k c d) (ix3 d k c)
    (fun b => match b with | ⟨0, _⟩ => rfl | ⟨1, _⟩ => rfl | ⟨2, _⟩ => rfl)]
  refine shapeCast_apply _ _ _ _ ?_
  rw [Shape.rowMajor_val_four, Shape.rowMajor_val_three]
  show ((d.val * 3 + k.val / 3) * 3 + k.val % 3) * 32 + c.val = (d.val * 9 + k.val) * 32 + c.val
  omega

/-- The zero block at an index: the broadcast zero word is the real zero. -/
theorem kZ_apply (k : Fin 9) (c d : Fin 32) : kZ (ix3 k c d) = 0 := by
  unfold kZ
  rw [broadcastInDim_scalar_apply, constant_apply, Ideal.ofBits_zero_bf16]

/-! ## Four equal pieces laid end to end -/

/-- The piece of four that position `n` (the axis coordinate over the pieces' common extent) names. -/
def pick4 {β : Type} (n : Nat) (b0 b1 b2 b3 : β) : β :=
  if n = 0 then b0 else if n = 1 then b1 else if n = 2 then b2 else b3

/-- Reading the chosen piece at an index is choosing among the pieces' entries at that index. -/
theorem pick4_apply {ι β : Type} (n : Nat) (f0 f1 f2 f3 : ι → β) (x : ι) :
    pick4 n f0 f1 f2 f3 x = pick4 n (f0 x) (f1 x) (f2 x) (f3 x) := by
  unfold pick4
  split_ifs <;> rfl

/-- Four `[9, 32, 32]` blocks laid side by side along the last axis, read at `(k, c, l)`: column `l` lies in block
    `l / 32` at column `l % 32`. -/
theorem concat4_cols_apply (b0 b1 b2 b3 : FVec Ideal S9x32x32 .bf16)
    (h : Shape.Concatenates [S9x32x32, S9x32x32, S9x32x32, S9x32x32] S9x32x128 2)
    (k : Fin 9) (c : Fin 32) (l : Fin 128) :
    concatenate S9x32x128 2 [⟨S9x32x32, b0⟩, ⟨S9x32x32, b1⟩, ⟨S9x32x32, b2⟩, ⟨S9x32x32, b3⟩] h (ix3 k c l)
      = pick4 (l.val / 32) b0 b1 b2 b3 (ix3 k c (⟨l.val % 32, by omega⟩ : Fin 32)) := by
  have hl := l.isLt
  obtain ⟨n, hn, hN⟩ : ∃ n, n < 4 ∧ l.val / 32 = n := ⟨_, by omega, rfl⟩
  rw [hN]
  refine concatenate_apply_piece (t := S9x32x128) (2 : Fin S9x32x128.rank)
    [⟨S9x32x32, b0⟩, ⟨S9x32x32, b1⟩, ⟨S9x32x32, b2⟩, ⟨S9x32x32, b3⟩] h (ix3 k c l) n hn S9x32x32 (pick4 n b0 b1 b2 b3) ?_ rfl
    (32 * n) ?_ _ ?_ ?_
  · interval_cases n <;> rfl
  · interval_cases n <;> rfl
  · intro b
    match b with
    | ⟨0, _⟩ => exact fun _ => rfl
    | ⟨1, _⟩ => exact fun _ => rfl
    | ⟨2, _⟩ => exact fun hne => absurd rfl hne
  · show 32 * n + l.val % 32 = l.val
    omega

/-- Four `[9, 32, 128]` row-blocks stacked along the middle axis, read at `(k, j, l)`: row `j` lies in row-block
    `j / 32` at row `j % 32`. -/
theorem concat4_rows_apply (r0 r1 r2 r3 : FVec Ideal S9x32x128 .bf16)
    (h : Shape.Concatenates [S9x32x128, S9x32x128, S9x32x128, S9x32x128] S9x128x128 1)
    (k : Fin 9) (j l : Fin 128) :
    concatenate S9x128x128 1 [⟨S9x32x128, r0⟩, ⟨S9x32x128, r1⟩, ⟨S9x32x128, r2⟩, ⟨S9x32x128, r3⟩] h (ix3 k j l)
      = pick4 (j.val / 32) r0 r1 r2 r3 (ix3 k (⟨j.val % 32, by omega⟩ : Fin 32) l) := by
  have hj := j.isLt
  obtain ⟨n, hn, hN⟩ : ∃ n, n < 4 ∧ j.val / 32 = n := ⟨_, by omega, rfl⟩
  rw [hN]
  refine concatenate_apply_piece (t := S9x128x128) (1 : Fin S9x128x128.rank)
    [⟨S9x32x128, r0⟩, ⟨S9x32x128, r1⟩, ⟨S9x32x128, r2⟩, ⟨S9x32x128, r3⟩] h (ix3 k j l) n hn S9x32x128 (pick4 n r0 r1 r2 r3) ?_ rfl
    (32 * n) ?_ _ ?_ ?_
  · interval_cases n <;> rfl
  · interval_cases n <;> rfl
  · intro b
    match b with
    | ⟨0, _⟩ => exact fun _ => rfl
    | ⟨1, _⟩ => exact fun hne => absurd rfl hne
    | ⟨2, _⟩ => exact fun _ => rfl
  · show 32 * n + j.val % 32 = j.val
    omega

/-- A row-block of the block-diagonal weight read at `(k, c, l)`: the block in position `l / 32`, at column `l % 32`. -/
theorem kWRow_apply (A1 : Wgt) (b0 b1 b2 b3 : FVec Ideal S9x32x32 .bf16) (k : Fin 9) (c : Fin 32) (l : Fin 128) :
    kWRow A1 b0 b1 b2 b3 (ix3 k c l)
      = pick4 (l.val / 32) (b0 (ix3 k c (⟨l.val % 32, by omega⟩ : Fin 32))) (b1 (ix3 k c (⟨l.val % 32, by omega⟩ : Fin 32)))
          (b2 (ix3 k c (⟨l.val % 32, by omega⟩ : Fin 32))) (b3 (ix3 k c (⟨l.val % 32, by omega⟩ : Fin 32))) := by
  unfold kWRow
  rw [concat4_cols_apply, pick4_apply]

end Blocks

/-- The block-diagonal weight read at an index: inside a diagonal `32 × 32` block it is the offset's weight at the
    position within the block, outside the diagonal blocks it is zero. -/
theorem kWBig_apply (A1 : Wgt) (k : Fin 9) (j l : Fin 128) :
    kWBig A1 (ix3 k j l)
      = if j.val / 32 = l.val / 32 then wk A1 k (⟨j.val % 32, by omega⟩ : Fin 32) (⟨l.val % 32, by omega⟩ : Fin 32) else 0 := by
  have hj := j.isLt
  have hl := l.isLt
  unfold kWBig
  rw [concat4_rows_apply, pick4_apply, kWRow_apply, kWRow_apply, kWRow_apply, kWRow_apply, kW_apply, kZ_apply]
  obtain ⟨n, hn, hN⟩ : ∃ n, n < 4 ∧ j.val / 32 = n := ⟨_, by omega, rfl⟩
  obtain ⟨m, hm, hM⟩ : ∃ m, m < 4 ∧ l.val / 32 = m := ⟨_, by omega, rfl⟩
  rw [hN, hM]
  generalize wk A1 k (⟨j.val % 32, by omega⟩ : Fin 32) (⟨l.val % 32, by omega⟩ : Fin 32) = w
  interval_cases n <;> interval_cases m <;> rfl

end Cert.SpConv

end
-- ==== Proof.Gathered.lean ====
import proofs.«404092_j12403865551324_3_alg».proof.Proof.Spec
import Idealize.ShloMosaic.Lib.Pipeline.Value
import Idealize.ShloMosaic.Lib.ValueLayout
import Idealize.ShloMosaic.Lib.IdealHost
import Idealize.ShloMosaic.Lib.StableHlo.Predicate

noncomputable section

namespace Cert.SpConv

open Idealize.ShloMosaic Idealize.ShloMosaic.ValueIdx
open Cert.KernelIdeal Cert.KernelIdeal.Gen

/-! ## The row gather read at an index -/

/-- The gather of rows of a `[262145, 32]` table at a `[9, 262144, 1]` array of start words: result element `(k, p, c)`
    is the table at the row named by the start word `idx(k, p, 0)`, read signed and clamped into `[0, 262144]` (the slice
    on the row axis has size one, so the last admissible start is `262145 - 1`), and at column `c` (the column axis is
    the one offset axis: start zero, offset the result's last coordinate). -/
theorem gatherRow_apply {α : Type} {w : Nat} (x : S262145x32.Idx → α) (idx : IVec S9x262144x1 w)
    (k : Fin 9) (p : Fin 262144) (c : Fin 32) :
    Host.gather gather_S262145x32_S9x262144x1_S9x262144x32_2_0_n_n_0_2_132 x idx (ix3 k p c)
      = x (ix2 (⟨min (idx (ix3 k p (0 : Fin 1))).toInt.toNat 262144, by omega⟩ : Fin 262145) c) := by
  unfold Host.gather
  congr 1
  funext a
  match a with
  | ⟨0, _⟩ =>
    -- the row axis: collapsed and start-indexed; no batching and no offset coordinate
    refine Fin.ext ?_
    show gather_S262145x32_S9x262144x1_S9x262144x32_2_0_n_n_0_2_132.start (ix3 k p c) idx 0
        + gather_S262145x32_S9x262144x1_S9x262144x32_2_0_n_n_0_2_132.batchCoord (ix3 k p c) 0
        + gather_S262145x32_S9x262144x1_S9x262144x32_2_0_n_n_0_2_132.offCoord (ix3 k p c) 0
      = min (idx (ix3 k p (0 : Fin 1))).toInt.toNat 262144
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S262145x32_S9x262144x1_S9x262144x32_2_0_n_n_0_2_132.startIndexMap from List.mem_singleton.mpr rfl)]
    have hsi : gather_S262145x32_S9x262144x1_S9x262144x32_2_0_n_n_0_2_132.siIdx (ix3 k p c)
        ⟨List.idxOf (0 : Fin 2) gather_S262145x32_S9x262144x1_S9x262144x32_2_0_n_n_0_2_132.startIndexMap,
          List.idxOf_lt_length_iff.2 (List.mem_singleton.mpr rfl)⟩ = ix3 k p (0 : Fin 1) := by
      funext b; refine Fin.ext ?_
      match b with
      | ⟨0, _⟩ => rfl
      | ⟨1, _⟩ => rfl
      | ⟨2, _⟩ => rfl
    rw [hsi]
    rfl
  | ⟨1, _⟩ =>
    -- the column axis: not start-indexed, not batching; the offset coordinate is the result's last coordinate
    refine Fin.ext ?_
    show gather_S262145x32_S9x262144x1_S9x262144x32_2_0_n_n_0_2_132.start (ix3 k p c) idx 1
        + gather_S262145x32_S9x262144x1_S9x262144x32_2_0_n_n_0_2_132.batchCoord (ix3 k p c) 1
        + gather_S262145x32_S9x262144x1_S9x262144x32_2_0_n_n_0_2_132.offCoord (ix3 k p c) 1
      = c.val
    rw [GatherDims.batchCoord_eq_zero _ _ _ List.not_mem_nil]
    have hs : gather_S262145x32_S9x262144x1_S9x262144x32_2_0_n_n_0_2_132.start (ix3 k p c) idx 1 = 0 := by
      unfold GatherDims.start
      rw [dif_neg (show ¬ (1 : Fin 2) ∈ gather_S262145x32_S9x262144x1_S9x262144x32_2_0_n_n_0_2_132.startIndexMap by decide)]
    have ho : gather_S262145x32_S9x262144x1_S9x262144x32_2_0_n_n_0_2_132.offCoord (ix3 k p c) 1 = c.val := by
      unfold GatherDims.offCoord
      rw [dif_pos (show (1 : Fin 2) ∈ gather_S262145x32_S9x262144x1_S9x262144x32_2_0_n_n_0_2_132.sKept by decide)]
      rfl
    rw [hs, ho]
    omega

/-! ## The padded table -/

/-- The bf16 zero word is the real zero. -/
theorem ofBits_bf16_zero : Ideal.ofBits .bf16 0x0000#16 = 0 := by simp [Ideal.ofBits, Ideal.ieee]

/-- A row of the padded table before the appended one is the feature row (the change of float format is the identity
    on extended reals). -/
theorem kPadded_apply_lt (A0 : Feat) (r : Fin 262145) (hr : r.val < 262144) (c : Fin 32) :
    kPadded A0 (ix2 r c) = A0 (ix2 (⟨r.val, hr⟩ : Fin 262144) c) := by
  unfold kPadded
  refine (concatenate_pair_apply_left (0 : Fin S262145x32.rank) _ _ concatenates_S262144x32_S1x32_S262145x32_d0 (ix2 r c) rfl
    (ix2 (⟨r.val, hr⟩ : Fin 262144) c) (fun b => by match b with | ⟨0, _⟩ => rfl | ⟨1, _⟩ => rfl)).trans ?_
  rfl

/-- The appended row of the padded table is zero. -/
theorem kPadded_apply_last (A0 : Feat) (c : Fin 32) :
    kPadded A0 (ix2 (⟨262144, by omega⟩ : Fin 262145) c) = 0 := by
  unfold kPadded
  refine (concatenate_pair_apply_right (0 : Fin S262145x32.rank) _ _ concatenates_S262144x32_S1x32_S262145x32_d0
    (ix2 (⟨262144, by omega⟩ : Fin 262145) c) rfl rfl (ix2 (0 : Fin 1) c)
    (fun b hb => by match b with | ⟨0, _⟩ => exact absurd rfl hb | ⟨1, _⟩ => rfl) (Nat.zero_add 262144)).trans ?_
  rw [broadcastInDim_scalar_apply, constant_apply, ofBits_bf16_zero]

/-! ## Words -/

/-- A signed compare of a small position with a word is the compare of the integers. -/
theorem slt_ofNat_eq (p : Nat) (hp : p < 2 ^ 31) (n : BitVec 32) :
    IntOp.cmpi .slt (BitVec.ofNat 32 p) n = if (p : Int) < n.toInt then 1#1 else 0#1 := by
  show BitVec.ofBool ((BitVec.ofNat 32 p).slt n) = _
  rw [BitVec.slt, StableHlo.Predicate.toInt_ofNat_small p hp]
  by_cases h : (p : Int) < n.toInt
  · rw [if_pos h, decide_eq_true h]; rfl
  · rw [if_neg h, decide_eq_false h]; rfl

/-- A word that is not negative is not below zero. -/
theorem slt_zero_of_nonneg (w : BitVec 32) (hw : 0 ≤ w.toInt) : IntOp.cmpi .slt w 0#32 = 0#1 := by
  show BitVec.ofBool (w.slt 0#32) = 0#1
  rw [BitVec.slt, show (0#32 : BitVec 32).toInt = 0 from rfl, decide_eq_false (by omega)]; rfl

/-- Counting a negative word from the end of the table leaves a word that is not negative as it is. -/
theorem norm_word (w : BitVec 32) (hw : 0 ≤ w.toInt) :
    Scalar.select (IntOp.cmpi .slt w 0#32) (IntOp.addi w 262145#32) w = w := by
  rw [slt_zero_of_nonneg w hw, select_zero]

/-! ## The index array at a slot -/

/-- The liveness mask at slot `(k, p)`: the signed compare of the position's word with the count word. -/
theorem validMask_apply (A4 : Num) (k : Fin 9) (p : Fin 262144) :
    validMask A4 (ix2 k p) = IntOp.cmpi .slt (BitVec.ofNat 32 p.val) (A4 (ix1 k)) := by
  have e1 : broadcastInDim S9x262144 ![0, 1] bcast_S1x262144_S9x262144_0_1
      (broadcastInDim S1x262144 ![1] bcast_S262144_S1x262144_1 (iotaInDim S262144 32 0)) (ix2 k p) = BitVec.ofNat 32 p.val := by
    refine (broadcastInDim_apply _ _ _ (ix2 k p) (ix2 (0 : Fin 1) p) (fun a => by match a with | ⟨0, _⟩ => rfl | ⟨1, _⟩ => rfl)).trans ?_
    refine (broadcastInDim_apply _ _ _ (ix2 (0 : Fin 1) p) (ix1 p) (fun a => by match a with | ⟨0, _⟩ => rfl)).trans ?_
    rfl
  have e2 : broadcastInDim S9x262144 ![0, 1] bcast_S9x1_S9x262144_0_1 (broadcastInDim S9x1 ![0] bcast_S9_S9x1_0 A4) (ix2 k p)
      = A4 (ix1 k) := by
    refine (broadcastInDim_apply _ _ _ (ix2 k p) (ix2 k (0 : Fin 1)) (fun a => by match a with | ⟨0, _⟩ => rfl | ⟨1, _⟩ => rfl)).trans ?_
    exact broadcastInDim_apply _ _ _ (ix2 k (0 : Fin 1)) (ix1 k) (fun a => by match a with | ⟨0, _⟩ => rfl)
  exact congrArg₂ (IntOp.cmpi .slt) e1 e2

/-- The input-row word of slot `(k, p)`: row 0 of the pairs array. -/
theorem inIdx_apply (A3 : Pairs) (k : Fin 9) (p : Fin 262144) : inIdx A3 (ix2 k p) = A3 (ix3 (0 : Fin 2) k p) := by
  unfold inIdx
  refine (shapeCast_apply _ _ (ix2 k p) (ix3 (0 : Fin 1) k p) ?_).trans ?_
  · rw [Shape.rowMajor_val_three, Shape.rowMajor_val_two]
    show (0 * 9 + k.val) * 262144 + p.val = k.val * 262144 + p.val
    omega
  · exact extractStridedSlice_apply _ _ _ (ix3 (0 : Fin 1) k p) (ix3 (0 : Fin 2) k p)
      (fun a => by
        match a with
        | ⟨0, _⟩ => rfl
        | ⟨1, _⟩ => exact (Nat.zero_add k.val).symm
        | ⟨2, _⟩ => exact (Nat.zero_add p.val).symm)

/-- The kernel's gather index at a live slot is the slot's input-row word. -/
theorem kClamped_apply_live (A3 : Pairs) (A4 : Num) (k : Fin 9) (p : Fin 262144) (hl : Live A4 k p) :
    kClamped A3 A4 (ix2 k p) = A3 (ix3 (0 : Fin 2) k p) := by
  show Scalar.select (validMask A4 (ix2 k p)) (inIdx A3 (ix2 k p)) 262144#32 = _
  rw [validMask_apply, slt_ofNat_eq p.val (by omega), if_pos (show (p.val : Int) < (A4 (ix1 k)).toInt from hl), select_one, inIdx_apply]

/-- The kernel's gather index at a slot that is not live is the appended row's index. -/
theorem kClamped_apply_dead (A3 : Pairs) (A4 : Num) (k : Fin 9) (p : Fin 262144) (hl : ¬ Live A4 k p) :
    kClamped A3 A4 (ix2 k p) = 262144#32 := by
  show Scalar.select (validMask A4 (ix2 k p)) (inIdx A3 (ix2 k p)) 262144#32 = _
  rw [validMask_apply, slt_ofNat_eq p.val (by omega), if_neg (show ¬ (p.val : Int) < (A4 (ix1 k)).toInt from hl), select_zero]

/-- The normalized index in terms of the clamped one, at a slot. -/
theorem kNorm_apply (A3 : Pairs) (A4 : Num) (k : Fin 9) (p : Fin 262144) :
    kNorm A3 A4 (ix2 k p)
      = Scalar.select (IntOp.cmpi .slt (kClamped A3 A4 (ix2 k p)) 0#32) (IntOp.addi (kClamped A3 A4 (ix2 k p)) 262145#32)
          (kClamped A3 A4 (ix2 k p)) := rfl

/-- In range, the normalized index at a live slot is the slot's input-row word: it is not negative. -/
theorem kNorm_apply_live (A3 : Pairs) (A4 : Num) (h : InRange A3 A4) (k : Fin 9) (p : Fin 262144) (hl : Live A4 k p) :
    kNorm A3 A4 (ix2 k p) = A3 (ix3 (0 : Fin 2) k p) := by
  rw [kNorm_apply, kClamped_apply_live A3 A4 k p hl]
  exact norm_word _ (h.1 k p).1

/-- The normalized index at a slot that is not live is the appended row's index. -/
theorem kNorm_apply_dead (A3 : Pairs) (A4 : Num) (k : Fin 9) (p : Fin 262144) (hl : ¬ Live A4 k p) :
    kNorm A3 A4 (ix2 k p) = 262144#32 := by
  rw [kNorm_apply, kClamped_apply_dead A3 A4 k p hl]
  exact norm_word _ (by decide)

/-! ## The packed gathered operand -/

/-- The packed gathered operand read at an index: lane `j` of packed row `r` is channel `j % 32` of what slot
    `4 r + j / 32` gathers. In range, a live slot's clamped index is its own row and a dead slot's is the zero row. -/
theorem kGatheredR_apply (A0 : Feat) (A3 : Pairs) (A4 : Num) (h : InRange A3 A4) (k : Fin 9) (r : Fin 65536) (j : Fin 128) :
    kGatheredR A0 A3 A4 (ix3 k r j)
      = gath A0 A3 A4 k (⟨4 * r.val + j.val / 32, by omega⟩ : Fin 262144) (⟨j.val % 32, by omega⟩ : Fin 32) := by
  generalize hp : (⟨4 * r.val + j.val / 32, by omega⟩ : Fin 262144) = p
  generalize hc : (⟨j.val % 32, by omega⟩ : Fin 32) = c
  have hpv : p.val = 4 * r.val + j.val / 32 := by rw [← hp]
  have hcv : c.val = j.val % 32 := by rw [← hc]
  unfold kGatheredR
  -- the reshape: the same row-major position
  refine (shapeCast_apply _ _ (ix3 k r j) (ix3 k p c) ?_).trans ?_
  · rw [Shape.rowMajor_val_three, Shape.rowMajor_val_three]
    show (k.val * 262144 + p.val) * 32 + c.val = (k.val * 65536 + r.val) * 128 + j.val
    omega
  rw [gatherRow_apply]
  -- the start word of slot (k, p)
  have hb : broadcastInDim S9x262144x1 ![0, 1] bcast_S9x262144_S9x262144x1_0_1 (kNorm A3 A4) (ix3 k p (0 : Fin 1))
      = kNorm A3 A4 (ix2 k p) :=
    broadcastInDim_apply _ _ _ _ (ix2 k p) (fun a => by match a with | ⟨0, _⟩ => rfl | ⟨1, _⟩ => rfl)
  unfold gath
  by_cases hl : Live A4 k p
  · -- live: the word names a feature row, and is its own clamp
    rw [if_pos hl]
    have hw := h.1 k p
    unfold inRow at hw
    have hlt : min (A3 (ix3 (0 : Fin 2) k p)).toInt.toNat 262144 < 262144 := by
      generalize (A3 (ix3 (0 : Fin 2) k p)).toInt = z at hw ⊢
      omega
    have hrow : (⟨min (broadcastInDim S9x262144x1 ![0, 1] bcast_S9x262144_S9x262144x1_0_1 (kNorm A3 A4)
        (ix3 k p (0 : Fin 1))).toInt.toNat 262144, by omega⟩ : Fin 262145)
        = ⟨min (A3 (ix3 (0 : Fin 2) k p)).toInt.toNat 262144, by omega⟩ := by
      refine Fin.ext ?_
      show min (broadcastInDim S9x262144x1 ![0, 1] bcast_S9x262144_S9x262144x1_0_1 (kNorm A3 A4)
        (ix3 k p (0 : Fin 1))).toInt.toNat 262144 = _
      rw [hb, kNorm_apply_live A3 A4 h k p hl]
    rw [hrow, kPadded_apply_lt A0 _ hlt c]
    refine congrArg (fun q => A0 (ix2 q c)) (Fin.ext ?_)
    show min (A3 (ix3 (0 : Fin 2) k p)).toInt.toNat 262144 = min (inRow A3 k p).toNat 262143
    unfold inRow
    generalize (A3 (ix3 (0 : Fin 2) k p)).toInt = z at hw ⊢
    omega
  · -- not live: the appended row, zero
    rw [if_neg hl]
    have hrow : (⟨min (broadcastInDim S9x262144x1 ![0, 1] bcast_S9x262144_S9x262144x1_0_1 (kNorm A3 A4)
        (ix3 k p (0 : Fin 1))).toInt.toNat 262144, by omega⟩ : Fin 262145)
        = ⟨262144, by omega⟩ := by
      refine Fin.ext ?_
      show min (broadcastInDim S9x262144x1 ![0, 1] bcast_S9x262144_S9x262144x1_0_1 (kNorm A3 A4)
        (ix3 k p (0 : Fin 1))).toInt.toNat 262144 = 262144
      rw [hb, kNorm_apply_dead A3 A4 k p hl]
      decide
    rw [hrow, kPadded_apply_last]

end Cert.SpConv

end
-- ==== Proof.RefDot.lean ====
import proofs.«404092_j12403865551324_3_alg».proof.Proof.Spec
import proofs.«404092_j12403865551324_3_alg».proof.Proof.Gen.ReferenceIdeal.Read
import Idealize.ShloMosaic.PureOps.Ideal.Laws
import Idealize.ShloMosaic.Lib.ValueIdx

noncomputable section

namespace Cert.SpConv

open Idealize.ShloMosaic Idealize.ShloMosaic.ValueIdx
open Cert.ReferenceIdeal Cert.ReferenceIdeal.Gen Cert.ReferenceIdeal.Read

/-! ## Words -/

/-- A word below `2 ^ 31` read signed is its number. -/
private theorem toInt_ofNat_lt (n : Nat) (hn : n < 2 ^ 31) : (BitVec.ofNat 32 n).toInt = (n : Int) := by
  have e := BitVec.toInt_eq_toNat_cond (BitVec.ofNat 32 n)
  have t : (BitVec.ofNat 32 n).toNat = n := by rw [BitVec.toNat_ofNat]; omega
  rw [t, if_pos (by omega)] at e
  exact e

/-- A signed "less than" of two words is the comparison of their signed values. -/
private theorem cmpi_slt_eq (a b : BitVec 32) : IntOp.cmpi .slt a b = if a.toInt < b.toInt then 1#1 else 0#1 := by
  unfold IntOp.cmpi
  by_cases h : a.toInt < b.toInt
  · rw [if_pos h]; simp [BitVec.slt, h]
  · rw [if_neg h]; simp [BitVec.slt, h]

/-! ## The row gather read at an index -/

/-- The reference's gather takes whole rows of the table: result element `(k, p, c)` is the table's at column `c` of the
    row the start word `idx[k, p, 0]` names, read signed and clamped into `[0, 262143]`. -/
theorem rGather_row_apply {α : Type} {w : Nat} (x : S262144x32.Idx → α) (idx : IVec S9x262144x1 w)
    (k : Fin 9) (p : Fin 262144) (c : Fin 32) :
    Host.gather gather_S262144x32_S9x262144x1_S9x262144x32_2_0_n_n_0_2_132 x idx (ix3 k p c)
      = x (ix2 (⟨min (idx (ix3 k p (0 : Fin 1))).toInt.toNat 262143, by omega⟩ : Fin 262144) c) := by
  unfold Host.gather
  congr 1
  funext a
  refine Fin.ext ?_
  match a with
  | ⟨0, _⟩ =>
    show gather_S262144x32_S9x262144x1_S9x262144x32_2_0_n_n_0_2_132.start (ix3 k p c) idx 0
      + gather_S262144x32_S9x262144x1_S9x262144x32_2_0_n_n_0_2_132.batchCoord (ix3 k p c) 0
      + gather_S262144x32_S9x262144x1_S9x262144x32_2_0_n_n_0_2_132.offCoord (ix3 k p c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S262144x32.rank) ∈ gather_S262144x32_S9x262144x1_S9x262144x32_2_0_n_n_0_2_132.startIndexMap from List.mem_singleton.mpr rfl)]
    have hsi : gather_S262144x32_S9x262144x1_S9x262144x32_2_0_n_n_0_2_132.siIdx (ix3 k p c)
        ⟨List.idxOf (0 : Fin S262144x32.rank) gather_S262144x32_S9x262144x1_S9x262144x32_2_0_n_n_0_2_132.startIndexMap,
          List.idxOf_lt_length_iff.2 (List.mem_singleton.mpr rfl)⟩ = ix3 k p (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S262144x32_S9x262144x1_S9x262144x32_2_0_n_n_0_2_132.start (ix3 k p c) idx 1
      + gather_S262144x32_S9x262144x1_S9x262144x32_2_0_n_n_0_2_132.batchCoord (ix3 k p c) 1
      + gather_S262144x32_S9x262144x1_S9x262144x32_2_0_n_n_0_2_132.offCoord (ix3 k p c) 1 = c.val
    rw [GatherDims.batchCoord_eq_zero _ _ _ List.not_mem_nil]
    unfold GatherDims.start
    rw [dif_neg (show ¬(1 : Fin S262144x32.rank) ∈ gather_S262144x32_S9x262144x1_S9x262144x32_2_0_n_n_0_2_132.startIndexMap by decide)]
    unfold GatherDims.offCoord
    rw [dif_pos (show (1 : Fin S262144x32.rank) ∈ gather_S262144x32_S9x262144x1_S9x262144x32_2_0_n_n_0_2_132.sKept by decide)]
    simp only [Nat.zero_add, Nat.add_zero]
    rfl

/-! ## The stages of the reference read at an index -/

/-- The reference's contraction is the generated stage of its `dot_general`. -/
theorem rDot_eq_stage (A0 : Feat) (A1 : Wgt) (A3 : Pairs) (A4 : Num) :
    rDot A0 A1 A3 A4 = val_main_v21 (F := Ideal) A0 A1 A3 A4 := rfl

/-- The reshaped and transposed weight at `(k, c, d)` is `weight[d, k / 3, k % 3, c]`. -/
theorem rWeight_apply (A1 : Wgt) (k : Fin 9) (c d : Fin 32) :
    val_main_v1 (F := Ideal) A1 (ix3 k c d) = wk A1 k c d := by
  rw [val_main_v1_apply, val_main_v0_apply]
  unfold wk
  congr 1
  funext a
  refine Fin.ext ?_
  have hk := k.isLt; have hc := c.isLt; have hd := d.isLt
  match a with
  | ⟨0, _⟩ => show ((d.val * 9 + k.val) * 32 + c.val) / 288 = d.val; omega
  | ⟨1, _⟩ => show ((d.val * 9 + k.val) * 32 + c.val) / 96 % 3 = k.val / 3; omega
  | ⟨2, _⟩ => show ((d.val * 9 + k.val) * 32 + c.val) / 32 % 3 = k.val % 3; omega
  | ⟨3, _⟩ => show ((d.val * 9 + k.val) * 32 + c.val) % 32 = c.val; omega

/-- The liveness mask at `(k, p, c)`: the bit of `p < n_k`, whatever the channel. -/
theorem rMask_apply (A4 : Num) (k : Fin 9) (p : Fin 262144) (c : Fin 32) :
    val_main_call0_v1 (F := Ideal) A4 (ix3 k p c) = if Live A4 k p then 1#1 else 0#1 := by
  rw [val_main_call0_v1_apply, val_main_v19_apply, val_main_v11_apply, val_main_v9_apply, val_main_v7_apply,
    val_main_v6_apply, val_main_v10_apply, val_main_v8_apply, cmpi_slt_eq]
  have e : idx_main_v8 (idx_main_v10 (idx_main_v19 (idx_main_call0_v1 (ix3 k p c)))) = ix1 k :=
    funext fun a => Fin.ext (by match a with | ⟨0, _⟩ => rfl)
  have hp : (BitVec.ofNat 32 ((idx_main_v7 (idx_main_v9 (idx_main_v19 (idx_main_call0_v1 (ix3 k p c))))) 0).val).toInt
      = (p.val : Int) := toInt_ofNat_lt p.val (by have := p.isLt; omega)
  rw [e, hp]
  rfl

/-- The gather's start word at `(k, p)`: the input-row word itself when it is not negative. -/
theorem rStart_word (A3 : Pairs) (k : Fin 9) (p : Fin 262144) (h : 0 ≤ inRow A3 k p) :
    val_main_v17 (F := Ideal) A3 (ix3 k p (0 : Fin 1)) = A3 (ix3 (0 : Fin 2) k p) := by
  rw [val_main_v17_apply, val_main_v16_apply, val_main_v13_apply, val_main_v3_apply, val_main_v2_apply,
    val_main_v12_apply, val_main_c_apply]
  have hk := k.isLt; have hp := p.isLt
  have e : idx_main_v2 (idx_main_v3 (idx_main_v17 (ix3 k p (0 : Fin 1)))) = ix3 (0 : Fin 2) k p :=
    funext fun a => Fin.ext (by
      match a with
      | ⟨0, _⟩ => rfl
      | ⟨1, _⟩ => show (k.val * 262144 + p.val) / 262144 % 9 = k.val; omega
      | ⟨2, _⟩ => show (k.val * 262144 + p.val) % 262144 = p.val; omega)
  have hz : (0#32 : BitVec 32).toInt = 0 := by decide
  rw [e, cmpi_slt_eq, if_neg (by unfold inRow at h; omega), select_zero]

/-- The masked gathered rows at `(k, p, c)`: the slot's feature row when live, zero when not. -/
theorem rMasked_apply (A0 : Feat) (A3 : Pairs) (A4 : Num) (h : InRange A3 A4) (k : Fin 9) (p : Fin 262144) (c : Fin 32) :
    val_main_v20 (F := Ideal) A0 A3 A4 (ix3 k p c) = gath A0 A3 A4 k p c := by
  rw [val_main_v20_apply, rMask_apply, val_main_call0_v2_apply, val_main_call0_v0_apply, val_main_cst_apply]
  unfold val_main_v18
  have hrow : ∀ hlt, (⟨min (val_main_v17 (F := Ideal) A3 (ix3 k p (0 : Fin 1))).toInt.toNat 262143, hlt⟩ : Fin 262144)
      = rowOf A3 k p := fun hlt => Fin.ext (by
    show min (val_main_v17 (F := Ideal) A3 (ix3 k p (0 : Fin 1))).toInt.toNat 262143 = (rowOf A3 k p).val
    rw [rStart_word A3 k p (h.1 k p).1]; rfl)
  rw [rGather_row_apply, hrow]
  unfold gath
  by_cases hl : Live A4 k p
  · rw [if_pos hl, if_pos hl, select_one]
  · rw [if_neg hl, if_neg hl, select_zero]; exact Ideal.ofBits_zero_f32

/-- The reference's contraction read at an index: slot `(k, p)`'s contribution to channel `d`. -/
theorem rDot_apply (A0 : Feat) (A1 : Wgt) (A3 : Pairs) (A4 : Num) (h : InRange A3 A4) (k : Fin 9) (p : Fin 262144) (d : Fin 32) :
    rDot A0 A1 A3 A4 (ix3 k p d) = contrib A0 A1 A3 A4 k p d := by
  rw [rDot_eq_stage, val_main_v21_apply]
  unfold contrib
  refine Finset.sum_congr rfl fun c _ => ?_
  have el : lidx_main_v21 (ix3 k p d) c = ix3 k p c :=
    funext fun a => Fin.ext (by match a with | ⟨0, _⟩ => rfl | ⟨1, _⟩ => rfl | ⟨2, _⟩ => rfl)
  have er : ridx_main_v21 (ix3 k p d) c = ix3 k c d :=
    funext fun a => Fin.ext (by match a with | ⟨0, _⟩ => rfl | ⟨1, _⟩ => rfl | ⟨2, _⟩ => rfl)
  rw [el, er, rMasked_apply A0 A3 A4 h, rWeight_apply]

end Cert.SpConv

end
-- ==== Proof.Core.lean ====
import proofs.«404092_j12403865551324_3_alg».proof.Proof.WBig
import proofs.«404092_j12403865551324_3_alg».proof.Proof.Gathered
import proofs.«404092_j12403865551324_3_alg».proof.Proof.RefDot
import Idealize.ShloMosaic.Lib.Pipeline.Value
import Idealize.ShloMosaic.Lib.FinSumWindow

noncomputable section

namespace Cert.SpConv

open Idealize.ShloMosaic Idealize.ShloMosaic.ValueIdx

/-- The reshape of the packed rows read at an index: slot p, channel d sits in packed row p / 4 at lane
    (p % 4) * 32 + d; both are position (k * 262144 + p) * 32 + d in row-major order. -/
theorem unpack_apply (X : FVec Ideal Cert.KernelIdeal.S9x65536x128 .bf16)
    (hc : Cert.KernelIdeal.S9x65536x128.ShapeCasts Cert.KernelIdeal.S9x262144x32) (k : Fin 9) (p : Fin 262144) (d : Fin 32) :
    shapeCast Cert.KernelIdeal.S9x262144x32 X hc (ix3 k p d)
      = X (ix3 k (⟨p.val / 4, by omega⟩ : Fin 65536) (⟨p.val % 4 * 32 + d.val, by omega⟩ : Fin 128)) := by
  refine shapeCast_apply _ _ _ _ ?_
  rw [Shape.rowMajor_val_three, Shape.rowMajor_val_three]
  show (k.val * 65536 + p.val / 4) * 128 + (p.val % 4 * 32 + d.val) = (k.val * 262144 + p.val) * 32 + d.val
  omega

/-- The kernel's unpacked result at slot (k, p), channel d is the launch's result at packed row p / 4, lane (p % 4) * 32 + d. -/
theorem kContrib_eq_kOutAt (A0 : Feat) (A1 : Wgt) (A3 : Pairs) (A4 : Num) (k : Fin 9) (p : Fin 262144) (d : Fin 32) :
    kContrib A0 A1 A3 A4 (ix3 k p d)
      = kOutAt (kGatheredR A0 A3 A4) (kWBig A1) A4 k (⟨p.val / 4, by omega⟩ : Fin 65536) (⟨p.val % 4 * 32 + d.val, by omega⟩ : Fin 128) := by
  unfold kContrib
  rw [unpack_apply]
  rfl

/-- What a slot gathers depends on the slot and the channel only through their numbers. -/
theorem gath_congr (A0 : Feat) (A3 : Pairs) (A4 : Num) (k : Fin 9) {p p' : Fin 262144} {c c' : Fin 32}
    (hp : p.val = p'.val) (hc : c.val = c'.val) : gath A0 A3 A4 k p c = gath A0 A3 A4 k p' c' := by
  obtain rfl := Fin.ext hp
  obtain rfl := Fin.ext hc
  rfl

/-- The same for an offset's weight. -/
theorem wk_congr (A1 : Wgt) (k : Fin 9) {c c' d d' : Fin 32} (hc : c.val = c'.val) (hd : d.val = d'.val) :
    wk A1 k c d = wk A1 k c' d' := by
  obtain rfl := Fin.ext hc
  obtain rfl := Fin.ext hd
  rfl

/-- A slot that is not live contributes zero to every channel: it gathers zeros, and zero times any extended real is zero. -/
theorem contrib_of_not_live (A0 : Feat) (A1 : Wgt) (A3 : Pairs) (A4 : Num) (k : Fin 9) (p : Fin 262144) (d : Fin 32)
    (hnl : ¬ Live A4 k p) : contrib A0 A1 A3 A4 k p d = 0 := by
  unfold contrib
  refine Finset.sum_eq_zero fun c _ => ?_
  unfold gath
  rw [if_neg hnl, zero_mul]

/-- Every slot of a dead block is dead: the block's first slot (p / 32768) * 32768 is at most p and at or past the pair count. -/
theorem not_live_of_dead (A4 : Num) (k : Fin 9) (p : Fin 262144)
    (hd : Dead A4 k (⟨p.val / 4 / 8192, by omega⟩ : Fin 8)) : ¬ Live A4 k p := by
  unfold Dead at hd
  unfold Live
  have hd' : cnt A4 k ≤ ((p.val / 4 / 8192 : Nat) : Int) * 32768 := hd
  omega

/-- The kernel's unpacked result read at an index: slot `(k, p)`'s contribution to channel `d`. Over a dead block every
    slot is dead, so the contribution is a sum of zeros; elsewhere the 128-term row-by-matrix product keeps only the
    32 terms of the slot's own diagonal block. -/
theorem kContrib_apply (A0 : Feat) (A1 : Wgt) (A3 : Pairs) (A4 : Num) (h : InRange A3 A4) (k : Fin 9) (p : Fin 262144) (d : Fin 32) :
    kContrib A0 A1 A3 A4 (ix3 k p d) = contrib A0 A1 A3 A4 k p d := by
  rw [kContrib_eq_kOutAt]
  unfold kOutAt
  by_cases hd : Dead A4 k (⟨p.val / 4 / 8192, by omega⟩ : Fin 8)
  · rw [if_pos hd, contrib_of_not_live A0 A1 A3 A4 k p d (not_live_of_dead A4 k p hd)]
  · rw [if_neg hd]
    -- only the 32 lanes of the slot's own diagonal block carry a non-zero matrix entry
    refine (FinSumWindow.sum_window (W := 32) (32 * (p.val % 4)) (by omega) _ ?_).trans ?_
    · intro P hP
      rw [kWBig_apply, if_neg (by show ¬ (P.val / 32 = (p.val % 4 * 32 + d.val) / 32); omega), mul_zero]
    · unfold contrib
      refine Finset.sum_congr rfl fun c _ => ?_
      rw [kGatheredR_apply A0 A3 A4 h, kWBig_apply,
        if_pos (by show (32 * (p.val % 4) + c.val) / 32 = (p.val % 4 * 32 + d.val) / 32; omega)]
      refine congrArg₂ (· * ·) (gath_congr A0 A3 A4 k ?_ ?_) (wk_congr A1 k ?_ ?_)
      · show 4 * (p.val / 4) + (32 * (p.val % 4) + c.val) / 32 = p.val
        omega
      · show (32 * (p.val % 4) + c.val) % 32 = c.val
        omega
      · show (32 * (p.val % 4) + c.val) % 32 = c.val
        omega
      · show (p.val % 4 * 32 + d.val) % 32 = d.val
        omega

/-- The two programs' contribution arrays are one array. -/
theorem core (A0 : Feat) (A1 : Wgt) (A3 : Pairs) (A4 : Num) (h : InRange A3 A4) : kContrib A0 A1 A3 A4 = rDot A0 A1 A3 A4 := by
  funext j
  obtain ⟨k, p, d, rfl⟩ : ∃ (k : Fin 9) (p : Fin 262144) (d : Fin 32), j = ix3 k p d := ⟨j 0, j 1, j 2, eq_ix3 j⟩
  rw [kContrib_apply A0 A1 A3 A4 h, rDot_apply A0 A1 A3 A4 h]

end Cert.SpConv

end
-- ==== Proof.Result.lean ====
import proofs.«404092_j12403865551324_3_alg».proof.Proof.Core
import Idealize.ShloMosaic.Lib.Pipeline.Value
import Idealize.ShloMosaic.Lib.ValueIdx
import Idealize.ShloMosaic.PureOps.Ideal.Laws

/-!
# The two programs' results are one array

Both programs scatter-add the `[2359296, 32]` array of contributions (the `[9, 262144, 32]` array flattened, offset-major)
over the output rows named by row 1 of the pairs array (a negative word counted from the end, an out-of-range row
dropped). The kernel starts the accumulation from the bias broadcast over the rows; the reference starts from zeros
and adds the broadcast bias afterwards. At the ideal instance the scatter-add is, element by element, the start value
plus the sum of the updates that land there, so the two results are `bias + ∑` and `(0 + ∑) + bias`: equal by
commutativity of addition on the extended reals, once the two contribution arrays are known to be one (`core`).
-/

noncomputable section

namespace Cert.SpConv

open Idealize.ShloMosaic Idealize.ShloMosaic.ValueIdx

section Kernel
open Cert.KernelIdeal Cert.KernelIdeal.Gen

/-- The output-row index of every flattened slot, as the kernel's last lines compute it. -/
def kTailIdx (A3 : Pairs) : IVec S2359296x1 32 :=
  broadcastInDim S2359296x1 ![0] bcast_S2359296_S2359296x1_0
    (select
      (cmpi .slt (shapeCast S2359296 (shapeCast S9x262144 (extractStridedSlice S1x9x262144 ![1, 0, 0] A3 slices_S2x9x262144_S1x9x262144_1_0_0) shapeCasts_S1x9x262144_S9x262144) shapeCasts_S9x262144_S2359296)
        (broadcastInDim S2359296 ![] bcast_S_S2359296 (constantI S_ 32 0#32)))
      (addi (shapeCast S2359296 (shapeCast S9x262144 (extractStridedSlice S1x9x262144 ![1, 0, 0] A3 slices_S2x9x262144_S1x9x262144_1_0_0) shapeCasts_S1x9x262144_S9x262144) shapeCasts_S9x262144_S2359296)
        (broadcastInDim S2359296 ![] bcast_S_S2359296 (constantI S_ 32 262144#32)))
      (shapeCast S2359296 (shapeCast S9x262144 (extractStridedSlice S1x9x262144 ![1, 0, 0] A3 slices_S2x9x262144_S1x9x262144_1_0_0) shapeCasts_S1x9x262144_S9x262144) shapeCasts_S9x262144_S2359296))

/-- The kernel's result from the launch's unpacked result `C`: the scatter-add of `C` into the broadcast bias. -/
def kResOf (A2 : Bias) (A3 : Pairs) (C : FVec Ideal S9x262144x32 .bf16) : FVec Ideal S262144x32 .f32 :=
  Host.scatterAdd scatter_S262144x32_S2359296x1_S2359296x32_1_0_0_1
    (broadcastInDim S262144x32 ![1] bcast_S32_S262144x32_1 A2)
    (kTailIdx A3)
    (extf .f32 (shapeCast S2359296x32 C shapeCasts_S9x262144x32_S2359296x32) bitsLt_bf16_f32)

/-- The kernel's result as a function of the arguments. -/
def kRes (A0 : Feat) (A1 : Wgt) (A2 : Bias) (A3 : Pairs) (A4 : Num) : FVec Ideal S262144x32 .f32 :=
  kResOf A2 A3 (kContrib A0 A1 A3 A4)

end Kernel

section Reference
open Cert.ReferenceIdeal Cert.ReferenceIdeal.Gen

/-- The reference's result as a function of the arguments: its run's term, the contraction named `rDot`. -/
def rRes (A0 : Feat) (A1 : Wgt) (A2 : Bias) (A3 : Pairs) (A4 : Num) : FVec Ideal S262144x32 .f32 :=
  addf
    (Host.scatterAdd scatter_S262144x32_S2359296x1_S2359296x32_1_0_0_1
      (broadcastInDim S262144x32 ![] bcast_S_S262144x32 (constant S_ .f32 0x00000000#32))
      (broadcastInDim S2359296x1 ![0] bcast_S2359296_S2359296x1_0
        (select
          (cmpi .slt (shapeCast S2359296 (shapeCast S9x262144 (extractStridedSlice S1x9x262144 ![1, 0, 0] A3 slices_S2x9x262144_S1x9x262144_1_0_0) shapeCasts_S1x9x262144_S9x262144) shapeCasts_S9x262144_S2359296)
            (broadcastInDim S2359296 ![] bcast_S_S2359296 (constantI S_ 32 0#32)))
          (addi (shapeCast S2359296 (shapeCast S9x262144 (extractStridedSlice S1x9x262144 ![1, 0, 0] A3 slices_S2x9x262144_S1x9x262144_1_0_0) shapeCasts_S1x9x262144_S9x262144) shapeCasts_S9x262144_S2359296)
            (broadcastInDim S2359296 ![] bcast_S_S2359296 (constantI S_ 32 262144#32)))
          (shapeCast S2359296 (shapeCast S9x262144 (extractStridedSlice S1x9x262144 ![1, 0, 0] A3 slices_S2x9x262144_S1x9x262144_1_0_0) shapeCasts_S1x9x262144_S9x262144) shapeCasts_S9x262144_S2359296)))
      (shapeCast S2359296x32 (rDot A0 A1 A3 A4) shapeCasts_S9x262144x32_S2359296x32))
    (broadcastInDim S262144x32 ![0, 1] bcast_S1x32_S262144x32_0_1 (broadcastInDim S1x32 ![1] bcast_S32_S1x32_1 A2))

end Reference

section Bridge
open Cert.KernelIdeal Cert.KernelIdeal.Gen

/-- At the ideal instance a widening format change of a whole array is the array itself. -/
private theorem extf_ideal_eq {s : Shape} {φ ψ : FTy} (x : FVec Ideal s φ) (hb : φ.bits < ψ.bits) :
    (extf ψ x hb : FVec Ideal s ψ) = x := rfl

/-- At the ideal instance the accumulating scatter at an element is the start value there plus the sum of the updates
    that land there (any shapes). -/
private theorem scatterAdd_apply {s si su : Shape} {w : Nat} (D : ScatterDims s si su) (x : FVec Ideal s .f32) (idx : IVec si w)
    (upd : FVec Ideal su .f32) (i : s.Idx) :
    Host.scatterAdd D x idx upd i = x i + ∑ j ∈ Finset.univ.filter (fun j => D.resultIdx? j idx = some i), upd j := rfl

/-- Scatter-adding updates into the bias broadcast over the rows is scatter-adding them into zeros and adding the
    broadcast bias afterwards: at element `(n, d)` both are `bias[d]` plus the sum of the updates that land there. -/
theorem scatterAdd_bias {w : Nat} (D : ScatterDims S262144x32 S2359296x1 S2359296x32)
    (idx : IVec S2359296x1 w) (upd : FVec Ideal S2359296x32 .f32) (A2 : Bias)
    (h1 : S32.BroadcastsInDim S262144x32 (![1] : Fin 1 → Fin S262144x32.rank))
    (h0 : S_.BroadcastsInDim S262144x32 (![] : Fin 0 → Fin S262144x32.rank))
    (h2 : S32.BroadcastsInDim S1x32 (![1] : Fin 1 → Fin S1x32.rank))
    (h3 : S1x32.BroadcastsInDim S262144x32 (![0, 1] : Fin 2 → Fin S262144x32.rank)) :
    Host.scatterAdd D (broadcastInDim S262144x32 ![1] h1 A2) idx upd
      = addf (Host.scatterAdd D (broadcastInDim S262144x32 ![] h0 (constant (F := Ideal) S_ .f32 0x00000000#32)) idx upd)
          (broadcastInDim S262144x32 ![0, 1] h3 (broadcastInDim S1x32 ![1] h2 A2)) := by
  funext i
  obtain ⟨n, d, rfl⟩ : ∃ (n : Fin 262144) (d : Fin 32), i = ix2 n d := ⟨i 0, i 1, eq_ix2 i⟩
  have b1 : broadcastInDim S262144x32 ![1] h1 A2 (ix2 n d) = A2 (ix1 d) :=
    broadcastInDim_apply _ h1 A2 (ix2 n d) (ix1 d) (fun a => match a with
      | ⟨0, _⟩ => by show d.val = if (32 : Nat) = 1 then 0 else d.val; rw [if_neg (by decide)])
  have b0 : broadcastInDim S262144x32 ![] h0 (constant (F := Ideal) S_ .f32 0x00000000#32) (ix2 n d) = 0 :=
    (broadcastInDim_apply _ h0 (constant (F := Ideal) S_ .f32 0x00000000#32) (ix2 n d) ix0 (fun a => a.elim0)).trans
      Ideal.ofBits_zero_f32
  have b2 : broadcastInDim S262144x32 ![0, 1] h3 (broadcastInDim S1x32 ![1] h2 A2) (ix2 n d) = A2 (ix1 d) :=
    (broadcastInDim_apply _ h3 (broadcastInDim S1x32 ![1] h2 A2) (ix2 n d) (ix2 (0 : Fin 1) d) (fun a => match a with
      | ⟨0, _⟩ => by show 0 = if (1 : Nat) = 1 then 0 else n.val; rw [if_pos rfl]
      | ⟨1, _⟩ => by show d.val = if (32 : Nat) = 1 then 0 else d.val; rw [if_neg (by decide)])).trans
    (broadcastInDim_apply _ h2 A2 (ix2 (0 : Fin 1) d) (ix1 d) (fun a => match a with
      | ⟨0, _⟩ => by show d.val = if (32 : Nat) = 1 then 0 else d.val; rw [if_neg (by decide)]))
  rw [addf_apply, scatterAdd_apply, scatterAdd_apply, b1, b0, b2, zero_add, add_comm]

end Bridge

/-- THE RESULTS AGREE. -/
theorem result_eq (A0 : Feat) (A1 : Wgt) (A2 : Bias) (A3 : Pairs) (A4 : Num) (h : InRange A3 A4) :
    kRes A0 A1 A2 A3 A4 = rRes A0 A1 A2 A3 A4 := by
  have hC : kContrib A0 A1 A3 A4 = rDot A0 A1 A3 A4 := core A0 A1 A3 A4 h
  have hk : kRes A0 A1 A2 A3 A4
      = Host.scatterAdd Cert.KernelIdeal.scatter_S262144x32_S2359296x1_S2359296x32_1_0_0_1
          (broadcastInDim Cert.KernelIdeal.S262144x32 ![1] Cert.KernelIdeal.Gen.bcast_S32_S262144x32_1 A2) (kTailIdx A3)
          (shapeCast Cert.KernelIdeal.S2359296x32 (rDot A0 A1 A3 A4) Cert.KernelIdeal.Gen.shapeCasts_S9x262144x32_S2359296x32) := by
    rw [← hC]; rfl
  rw [hk]
  exact scatterAdd_bias _ _ _ A2 _ _ _ _

end Cert.SpConv

end
-- ==== Proof.KI.Entry.lean ====
import proofs.«404092_j12403865551324_3_alg».proof.Proof.KI.Frame
import proofs.«404092_j12403865551324_3_alg».proof.Proof.Result
import Idealize.ShloMosaic.Lib.StableHlo.Run

/-!
# What the host lines compute around the launch (at the ideal instance)

The launch is entered with its first operand at the packed gathered rows, its second at the block-diagonal weight and
its table at the pair counts, each the composed term of the host operations before it applied to the argument arrays;
and the program's result is the last lines' scatter-add applied to the launch's result array unpacked.
-/
set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The five argument arrays as launched. -/
abbrev a0 (c : Dev nD) : SpConv.Feat := m ((c : Thread nD τ).loc main_arg0)
abbrev a1 (c : Dev nD) : SpConv.Wgt := m ((c : Thread nD τ).loc main_arg1)
abbrev a2 (c : Dev nD) : SpConv.Bias := m ((c : Thread nD τ).loc main_arg2)
abbrev a3 (c : Dev nD) : SpConv.Pairs := m ((c : Thread nD τ).loc main_arg3)
abbrev a4 (c : Dev nD) : SpConv.Num := m ((c : Thread nD τ).loc main_arg4)

set_option maxHeartbeats 2000000 in
/-- The launch's first operand when it is entered: the packed gathered rows. -/
theorem V_v30 (c : Dev nD) : V m c main_v30 = SpConv.kGatheredR (a0 m c) (a3 m c) (a4 m c) := by
  show StableHlo.after (List.flatten [hostOps0, hostOps0_1, hostOps0_2]) (fun b => m (c, b)) (Proc.devRef .tc main_v30) = _
  simp only [hostOps0, hostOps0_1, hostOps0_2, List.flatten_cons, List.flatten_nil, List.append_nil, List.cons_append, List.nil_append]
  after_results_simp
  rfl

set_option maxHeartbeats 2000000 in
/-- The launch's second operand when it is entered: the block-diagonal weight. -/
theorem V_v8 (c : Dev nD) : V m c main_v8 = SpConv.kWBig (a1 m c) := by
  show StableHlo.after (List.flatten [hostOps0, hostOps0_1, hostOps0_2]) (fun b => m (c, b)) (Proc.devRef .tc main_v8) = _
  simp only [hostOps0, hostOps0_1, hostOps0_2, List.flatten_cons, List.flatten_nil, List.append_nil, List.cons_append, List.nil_append]
  after_results_simp
  rfl

/-- The launch's table: the pair counts as launched (no host line writes them). -/
theorem tbl_eq : tbl m 0 = a4 m 0 := by
  unfold tbl
  exact StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall,
      StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

set_option maxHeartbeats 2000000 in
/-- The program's result after the last lines: their scatter-add of the launch's result array, unpacked, into the
    broadcast bias, at the output rows the pairs array names. -/
theorem result_of_arr (c : Dev nD) :
    Pipeline.afterTail pcfgs (fun _ => adm m) (dats m) 0 (V0 m) [hostOps1] c main_v43
      = SpConv.kResOf (a2 m c) (a3 m c)
          (shapeCast S9x262144x32 ((dats m 0 c).arrAt 2 (cfgM m).N) shapeCasts_S9x65536x128_S9x262144x32) := by
  -- the launch's result array is the pipeline's third window's array, at what the proof data gives after the last point
  have h31 : Pipeline.withArrays (Pipeline.pin pcfgs (fun _ => adm m) 0).spec c (V0 m c)
      (fun w => (dats m 0 c).arrAt w (Pipeline.pin pcfgs (fun _ => adm m) 0).N) (Proc.devRef .tc main_v31)
      = (dats m 0 c).arrAt 2 (cfgM m).N :=
    Pipeline.withArrays_arr spec0 winFacts0.arr_inj c _ _ 2
  -- the bias is no window's array and no line before the launch writes it
  have h2 : Pipeline.withArrays (Pipeline.pin pcfgs (fun _ => adm m) 0).spec c (V0 m c)
      (fun w => (dats m 0 c).arrAt w (Pipeline.pin pcfgs (fun _ => adm m) 0).N) (Proc.devRef .tc main_arg2)
      = a2 m c := by
    rw [Pipeline.withArrays_of_ne _ c (V0 m c) _ main_arg2 (by exact (by decide : ∀ w, Pipeline.arrRef spec0 w ≠ main_arg2))]
    exact StableHlo.after_of_forall_not_mem (b := Proc.devRef .tc main_arg2) _ _ (List.forall_iff_forall_mem.mp (by
      simp only [hostOps0, hostOps0_1, hostOps0_2, List.flatten_cons, List.flatten_nil, List.append_nil, List.cons_append, List.nil_append, List.Forall,
        StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide)))
  -- the output-row indices are no window's array: row 1 of the pairs array, sliced and reshaped before the launch
  have h12 : Pipeline.withArrays (Pipeline.pin pcfgs (fun _ => adm m) 0).spec c (V0 m c)
      (fun w => (dats m 0 c).arrAt w (Pipeline.pin pcfgs (fun _ => adm m) 0).N) (Proc.devRef .tc main_v12)
      = shapeCast S9x262144 (extractStridedSlice S1x9x262144 ![1, 0, 0] (a3 m c) slices_S2x9x262144_S1x9x262144_1_0_0)
          shapeCasts_S1x9x262144_S9x262144 := by
    rw [Pipeline.withArrays_of_ne _ c (V0 m c) _ main_v12 (by exact (by decide : ∀ w, Pipeline.arrRef spec0 w ≠ main_v12))]
    show StableHlo.after (List.flatten [hostOps0, hostOps0_1, hostOps0_2]) (fun b => m (c, b)) (Proc.devRef .tc main_v12) = _
    simp only [hostOps0, hostOps0_1, hostOps0_2, List.flatten_cons, List.flatten_nil, List.append_nil, List.cons_append, List.nil_append]
    after_results_simp
    rfl
  unfold Pipeline.afterTail
  simp only [List.flatten_cons, List.flatten_nil, List.append_nil]
  simp only [hostOps1]
  after_results_simp
  rw [h31, h2, h12]
  rfl

end Cert.KernelIdeal.Hand

end
-- ==== Proof.KI.Value.lean ====
import proofs.«404092_j12403865551324_3_alg».proof.Proof.KI.Flushed
import proofs.«404092_j12403865551324_3_alg».proof.Proof.KI.Entry

/-!
# The idealized kernel's run, with its result named

Under the index range and the bound on the pair counts, the frame run's post read at the result buffer is the
scatter-add of the kernel's contributions into the broadcast bias, as a function of the five argument arrays.
-/
set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The result buffer after the last lines, as a function of the arguments. -/
theorem res_eq (hR : ∀ c : Dev nD, SpConv.InRange (a3 m c) (a4 m c)) (c : Dev nD) :
    Pipeline.afterTail pcfgs (fun _ => adm m) (dats m) 0 (V0 m) [hostOps1] c main_v43
      = SpConv.kRes (a0 m c) (a1 m c) (a2 m c) (a3 m c) (a4 m c) := by
  have hle : ∀ k : Fin 9, SpConv.cnt (tbl m 0) k ≤ 262144 := by
    rw [tbl_eq]; exact (hR 0).2
  rw [result_of_arr, final m hle c]
  unfold G
  rw [V_v30, V_v8]
  obtain rfl : c = 0 := Subsingleton.elim _ _
  rw [tbl_eq]
  rfl

/-- Every weakly fair execution terminates with the result at that function of the arguments and the arguments
    unchanged. -/
theorem run_value (hR : ∀ c : Dev nD, SpConv.InRange (a3 m c) (a4 m c)) :
    θ_run defs (onTc (τ := τ) (main (F := Ideal))) ⟨m, fun _ => 0, ρ⟩ (fun r => ∀ c : Dev nD,
      r.2.mem ((c.tc : Thread nD τ).loc main_v43) = SpConv.kRes (a0 m c) (a1 m c) (a2 m c) (a3 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v43 (Pipeline.mem_restRefs_of main_v43 (by decide) (show ∀ w : Fin 3, (spec0 w).arr.view.ref ≠ main_v43 from by decide))).trans (res_eq m hR c),
     ((h c).2 main_arg0 (Pipeline.mem_restRefs_of main_arg0 (by decide) (show ∀ w : Fin 3, (spec0 w).arr.view.ref ≠ main_arg0 from by decide))).trans (kept_arg0 m c),
     ((h c).2 main_arg1 (Pipeline.mem_restRefs_of main_arg1 (by decide) (show ∀ w : Fin 3, (spec0 w).arr.view.ref ≠ main_arg1 from by decide))).trans (kept_arg1 m c),
     ((h c).2 main_arg2 (Pipeline.mem_restRefs_of main_arg2 (by decide) (show ∀ w : Fin 3, (spec0 w).arr.view.ref ≠ main_arg2 from by decide))).trans (kept_arg2 m c),
     ((h c).2 main_arg3 (Pipeline.mem_restRefs_of main_arg3 (by decide) (show ∀ w : Fin 3, (spec0 w).arr.view.ref ≠ main_arg3 from by decide))).trans (kept_arg3 m c),
     ((h c).2 main_arg4 (Pipeline.mem_restRefs_of main_arg4 (by decide) (show ∀ w : Fin 3, (spec0 w).arr.view.ref ≠ main_arg4 from by decide))).trans (kept_arg4 m c)⟩)
    (run_main m ρ)

end Cert.KernelIdeal.Hand

end
-- ==== Proof.PreDecode.lean ====
import proofs.«404092_j12403865551324_3_alg».proof.Proof.Spec
import proofs.«404092_j12403865551324_3_alg».proof.Proof.Gen.Pre_finite_inputs
import Idealize.ShloMosaic.Lib.StableHlo.Predicate
import Idealize.ShloMosaic.Lib.ReduceAll
import Idealize.ShloMosaic.Lib.Pipeline.Value

noncomputable section

namespace Cert.SpConv

open Idealize.ShloMosaic Idealize.ShloMosaic.ValueIdx

/-- The rank-0 shape has one index. -/
instance subsingleton_scalar_idx : Subsingleton Cert.Pre_finite_inputs.S_.Idx := ⟨fun a b => funext fun d => d.elim0⟩

/-- Row 0 of the pairs array, sliced out as `[1, 9, 262144]` and reshaped to `[9, 262144]`, read at `(k, p)`: the slice
    has offset 0 on every axis and the reshape only drops the leading unit axis, so the row-major position
    `k * 262144 + p` is kept and the entry is the pairs array at `(0, k, p)`. -/
theorem row0_apply (A3 : Pairs)
    (hs : Cert.Pre_finite_inputs.S2x9x262144.Slices ![0, 0, 0] Cert.Pre_finite_inputs.S1x9x262144)
    (hc : Cert.Pre_finite_inputs.S1x9x262144.ShapeCasts Cert.Pre_finite_inputs.S9x262144) (k : Fin 9) (p : Fin 262144) :
    shapeCast Cert.Pre_finite_inputs.S9x262144 (extractStridedSlice Cert.Pre_finite_inputs.S1x9x262144 ![0, 0, 0] A3 hs) hc (ix2 k p)
      = A3 (ix3 (0 : Fin 2) k p) := by
  refine (shapeCast_apply _ hc (ix2 k p) (ix3 (0 : Fin 1) k p) ?_).trans ?_
  · rw [Shape.rowMajor_val_three, Shape.rowMajor_val_two]
    show ((0 : Nat) * 9 + k.val) * 262144 + p.val = k.val * 262144 + p.val
    omega
  · refine extractStridedSlice_apply _ A3 hs (ix3 (0 : Fin 1) k p) (ix3 (0 : Fin 2) k p) (fun a => ?_)
    match a with
    | ⟨0, _⟩ => rfl
    | ⟨1, _⟩ => show k.val = 0 + k.val; omega
    | ⟨2, _⟩ => show p.val = 0 + p.val; omega

/-- A scalar word broadcast to any shape reads that word everywhere. -/
theorem bcast_word_apply {t : Shape} (h : Cert.Pre_finite_inputs.S_.BroadcastsInDim t (![] : Fin 0 → Fin t.rank)) (b : BitVec 32)
    (j : t.Idx) : broadcastInDim t ![] h (constantI Cert.Pre_finite_inputs.S_ 32 b) j = b := rfl

/-- The precondition's last three conjuncts, decoded: every input-row index lies in `[0, 262144)` and every pair
    count is at most `262144`. -/
theorem inRange_of_pre (A0 : Feat) (A1 : Wgt) (A2 : Bias) (A3 : Pairs) (A4 : Num)
    (h : Cert.Pre_finite_inputs.fn (F := Ideal) A0 A1 A2 A3 A4 = (fun _ => 1#1)) : InRange A3 A4 := by
  -- the predicate is a conjunction of six one-bit words; keep the last three
  have e := congrFun h ValueIdx.ix0
  dsimp only [Cert.Pre_finite_inputs.fn, Cert.Pre_finite_inputs.fn_part1] at e
  obtain ⟨e5, hcnt⟩ := IntOp.andi_eq_one.1 e
  obtain ⟨e4, hlt⟩ := IntOp.andi_eq_one.1 e5
  obtain ⟨-, hge⟩ := IntOp.andi_eq_one.1 e4
  refine ⟨fun k p => ⟨?_, ?_⟩, fun k => ?_⟩
  · -- 0 ≤ the input row: the "all" of the signed compare against the broadcast 0, read at (k, p)
    have c := IntOp.cmpi_sge.1 (Host.reduce_andi_all _ _ _ _ _ hge (ix2 k p))
    rw [row0_apply, bcast_word_apply] at c
    exact c
  · -- the input row < 262144
    have c := IntOp.cmpi_slt.1 (Host.reduce_andi_all _ _ _ _ _ hlt (ix2 k p))
    rw [row0_apply, bcast_word_apply] at c
    exact c
  · -- the pair count ≤ 262144
    have c := IntOp.cmpi_sle.1 (Host.reduce_andi_all _ _ _ _ _ hcnt (ix1 k))
    rw [bcast_word_apply] at c
    exact c

end Cert.SpConv

end
-- ==== Proof.lean ====
/-
  Sparse convolution by index pairs: a Pallas kernel against its jnp reference, over the extended reals.

  For each of 9 kernel offsets `k` there are 262144 pair slots; slot `(k, p)` is live when `p < n_k`, names an input row
  and an output row, and contributes `∑_c feat[in(k,p), c] · weight[d, k, c]` to output element `(out(k,p), d)`; the
  result is the bias plus the sum of the contributions landing on each element.

  The reference gathers the rows, zeroes the rows of slots that are not live, contracts the 32 channels, scatter-adds
  into zeros and adds the bias. The kernel sends a slot that is not live to an appended zero row, packs four slots per
  128-lane row, multiplies 8192 packed rows at a time by the block-diagonal `128 × 128` weight (zeros off the diagonal
  blocks, so the 128-term products keep the slot's own 32 terms), writes zeros for a block of 32768 slots with no live
  slot, and scatter-adds into the broadcast bias. Over the extended reals the two agree element by element:
  `x · 0 = 0` and `0 · x = 0` hold for every `x`, and addition is commutative and associative, so no finiteness is
  used. What IS used is the domain: every input-row index names a row of `feat` (outside it the two programs index
  different tables: a `−1` reads the last feature row in one and the appended zero row in the other), and no pair count
  exceeds the number of slots (beyond `2^31 − 32768` the kernel's 32-bit `⌈n / 32768⌉` wraps and its packed operand's
  block index goes to 0).

  The frames: both kernel programs are host lines, one launch over the grid `9 × 8` with the pair counts as its table,
  and host lines; the launch's proof data, body obligation and run are in Proof/KI (the idealized program) and Proof/K
  (the program as printed; the same text, the two programs differing only in their namespace). The reference is host
  lines only; its frame is its run with the result dropped.
-/
import proofs.«404092_j12403865551324_3_alg».proof.Defs
import proofs.«404092_j12403865551324_3_alg».proof.Proof.Gen.Kernel
import proofs.«404092_j12403865551324_3_alg».proof.Proof.Gen.KernelIdeal
import proofs.«404092_j12403865551324_3_alg».proof.Proof.Gen.ReferenceIdeal
import proofs.«404092_j12403865551324_3_alg».proof.Proof.Gen.ReferenceIdeal.Run
import proofs.«404092_j12403865551324_3_alg».proof.Proof.Gen.Pre_finite_inputs
import proofs.«404092_j12403865551324_3_alg».proof.Proof.K.Frame
import proofs.«404092_j12403865551324_3_alg».proof.Proof.KI.Value
import proofs.«404092_j12403865551324_3_alg».proof.Proof.PreDecode
import proofs.«404092_j12403865551324_3_alg».proof.Proof.Result
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealized kernel's result (the frame run of Proof/KI read at the result buffer) and the reference's (its
    generated run) are the scatter-adds `bias + ∑` and `(0 + ∑) + bias` of one array of contributions. -/
theorem algebraic : Cert.algebraic_KernelIdeal_ReferenceIdeal := by
  intro m ρ m' ρ' hpre hagree
  have hR : ∀ c : Dev Cert.KernelIdeal.nD, Cert.SpConv.InRange (Cert.KernelIdeal.Hand.a3 m c) (Cert.KernelIdeal.Hand.a4 m c) :=
    fun c => Cert.SpConv.inRange_of_pre _ _ _ _ _ (hpre c)
  refine ⟨fun c => Cert.SpConv.kRes (Cert.KernelIdeal.Hand.a0 m c) (Cert.KernelIdeal.Hand.a1 m c) (Cert.KernelIdeal.Hand.a2 m c)
      (Cert.KernelIdeal.Hand.a3 m c) (Cert.KernelIdeal.Hand.a4 m c), Cert.KernelIdeal.Hand.run_value m ρ hR, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.SpConv.result_eq _ _ _ _ _ (hR c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
